-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x42C80000#32 ((536870912 / 5368709 : ℝ) : EReal)
  ∧ IdealRules.named_const.Statement Cert.KernelIdeal.κ "inv_temperature" .f32 0x42C80000#32 ((536870912 / 5368709 : ℝ) : EReal)
  ∧ IdealRules.named_const.Statement Cert.KernelIdeal.κ "inv_temperature" .f32 0x42C80000#32 ((536870912 / 5368709 : ℝ) : EReal)
  ∧ IdealRules.named_const.Statement Cert.KernelIdeal.κ "inv_temperature" .f32 0x42C80000#32 ((536870912 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16x128 : Shape := ⟨3, ![512, 16, 128]⟩
abbrev S_ : Shape := ⟨0, ![]⟩

class Facts : Prop where
  bcast_S_S512x16x128 : S_.BroadcastsInDim S512x16x128 (![] : Fin 0 → Fin S512x16x128.rank)
  reducesTo_S512x16x128_S_d0_1_2 : S512x16x128.ReducesTo [0, 1, 2] S_
  h_S_ : 0 < S_.numel

variable [Facts]

def fn {F : FTy → Type} [FloatOps F] (main_arg0 : FVec F S512x16x128 .f32) (main_arg1 : FVec F S512x16x128 .f32) : IVec S_ 1 :=
  let main_v0 : FVec F S512x16x128 .f32 := Host.absf main_arg0
  let main_cst : FVec F S_ .f32 := constant S_ .f32 0x7F800000#32
  let main_v1 : FVec F S512x16x128 .f32 := broadcastInDim S512x16x128 ![] bcast_S_S512x16x128 main_cst
  let main_v2 : IVec S512x16x128 1 := cmpf .olt main_v0 main_v1
  let main_c : IVec S_ 1 := constantI S_ 1 1#1
  let main_v3 : IVec S_ 1 := (fun x v => Host.reduce IntOp.andi x v reducesTo_S512x16x128_S_d0_1_2 h_S_) main_v2 main_c
  let main_v4 : FVec F S512x16x128 .f32 := Host.absf main_arg1
  let main_cst_0 : FVec F S_ .f32 := constant S_ .f32 0x7F800000#32
  let main_v5 : FVec F S512x16x128 .f32 := broadcastInDim S512x16x128 ![] bcast_S_S512x16x128 main_cst_0
  let main_v6 : IVec S512x16x128 1 := cmpf .olt main_v4 main_v5
  let main_c_1 : IVec S_ 1 := constantI S_ 1 1#1
  let main_v7 : IVec S_ 1 := (fun x v => Host.reduce IntOp.andi x v reducesTo_S512x16x128_S_d0_1_2 h_S_) main_v6 main_c_1
  let main_v8 : IVec S_ 1 := andi main_v3 main_v7
  main_v8
-- ==== Kernel.lean ====
abbrev S512x16x128 : Shape := ⟨3, ![512, 16, 128]⟩
abbrev S8192x128 : Shape := ⟨2, ![8192, 128]⟩
abbrev S8192x1 : Shape := ⟨2, ![8192, 1]⟩
abbrev S1024x128 : Shape := ⟨2, ![1024, 128]⟩
abbrev S512x128 : Shape := ⟨2, ![512, 128]⟩
abbrev S1024x1 : Shape := ⟨2, ![1024, 1]⟩
abbrev S128x512 : Shape := ⟨2, ![128, 512]⟩
abbrev S1024x512 : Shape := ⟨2, ![1024, 512]⟩
abbrev S1024 : Shape := ⟨1, ![1024]⟩
abbrev S8192 : Shape := ⟨1, ![8192]⟩
abbrev S_ : Shape := ⟨0, ![]⟩

abbrev nBuf : Space → Nat
  | .hbm => 34
  | .vmem => 22
  | .smem => 0
  | _ => 0

abbrev bufTy : (tb : Table) → Fin (tcTables nBuf tb) → BufTy
  | .hbm, ⟨0, _⟩ => ⟨S512x16x128, .f32⟩
  | .hbm, ⟨1, _⟩ => ⟨S512x16x128, .f32⟩
  | .hbm, ⟨2, _⟩ => ⟨S8192x128, .f32⟩
  | .hbm, ⟨3, _⟩ => ⟨S8192x128, .bf16⟩
  | .hbm, ⟨4, _⟩ => ⟨S8192x128, .f32⟩
  | .hbm, ⟨5, _⟩ => ⟨S8192x128, .bf16⟩
  | .hbm, ⟨6, _⟩ => ⟨S8192x1, .f32⟩
  | .hbm, ⟨7, _⟩ => ⟨S8192x1, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S_, .i1⟩
  | .hbm, ⟨31, _⟩ => ⟨S_, .i1⟩
  | .hbm, ⟨32, _⟩ => ⟨S_, .f32⟩
  | .hbm, ⟨33, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x128, .bf16⟩
  | .local _ .vmem, ⟨12, _⟩ => ⟨S1024x128, .bf16⟩
  | .local _ .vmem, ⟨13, _⟩ => ⟨S512x128, .bf16⟩
  | .local _ .vmem, ⟨14, _⟩ => ⟨S512x128, .bf16⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S512x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_cst : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v104 : BitVec 1 := Scalar.cmpi .eq arg1 c15_i32
  let v105 : BitVec 32 := Scalar.extui v104
  let c0_i32_36 : BitVec 32 := 0#32
  let v106 : BitVec 1 := Scalar.cmpi .ne v105 c0_i32_36
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v104 : BitVec 1 := Scalar.cmpi .eq arg1 c15_i32
  let v105 : BitVec 32 := Scalar.extui v104
  let c0_i32_36 : BitVec 32 := 0#32
  let v106 : BitVec 1 := Scalar.cmpi .ne v105 c0_i32_36
  v106

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S512x16x128_S8192x128 : S512x16x128.ShapeCasts S8192x128
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S1024x512_d0_w32 : S1024x512.Iotas .tc 32 [0]
  iota_S1024x512_d1_w32 : S1024x512.Iotas .tc 32 [1]
  natLt_1_32 : 1 < 32
  reduces_S1024x512_S1024 : S1024x512.Reduces [1] S1024
  shapeCasts_S1024_S1024x1 : S1024.ShapeCasts S1024x1
  broadcasts_S1024x1_S1024x512 : S1024x1.Broadcasts S1024x512
  shapeCasts_S8192x1_S8192 : S8192x1.ShapeCasts S8192
  reducesTo_S8192_S_d0 : S8192.ReducesTo [0] S_
  h_S_ : 0 < S_.numel
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .bf16 = 32 ∨ (Rect.block (s := S8192x128) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_0) S1024x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_1) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S512x16x128 : Shape := ⟨3, ![512, 16, 128]⟩
abbrev S8192x128 : Shape := ⟨2, ![8192, 128]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x2 : Shape := ⟨2, ![8192, 2]⟩

abbrev nBuf : Space → Nat
  | .hbm => 129
  | .vmem => 0
  | .smem => 0
  | _ => 0

abbrev hbmTy0_0 (i : Nat) : BufTy := match i % 128 with
  | 0 => ⟨S512x16x128, .f32⟩
  | 1 => ⟨S512x16x128, .f32⟩
  | 2 => ⟨S8192x128, .f32⟩
  | 3 => ⟨S8192x128, .f32⟩
  | 4 => ⟨S8192x8192, .f32⟩
  | 5 => ⟨S8192, .i32⟩
  | 6 => ⟨S_, .i32⟩
  | 7 => ⟨S_, .i32⟩
  | 8 => ⟨S8192, .i32⟩
  | 9 => ⟨S8192, .i32⟩
  | 10 => ⟨S8192, .i32⟩
  | 11 => ⟨S_, .i32⟩
  | 12 => ⟨S8192, .i32⟩
  | 13 => ⟨S8192, .i1⟩
  | 14 => ⟨S8192, .i32⟩
  | 15 => ⟨S8192, .i32⟩
  | 16 => ⟨S_, .i32⟩
  | 17 => ⟨S8192, .i32⟩
  | 18 => ⟨S8192, .i1⟩
  | 19 => ⟨S8192, .i1⟩
  | 20 => ⟨S_, .i32⟩
  | 21 => ⟨S8192, .i32⟩
  | 22 => ⟨S8192, .i32⟩
  | 23 => ⟨S8192, .i32⟩
  | 24 => ⟨S8192x1, .i32⟩
  | 25 => ⟨S1x8192, .i32⟩
  | 26 => ⟨S8192x8192, .i32⟩
  | 27 => ⟨S8192x8192, .i32⟩
  | 28 => ⟨S8192x8192, .i1⟩
  | 29 => ⟨S8192x1, .i32⟩
  | 30 => ⟨S1x8192, .i32⟩
  | 31 => ⟨S8192x8192, .i32⟩
  | 32 => ⟨S8192x8192, .i32⟩
  | 33 => ⟨S8192x8192, .i1⟩
  | 34 => ⟨S8192x8192, .i1⟩
  | 35 => ⟨S8192x8192, .i1⟩
  | 36 => ⟨S_, .f32⟩
  | 37 => ⟨S8192x8192, .f32⟩
  | 38 => ⟨S8192x8192, .f32⟩
  | 39 => ⟨S_, .f32⟩
  | 40 => ⟨S8192x8192, .f32⟩
  | 41 => ⟨S8192x8192, .f32⟩
  | 42 => ⟨S_, .f32⟩
  | 43 => ⟨S8192, .f32⟩
  | 44 => ⟨S_, .f32⟩
  | 45 => ⟨S8192, .f32⟩
  | 46 => ⟨S8192, .f32⟩
  | 47 => ⟨S8192x1, .f32⟩
  | 48 => ⟨S8192x8192, .f32⟩
  | 49 => ⟨S8192x8192, .f32⟩
  | 50 => ⟨S8192x8192, .f32⟩
  | 51 => ⟨S_, .f32⟩
  | 52 => ⟨S8192, .f32⟩
  | 53 => ⟨S8192x1, .f32⟩
  | 54 => ⟨S8192x1, .f32⟩
  | 55 => ⟨S8192x8192, .f32⟩
  | 56 => ⟨S8192x8192, .f32⟩
  | 57 => ⟨S8192x8192, .f32⟩
  | 58 => ⟨S_, .f32⟩
  | 59 => ⟨S8192, .f32⟩
  | 60 => ⟨S_, .f32⟩
  | 61 => ⟨S8192, .f32⟩
  | 62 => ⟨S8192, .f32⟩
  | 63 => ⟨S8192x1, .f32⟩
  | 64 => ⟨S8192x8192, .f32⟩
  | 65 => ⟨S8192x8192, .f32⟩
  | 66 => ⟨S8192x8192, .f32⟩
  | 67 => ⟨S_, .f32⟩
  | 68 => ⟨S8192, .f32⟩
  | 69 => ⟨S8192x1, .f32⟩
  | 70 => ⟨S8192x1, .f32⟩
  | 71 => ⟨S8192x8192, .f32⟩
  | 72 => ⟨S8192x8192, .f32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S8192x1, .i32⟩
  | 89 => ⟨S8192x2, .i32⟩
  | 90 => ⟨S8192, .f32⟩
  | 91 => ⟨S_, .f32⟩
  | 92 => ⟨S_, .f32⟩
  | 93 => ⟨S_, .f32⟩
  | 94 => ⟨S_, .f32⟩
  | 95 => ⟨S_, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x1, .i32⟩
  | 112 => ⟨S8192x2, .i32⟩
  | 113 => ⟨S8192, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .i1⟩
  | 123 => ⟨S_, .f32⟩
  | 124 => ⟨S_, .f32⟩
  | 125 => ⟨S_, .i1⟩
  | 126 => ⟨S_, .i1⟩
  | 127 => ⟨S_, .f32⟩
  | _ => ⟨S512x16x128, .f32⟩

abbrev hbmTy0_1 (i : Nat) : BufTy := match i % 128 with
  | 0 => ⟨S_, .f32⟩
  | _ => ⟨S512x16x128, .f32⟩

abbrev hbmTy (i : Nat) : BufTy := match i / 128 with
  | 0 => hbmTy0_0 i
  | 1 => hbmTy0_1 i
  | _ => ⟨S512x16x128, .f32⟩

abbrev bufTy : (tb : Table) → Fin (tcTables nBuf tb) → BufTy
  | .hbm, ⟨i, _⟩ => hbmTy i
  | _, _ => ⟨S512x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_call1_v0 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_call2_cst_0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_cst_1 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_v20 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_call3_cst_0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_cst_1 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_v22 : Ref sig .tc := ⟨.hbm, 72, rfl⟩
abbrev main_c_1 : Ref sig .tc := ⟨.hbm, 73, rfl⟩
abbrev main_v23 : Ref sig .tc := ⟨.hbm, 74, rfl⟩
abbrev main_v24 : Ref sig .tc := ⟨.hbm, 75, rfl⟩
abbrev main_c_2 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_3 : Ref sig .tc := ⟨.hbm, 80, rfl⟩
abbrev main_v28 : Ref sig .tc := ⟨.hbm, 81, rfl⟩
abbrev main_v29 : Ref sig .tc := ⟨.hbm, 82, rfl⟩
abbrev main_c_4 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_5 : Ref sig .tc := ⟨.hbm, 91, rfl⟩
abbrev main_v37 : Ref sig .tc := ⟨.hbm, 92, rfl⟩
abbrev main_cst_6 : Ref sig .tc := ⟨.hbm, 93, rfl⟩
abbrev main_v38 : Ref sig .tc := ⟨.hbm, 94, rfl⟩
abbrev main_v39 : Ref sig .tc := ⟨.hbm, 95, rfl⟩
abbrev main_c_7 : Ref sig .tc := ⟨.hbm, 96, rfl⟩
abbrev main_v40 : Ref sig .tc := ⟨.hbm, 97, rfl⟩
abbrev main_v41 : Ref sig .tc := ⟨.hbm, 98, rfl⟩
abbrev main_c_8 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_c_9 : Ref sig .tc := ⟨.hbm, 103, rfl⟩
abbrev main_v45 : Ref sig .tc := ⟨.hbm, 104, rfl⟩
abbrev main_v46 : Ref sig .tc := ⟨.hbm, 105, rfl⟩
abbrev main_c_10 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_11 : Ref sig .tc := ⟨.hbm, 114, rfl⟩
abbrev main_v54 : Ref sig .tc := ⟨.hbm, 115, rfl⟩
abbrev main_cst_12 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_13 : Ref sig .tc := ⟨.hbm, 120, rfl⟩
abbrev main_v58 : Ref sig .tc := ⟨.hbm, 121, rfl⟩
abbrev main_v59 : Ref sig .tc := ⟨.hbm, 122, rfl⟩
abbrev main_call4_v0 : Ref sig .tc := ⟨.hbm, 123, rfl⟩
abbrev main_call4_cst : Ref sig .tc := ⟨.hbm, 124, rfl⟩
abbrev main_v60 : Ref sig .tc := ⟨.hbm, 125, rfl⟩
abbrev main_v61 : Ref sig .tc := ⟨.hbm, 126, rfl⟩
abbrev main_cst_14 : Ref sig .tc := ⟨.hbm, 127, rfl⟩
abbrev main_v62 : Ref sig .tc := ⟨.hbm, 128, rfl⟩

abbrev nD : Nat := 1
abbrev τ : Topo := Topo.v7x

variable {F : FTy → Type} [FloatOps F]

class Facts₀ : Prop where
  shapeCasts_S512x16x128_S8192x128 : S512x16x128.ShapeCasts S8192x128
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  transposes_S8192x8192_S8192x8192_1_0 : S8192x8192.Transposes [1, 0] S8192x8192
  concatenates_S8192x1_S8192x1_S8192x2_d1 : Shape.Concatenates [S8192x1, S8192x1] S8192x2 1
  reducesTo_S8192_S_d0 : S8192.ReducesTo [0] S_
  dot_S8192x128_S8192x128_S8192x8192_1_1_0_0_n_n_wf : DotDims.WF S8192x128 S8192x128 S8192x8192 [1] [1] [0] [0] [] []
  gather_S8192x8192_S8192x2_S8192_n_01_n_n_01_1_11_wf : GatherDims.WF S8192x8192 S8192x2 S8192 [] [0, 1] [] [0, 1] [] 1 ![1, 1]

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.BOnline.lean ====
/-
  One grid point of the streaming row statistics, as pure functions.

  A launch walks an 8 × 16 grid: row tile `i 0` (1024 rows) against column tile `i 1` (512 columns). Between the
  points of one row tile it keeps three column vectors over the tile's rows: the running row maximum `mx` of the
  scaled, masked similarities seen so far, the running sum `sm` of their exponentials taken relative to that
  maximum, and the running sum `dg` of the scaled similarity on the diagonal. At column tile 0 the three restart
  from −∞, 0 and 0; at column tile 15 the point hands `mx + log sm` (the row's log-sum-exp) and `dg` to the two
  result blocks. Everything here is stated over the kernel's own named arithmetic, for both launches.
-/
import proofs.«116349_j13649406066960_1_alg».proof.Proof.Gen.Kernel.Skeleton

noncomputable section

namespace Cert.Kernel.Online

open Idealize.ShloMosaic Idealize.SL.Sem Cert.Kernel Cert.Kernel.Gen

variable {F : FTy → Type} [FloatOps F]

/-- The running statistics of a row tile: maximum, sum of exponentials relative to it, diagonal sum. -/
abbrev St (F : FTy → Type) : Type := FVec F S1024x1 .f32 × FVec F S1024x1 .f32 × FVec F S1024x1 .f32

/-! ## The first launch -/

/-- The point is the first column tile of its row tile: the statistics restart. -/
def first0 (i : grid0.Coords) : Prop := (i 1).val = 0
/-- The point is the last column tile of its row tile: the results are written. -/
def last0 (i : grid0.Coords) : Prop := (i 1).val = 15
instance (i : grid0.Coords) : Decidable (first0 i) := inferInstanceAs (Decidable (_ = _))
instance (i : grid0.Coords) : Decidable (last0 i) := inferInstanceAs (Decidable (_ = _))

/-- What the point starts from: the restart values at the first column tile, else what the point before left. -/
def start0 (i : grid0.Coords) (s : St F) : St F :=
  if first0 i then (k0_pay5, k0_pay6, k0_pay7) else s

/-- The tile of scaled, masked similarities of row block `xa` against column block `xb` at point `i`. -/
def tile0 (i : grid0.Coords) (xa : Vec F S1024x128 .bf16) (xb : Vec F S512x128 .bf16) : FVec F S1024x512 .f32 :=
  k0_pay13 (k0_pay8 xa xb) (k0_pay9 i) (k0_pay10 i) (k0_pay11 i)

/-- The statistics after the point, from the two blocks and what the point before left. -/
def step0 (i : grid0.Coords) (xa : Vec F S1024x128 .bf16) (xb : Vec F S512x128 .bf16) (s : St F) : St F :=
  (k0_pay3 (tile0 i xa xb) (start0 i s).1,
   k0_pay2 (tile0 i xa xb) (start0 i s).1 (start0 i s).2.1,
   k0_pay14 (k0_pay8 xa xb) (k0_pay9 i) (k0_pay10 i) (start0 i s).2.2)

/-- The row log-sum-exp the last column tile writes to the first result block. -/
def lse0 (s : St F) : FVec F S1024x1 .f32 := k0_pay4 s.1 s.2.1

/-! ## The second launch (the same arithmetic under its own names) -/

def first1 (i : grid1.Coords) : Prop := (i 1).val = 0
def last1 (i : grid1.Coords) : Prop := (i 1).val = 15
instance (i : grid1.Coords) : Decidable (first1 i) := inferInstanceAs (Decidable (_ = _))
instance (i : grid1.Coords) : Decidable (last1 i) := inferInstanceAs (Decidable (_ = _))

def start1 (i : grid1.Coords) (s : St F) : St F :=
  if first1 i then (k1_pay5, k1_pay6, k1_pay7) else s

def tile1 (i : grid1.Coords) (xa : Vec F S1024x128 .bf16) (xb : Vec F S512x128 .bf16) : FVec F S1024x512 .f32 :=
  k1_pay13 (k1_pay8 xa xb) (k1_pay9 i) (k1_pay10 i) (k1_pay11 i)

def step1 (i : grid1.Coords) (xa : Vec F S1024x128 .bf16) (xb : Vec F S512x128 .bf16) (s : St F) : St F :=
  (k1_pay3 (tile1 i xa xb) (start1 i s).1,
   k1_pay2 (tile1 i xa xb) (start1 i s).1 (start1 i s).2.1,
   k1_pay14 (k1_pay8 xa xb) (k1_pay9 i) (k1_pay10 i) (start1 i s).2.2)

def lse1 (s : St F) : FVec F S1024x1 .f32 := k1_pay4 s.1 s.2.1

end Cert.Kernel.Online

end
-- ==== Proof.BData0.lean ====
/-
  The proof data of the first launch: what its windows and the three carried column vectors hold, point by point.

  The launch is entered with the core's buffers at contents V. At point t the two input windows hold the row
  block and the column block of their arrays as V has them. The three carried vectors hold, after point n, the
  running statistics stats0 n: the recurrence step0 applied to the blocks of point n and to what point n − 1
  left (at n = 0, to the restart values, which step0 takes by itself at every first column tile). The two result
  windows hold, at the last column tile of a row tile, the row log-sum-exp and the diagonal sum of the
  statistics there; at the other points they are idle and what is stated for them is never consulted.
-/
import proofs.«116349_j13649406066960_1_alg».proof.Proof.BOnline
import proofs.«116349_j13649406066960_1_alg».proof.Proof.Gen.Kernel.Launch
import proofs.«116349_j13649406066960_1_alg».proof.Proof.Gen.Kernel.Points
import Idealize.ShloMosaic.Lib.Pipeline.FrameBody
import Idealize.ShloMosaic.Lib.Pipeline.Frame

noncomputable section

namespace Cert.Kernel.Online

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the launch is entered
variable (V : (c : Dev nD) → (b : Ref sig .tc) → Buf (Elt F) ((c : Thread nD τ).loc b))

/-! ## The windows' blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block at point t. -/
abbrev xa0 (c : Dev nD) (t : Fin cfg0.N) : Vec F S1024x128 .bf16 := iblk0 V c 0 t
/-- The column block at point t. -/
abbrev xb0 (c : Dev nD) (t : Fin cfg0.N) : Vec F S512x128 .bf16 := iblk0 V c 1 t

/-! ## The running statistics, point by point -/

/-- The statistics after point n: one step from what point n − 1 left; from the restart values at the first. -/
def stats0 (c : Dev nD) : (n : ℕ) → n < cfg0.N → St F
  | 0, hn => step0 (grid0.coords ⟨0, hn⟩) (xa0 V c ⟨0, hn⟩) (xb0 V c ⟨0, hn⟩) (k0_pay5, k0_pay6, k0_pay7)
  | n + 1, hn => step0 (grid0.coords ⟨n + 1, hn⟩) (xa0 V c ⟨n + 1, hn⟩) (xb0 V c ⟨n + 1, hn⟩) (stats0 c n (Nat.lt_of_succ_lt hn))

theorem stats0_zero (c : Dev nD) (hn : 0 < cfg0.N) :
    stats0 V c 0 hn = step0 (grid0.coords ⟨0, hn⟩) (xa0 V c ⟨0, hn⟩) (xb0 V c ⟨0, hn⟩) (k0_pay5, k0_pay6, k0_pay7) := rfl

theorem stats0_succ (c : Dev nD) (n : ℕ) (hn : n + 1 < cfg0.N) :
    stats0 V c (n + 1) hn = step0 (grid0.coords ⟨n + 1, hn⟩) (xa0 V c ⟨n + 1, hn⟩) (xb0 V c ⟨n + 1, hn⟩) (stats0 V c n (Nat.lt_of_succ_lt hn)) := rfl

/-- At a point that is not the first: one step from what the point before left. -/
theorem stats0_pos (c : Dev nD) (t : Fin cfg0.N) (ht : t.val ≠ 0) :
    stats0 V c t.val t.isLt = step0 (grid0.coords t) (xa0 V c t) (xb0 V c t) (stats0 V c (t.val - 1) (Nat.lt_of_le_of_lt (Nat.sub_le _ _) t.isLt)) := by
  obtain ⟨n, hn⟩ := t
  cases n with
  | zero => exact absurd rfl ht
  | succ n => rfl

/-- At any point: one step from ANY statistics if the point is a first column tile (the step restarts there),
    else from what the point before left. -/
theorem stats0_first (c : Dev nD) (t : Fin cfg0.N) (hz : t.val = 0) (s : St F) (hf : first0 (grid0.coords t)) :
    stats0 V c t.val t.isLt = step0 (grid0.coords t) (xa0 V c t) (xb0 V c t) s := by
  obtain ⟨n, hn⟩ := t
  cases n with
  | zero => unfold stats0 step0 start0; rw [if_pos hf, if_pos hf]
  | succ n => exact absurd hz (Nat.succ_ne_zero n)

/-! ## The carried vectors' memrefs and the invariant -/

/-- The three scratch operands: whole scoped buffers of the kernel's own, passed beside the windows. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

/-- The core's scoped buffers that are neither a staging buffer nor a scratch operand of this launch (the second
    launch's), each whole at some contents: they ride through the launch untouched. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The invariant with the carried vectors at contents s, the other scoped buffers at anything, the generator
    register at some state. -/
def PhiAt0 (c : Dev nD) (s : St F) : sProp 𝕄 :=
  iprop((owns (c : Thread nD τ) scM0_0 fullShare s.1 ∗ owns (c : Thread nD τ) scM0_1 fullShare s.2.1 ∗ owns (c : Thread nD τ) scM0_2 fullShare s.2.2 ∗ other0 c) ∗ (∃ r, prngReg c r))

/-- What the launch hands the region, spelt out: the three scratch operands at some contents each, the other
    scoped buffers, the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ d, owns (c : Thread nD τ) scM0_2 fullShare d) ∗ other0 c) ∗ (∃ r, prngReg c r)) := by
  unfold Pipeline.ΦA other0; rw [scopedRest0_eq]; simp only [scM0_0, scM0_1, scM0_2, owns_whole]; try rfl

/-- The invariant before position n: before the first point what the launch hands the region; afterwards the
    carried vectors at the statistics of the point before. -/
def PhiS0 (c : Dev nD) : (n : ℕ) → n ≤ cfg0.N → sProp 𝕄
  | 0, _ => Pipeline.ΦA spec0 c
  | n + 1, hn => PhiAt0 c (stats0 V c n hn)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) : PhiS0 V c (n + 1) hn = PhiAt0 c (stats0 V c n hn) := rfl

theorem PhiS0_pos (c : Dev nD) (n : ℕ) (h : n ≤ cfg0.N) (hz : n ≠ 0) :
    PhiS0 V c n h = PhiAt0 c (stats0 V c (n - 1) (by omega)) := by
  cases n with
  | zero => exact absurd rfl hz
  | succ n => rfl

/-! ## The proof data -/

/-- The proof data of the first launch on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => lse0 (stats0 V c t.val t.isLt)
    | ⟨3, _⟩ => (stats0 V c t.val t.isLt).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = lse0 (stats0 V c t.val t.isLt) := by dsimp only [dat0]
theorem after0_3 (c : Dev nD) (t : Fin cfg0.N) : (dat0 V c).after 3 t = (stats0 V c t.val t.isLt).2.2 := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end Cert.Kernel.Online

end
-- ==== Proof.BBody0.lean ====
/-
  One grid point of the streaming row statistics, run on the machine.

  The body of a launch at a grid point, started with the two input blocks, the two result blocks and the three
  running column vectors in whole buffers, ends with the inputs unchanged, the three running vectors advanced by
  one step of the streaming recurrence, and — at the last column tile only — the row log-sum-exp and the diagonal
  sum written to the two result blocks.
-/
import proofs.«116349_j13649406066960_1_alg».proof.Proof.BOnline
import proofs.«116349_j13649406066960_1_alg».proof.Proof.Gen.Kernel.Skeleton
import proofs.«116349_j13649406066960_1_alg».proof.Proof.Gen.Kernel.Launch
import proofs.«116349_j13649406066960_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Online

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The zero offsets of a whole-buffer access. -/
theorem hz : (![0, 0] : Fin 2 → Nat) = fun _ => 0 := funext fun a => by fin_cases a <;> rfl

section Whole

variable {κ : Kind} {sp : Space} {S : Shape} {e : EltTy}

/-- A load through the whole-shape rectangle reads the contents. -/
theorem readAt_whole (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f := by
  rw [View.readAt_eq_ld, View.ld_unit_zero h]

/-- After a store through the whole-shape rectangle, whatever was stored before, the buffer reads as the payload. -/
theorem read_writes_whole (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load through the whole-shape rectangle after such a store reads the payload. -/
theorem readCov_whole (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

/-- The first conditional of the body, as the program computes it from the column coordinate. -/
abbrev cond0_0 (i : grid0.Coords) : Prop :=
  (Scalar.cmpi .ne (Scalar.extui (Scalar.cmpi .eq (BitVec.ofNat 32 (i 1).val) 0#32)) 0#32) = 1#1

/-- It holds exactly at the first column tile. -/
theorem cond0_0_iff (i : grid0.Coords) : cond0_0 i ↔ first0 i := by
  have h : ∀ n : Fin 16, (Scalar.cmpi .ne (Scalar.extui (Scalar.cmpi .eq (BitVec.ofNat 32 n.val) 0#32)) 0#32) = 1#1 ↔ n.val = 0 := by
    decide
  exact h (i 1)

/-- The second conditional holds exactly at the last column tile. -/
theorem cond0_1_iff (i : grid0.Coords) : k0_cond2 i = 1#1 ↔ last0 i := by
  have h : ∀ n : Fin 16, (Scalar.cmpi .ne (Scalar.extui (Scalar.cmpi .eq (BitVec.ofNat 32 n.val) 15#32)) 0#32) = 1#1 ↔ n.val = 15 := by
    decide
  exact h (i 1)

set_option maxHeartbeats 1000000 in
/-- The first column tile of a row tile: the three running vectors restart from the restart values and advance, the result blocks are untouched. -/
theorem body0_first (c : Dev nD) (i : grid0.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : cond0_0 i) (hc1 : ¬k0_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc0__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare (k0_pay3 (tile0 i xa xb) k0_pay5) ∗ owns (c : Thread nD τ) arg7 fullShare (k0_pay2 (tile0 i xa xb) k0_pay5 k0_pay6)
        ∗ owns (c : Thread nD τ) arg8 fullShare (k0_pay14 (k0_pay8 xa xb) (k0_pay9 i) (k0_pay10 i) k0_pay7))) := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

set_option maxHeartbeats 1000000 in
/-- A point that is neither the first nor the last column tile of its row tile: the three running vectors advance, the result blocks are untouched. -/
theorem body0_mid (c : Dev nD) (i : grid0.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : ¬cond0_0 i) (hc1 : ¬k0_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc0__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare (k0_pay3 (tile0 i xa xb) s1) ∗ owns (c : Thread nD τ) arg7 fullShare (k0_pay2 (tile0 i xa xb) s1 s2)
        ∗ owns (c : Thread nD τ) arg8 fullShare (k0_pay14 (k0_pay8 xa xb) (k0_pay9 i) (k0_pay10 i) s3))) := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

set_option maxHeartbeats 1000000 in
/-- The last column tile of a row tile: the three running vectors advance, and the row log-sum-exp and the diagonal sum are written to the result blocks. -/
theorem body0_last (c : Dev nD) (i : grid0.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : ¬cond0_0 i) (hc1 : k0_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc0__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare (k0_pay4 (k0_pay3 (tile0 i xa xb) s1) (k0_pay2 (tile0 i xa xb) s1 s2)) ∗ owns (c : Thread nD τ) arg5 fullShare (k0_pay14 (k0_pay8 xa xb) (k0_pay9 i) (k0_pay10 i) s3)
        ∗ owns (c : Thread nD τ) arg6 fullShare (k0_pay3 (tile0 i xa xb) s1) ∗ owns (c : Thread nD τ) arg7 fullShare (k0_pay2 (tile0 i xa xb) s1 s2)
        ∗ owns (c : Thread nD τ) arg8 fullShare (k0_pay14 (k0_pay8 xa xb) (k0_pay9 i) (k0_pay10 i) s3))) := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

/-- One grid point of the first launch: from the two input blocks, the two result blocks and the three running
    vectors, the body leaves the inputs as they were, the running vectors one step of the recurrence further, and the
    result blocks written at the last column tile only. -/
theorem body0 (c : Dev nD) (i : grid0.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole)
    (xa : Vec F S1024x128 .bf16) (xb : Vec F S512x128 .bf16) (o4 o5 : Vec F S1024x1 .f32) (s : St F) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s.1 ∗ owns (c : Thread nD τ) arg7 fullShare s.2.1
        ∗ owns (c : Thread nD τ) arg8 fullShare s.2.2) : sProp 𝕄)
      ⊢ wp frame (wpE (defs₀ (F := F)) Variants.none c none) Set.univ
          (cc0__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
            ∗ owns (c : Thread nD τ) arg4 fullShare (if last0 i then lse0 (step0 i xa xb s) else o4)
            ∗ owns (c : Thread nD τ) arg5 fullShare (if last0 i then (step0 i xa xb s).2.2 else o5)
            ∗ owns (c : Thread nD τ) arg6 fullShare (step0 i xa xb s).1
            ∗ owns (c : Thread nD τ) arg7 fullShare (step0 i xa xb s).2.1
            ∗ owns (c : Thread nD τ) arg8 fullShare (step0 i xa xb s).2.2)) := by
  obtain ⟨s1, s2, s3⟩ := s
  by_cases hf : first0 i <;> by_cases hl : last0 i
  · exfalso; unfold first0 at hf; unfold last0 at hl; omega
  · have e : step0 i xa xb (s1, s2, s3)
        = (k0_pay3 (tile0 i xa xb) k0_pay5, k0_pay2 (tile0 i xa xb) k0_pay5 k0_pay6,
            k0_pay14 (k0_pay8 xa xb) (k0_pay9 i) (k0_pay10 i) k0_pay7) := by
      unfold step0 start0; rw [if_pos hf]
    rw [e, if_neg hl, if_neg hl]
    exact body0_first c i arg2 harg2 arg3 harg3 arg4 harg4 arg5 harg5 arg6 harg6 arg7 harg7 arg8 harg8
      ((cond0_0_iff i).2 hf) (fun h => hl ((cond0_1_iff i).1 h)) xa xb o4 o5 s1 s2 s3
  · have e : step0 i xa xb (s1, s2, s3)
        = (k0_pay3 (tile0 i xa xb) s1, k0_pay2 (tile0 i xa xb) s1 s2,
            k0_pay14 (k0_pay8 xa xb) (k0_pay9 i) (k0_pay10 i) s3) := by
      unfold step0 start0; rw [if_neg hf]
    rw [e, if_pos hl, if_pos hl]
    exact body0_last c i arg2 harg2 arg3 harg3 arg4 harg4 arg5 harg5 arg6 harg6 arg7 harg7 arg8 harg8
      (fun h => hf ((cond0_0_iff i).1 h)) ((cond0_1_iff i).2 hl) xa xb o4 o5 s1 s2 s3
  · have e : step0 i xa xb (s1, s2, s3)
        = (k0_pay3 (tile0 i xa xb) s1, k0_pay2 (tile0 i xa xb) s1 s2,
            k0_pay14 (k0_pay8 xa xb) (k0_pay9 i) (k0_pay10 i) s3) := by
      unfold step0 start0; rw [if_neg hf]
    rw [e, if_neg hl, if_neg hl]
    exact body0_mid c i arg2 harg2 arg3 harg3 arg4 harg4 arg5 harg5 arg6 harg6 arg7 harg7 arg8 harg8
      (fun h => hf ((cond0_0_iff i).1 h)) (fun h => hl ((cond0_1_iff i).1 h)) xa xb o4 o5 s1 s2 s3

end Cert.Kernel.Online

end
-- ==== Proof.BOblig0.lean ====
/-
  The body obligation of the first launch: at every grid point the kernel body, run on the windows' current
  staging buffers and the three carried vectors, leaves what the proof data state.

  At a point the two input buffers hold the row block and the column block. The carried vectors hold what the
  point before left (at the launch's first point: anything, and the point being a first column tile the step
  restarts and ignores it). One run of the body advances the carried vectors by one step of the recurrence; at a
  last column tile it writes the row log-sum-exp and the diagonal sum into the two result buffers, and elsewhere
  it leaves those two buffers as it found them, which is what an idle window is asked to do.
-/
import proofs.«116349_j13649406066960_1_alg».proof.Proof.BData0
import proofs.«116349_j13649406066960_1_alg».proof.Proof.BBody0

noncomputable section

namespace Cert.Kernel.Online

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The column tile of a point, in closed form over the grid -/

/-- The first column tile of a row tile: the points ≡ 0 (mod 16). -/
theorem hfirst0 : ∀ t : Fin cfg0.N, first0 (grid0.coords t) ↔ t.val % 16 = 0 :=
  (by decide +kernel : ∀ t : Fin grid0.N, first0 (grid0.coords t) ↔ t.val % 16 = 0)
/-- The last column tile of a row tile: the points ≡ 15 (mod 16). -/
theorem hlast0 : ∀ t : Fin cfg0.N, last0 (grid0.coords t) ↔ t.val % 16 = 15 :=
  (by decide +kernel : ∀ t : Fin grid0.N, last0 (grid0.coords t) ↔ t.val % 16 = 15)

/-! ## Where the windows are idle -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- The result windows are live exactly at the last column tile, and written back only there. -/
theorem liveAt0_2 : ∀ t : Fin cfg0.N, last0 (grid0.coords t) → cfg0.idle 2 (grid0.coords t) = false := by decide +kernel
theorem idleAt0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem liveAt0_3 : ∀ t : Fin cfg0.N, last0 (grid0.coords t) → cfg0.idle 3 (grid0.coords t) = false := by decide +kernel
theorem idleAt0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The body at point t from carried vectors at ANY contents s from which one step gives the statistics of t. -/
theorem sound_body0_from (c : Dev nD) (t : Fin cfg0.N) (s : St F)
    (hs : stats0 V c t.val t.isLt = step0 (grid0.coords t) (xa0 V c t) (xb0 V c t) s) :
    iprop(PhiAt0 c s ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ => bodyPost0 V c t) := by
  unfold bodyPost0 bodyAt0 PhiAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  unfold PhiAt0
  by_cases hl : last0 (grid0.coords t)
  · rw [show (dat0 V c).leavesExact 2 t = owns (c : Thread nD τ) (st0_2 t) fullShare ((dat0 V c).after 2 t) from by
      unfold Dat.leavesExact; rw [liveAt0_2 t hl], after0_2]
    rw [show (dat0 V c).leavesExact 3 t = owns (c : Thread nD τ) (st0_3 t) fullShare ((dat0 V c).after 3 t) from by
      unfold Dat.leavesExact; rw [liveAt0_3 t hl], after0_3]
    rw [hs]
    iintro ⟨⟨⟨HS0, HS1, HS2, Hoth⟩, Hg⟩, Ho, ⟨%d0, H0⟩, ⟨%d1, H1⟩, ⟨%d2, H2⟩, ⟨%d3, H3⟩⟩
    have hb := body0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _)
      (xa0 V c t) (xb0 V c t) ((dat0 V c).before 2 t d2) ((dat0 V c).before 3 t d3) s
    simp only [if_pos hl] at hb
    iapply (wp_wand_r Idealize.ShloMosaic.frame (wpE (defs₀ (F := F)) Variants.none (c : Thread nD τ) none) Set.univ)
    isplitl [H0 H1 H2 H3 HS0 HS1 HS2]
    · iapply hb
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      isplitl [HS0 HS1 HS2 Hoth Hg]
      · isplitr [Hg]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      iexact H3
  · rw [Dat.leavesExact_idle (dat0 V c) 2 t (idleAt0_2 t hl) (noFlush0_2 t hl)]
    rw [Dat.leavesExact_idle (dat0 V c) 3 t (idleAt0_3 t hl) (noFlush0_3 t hl)]
    rw [hs]
    iintro ⟨⟨⟨HS0, HS1, HS2, Hoth⟩, Hg⟩, Ho, ⟨%d0, H0⟩, ⟨%d1, H1⟩, ⟨%d2, H2⟩, ⟨%d3, H3⟩⟩
    have hb := body0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _)
      (xa0 V c t) (xb0 V c t) ((dat0 V c).before 2 t d2) ((dat0 V c).before 3 t d3) s
    simp only [if_neg hl] at hb
    iapply (wp_wand_r Idealize.ShloMosaic.frame (wpE (defs₀ (F := F)) Variants.none (c : Thread nD τ) none) Set.univ)
    isplitl [H0 H1 H2 H3 HS0 HS1 HS2]
    · iapply hb
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      isplitl [HS0 HS1 HS2 Hoth Hg]
      · isplitr [Hg]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexists d2; iexact H2
      iexists d3; iexact H3

/-- The body at any point. At the launch's first point the carried vectors hold anything, and the point being a
    first column tile one step from anything gives its statistics; at a later point they hold what the point
    before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0
  by_cases hz : t.val = 0
  · rw [PhiS0_castSucc V c t, PhiS0_zero V c _ _ hz, PhiA0_eq]
    iintro ⟨⟨⟨⟨%e0, HS0⟩, ⟨%e1, HS1⟩, ⟨%e2, HS2⟩, Hoth⟩, Hg⟩, Hrest⟩
    iapply (sound_body0_from V c t (e0, e1, e2) (stats0_first V c t hz _ ((hfirst0 t).mpr (by rw [hz]))))
    unfold PhiAt0
    isplitr [Hrest]
    · isplitr [Hg]
      · isplitl [HS0]; · iexact HS0
        isplitl [HS1]; · iexact HS1
        isplitl [HS2]; · iexact HS2
        iexact Hoth
      iexact Hg
    iexact Hrest
  · rw [PhiS0_castSucc V c t, PhiS0_pos V c _ _ hz]
    exact sound_body0_from V c t _ (stats0_pos V c t hz)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the launch -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives it back: the carried vectors' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  unfold PhiAt0
  iintro ⟨⟨HS0, HS1, HS2, Hoth⟩, Hg⟩
  isplitr [Hg]
  · isplitl [HS0]; · iexists _; iexact HS0
    isplitl [HS1]; · iexists _; iexact HS1
    isplitl [HS2]; · iexists _; iexact HS2
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Cert.Kernel.Online

end
-- ==== Proof.BData1.lean ====
/-
  The proof data of the second launch: what its windows and the three carried column vectors hold, point by point.

  The launch is entered with the core's buffers at contents V. At point t the two input windows hold the row
  block and the column block of their arrays as V has them. The three carried vectors hold, after point n, the
  running statistics stats1 n: the recurrence step1 applied to the blocks of point n and to what point n − 1
  left (at n = 0, to the restart values, which step1 takes by itself at every first column tile). The two result
  windows hold, at the last column tile of a row tile, the row log-sum-exp and the diagonal sum of the
  statistics there; at the other points they are idle and what is stated for them is never consulted.
-/
import proofs.«116349_j13649406066960_1_alg».proof.Proof.BOnline
import proofs.«116349_j13649406066960_1_alg».proof.Proof.Gen.Kernel.Launch
import proofs.«116349_j13649406066960_1_alg».proof.Proof.Gen.Kernel.Points
import Idealize.ShloMosaic.Lib.Pipeline.FrameBody
import Idealize.ShloMosaic.Lib.Pipeline.Frame

noncomputable section

namespace Cert.Kernel.Online

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the launch is entered
variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block at point t. -/
abbrev xa1 (c : Dev nD) (t : Fin cfg1.N) : Vec F S1024x128 .bf16 := iblk1 V c 0 t
/-- The column block at point t. -/
abbrev xb1 (c : Dev nD) (t : Fin cfg1.N) : Vec F S512x128 .bf16 := iblk1 V c 1 t

/-! ## The running statistics, point by point -/

/-- The statistics after point n: one step from what point n − 1 left; from the restart values at the first. -/
def stats1 (c : Dev nD) : (n : ℕ) → n < cfg1.N → St F
  | 0, hn => step1 (grid1.coords ⟨0, hn⟩) (xa1 V c ⟨0, hn⟩) (xb1 V c ⟨0, hn⟩) (k1_pay5, k1_pay6, k1_pay7)
  | n + 1, hn => step1 (grid1.coords ⟨n + 1, hn⟩) (xa1 V c ⟨n + 1, hn⟩) (xb1 V c ⟨n + 1, hn⟩) (stats1 c n (Nat.lt_of_succ_lt hn))

theorem stats1_zero (c : Dev nD) (hn : 0 < cfg1.N) :
    stats1 V c 0 hn = step1 (grid1.coords ⟨0, hn⟩) (xa1 V c ⟨0, hn⟩) (xb1 V c ⟨0, hn⟩) (k1_pay5, k1_pay6, k1_pay7) := rfl

theorem stats1_succ (c : Dev nD) (n : ℕ) (hn : n + 1 < cfg1.N) :
    stats1 V c (n + 1) hn = step1 (grid1.coords ⟨n + 1, hn⟩) (xa1 V c ⟨n + 1, hn⟩) (xb1 V c ⟨n + 1, hn⟩) (stats1 V c n (Nat.lt_of_succ_lt hn)) := rfl

/-- At a point that is not the first: one step from what the point before left. -/
theorem stats1_pos (c : Dev nD) (t : Fin cfg1.N) (ht : t.val ≠ 0) :
    stats1 V c t.val t.isLt = step1 (grid1.coords t) (xa1 V c t) (xb1 V c t) (stats1 V c (t.val - 1) (Nat.lt_of_le_of_lt (Nat.sub_le _ _) t.isLt)) := by
  obtain ⟨n, hn⟩ := t
  cases n with
  | zero => exact absurd rfl ht
  | succ n => rfl

/-- At any point: one step from ANY statistics if the point is a first column tile (the step restarts there),
    else from what the point before left. -/
theorem stats1_first (c : Dev nD) (t : Fin cfg1.N) (hz : t.val = 0) (s : St F) (hf : first1 (grid1.coords t)) :
    stats1 V c t.val t.isLt = step1 (grid1.coords t) (xa1 V c t) (xb1 V c t) s := by
  obtain ⟨n, hn⟩ := t
  cases n with
  | zero => unfold stats1 step1 start1; rw [if_pos hf, if_pos hf]
  | succ n => exact absurd hz (Nat.succ_ne_zero n)

/-! ## The carried vectors' memrefs and the invariant -/

/-- The three scratch operands: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

/-- The core's scoped buffers that are neither a staging buffer nor a scratch operand of this launch (the first
    launch's), each whole at some contents: they ride through the launch untouched. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The invariant with the carried vectors at contents s, the other scoped buffers at anything, the generator
    register at some state. -/
def PhiAt1 (c : Dev nD) (s : St F) : sProp 𝕄 :=
  iprop((owns (c : Thread nD τ) scM1_0 fullShare s.1 ∗ owns (c : Thread nD τ) scM1_1 fullShare s.2.1 ∗ owns (c : Thread nD τ) scM1_2 fullShare s.2.2 ∗ other1 c) ∗ (∃ r, prngReg c r))

/-- What the launch hands the region, spelt out: the three scratch operands at some contents each, the other
    scoped buffers, the generator register (the separating conjunction reordered: the scratch operands first). -/
theorem PhiA1_eq (c : Dev nD) :
    (Pipeline.ΦA spec1 c : sProp 𝕄)
      = iprop(((∃ d, owns (c : Thread nD τ) scM1_0 fullShare d) ∗ (∃ d, owns (c : Thread nD τ) scM1_1 fullShare d) ∗ (∃ d, owns (c : Thread nD τ) scM1_2 fullShare d) ∗ other1 c) ∗ (∃ r, prngReg c r)) := by
  unfold Pipeline.ΦA other1; rw [scopedRest1_eq]; simp only [scM1_0, scM1_1, scM1_2, owns_whole]
  refine BI.equiv_iff.mp ⟨?_, ?_⟩
  · show (_ : sProp 𝕄) ⊢ _
    iintro ⟨⟨A1, A2, A3, A4, A5, A6, A7, A8, A9, A10, A11, S0, S1, S2⟩, Hg⟩
    isplitr [Hg]
    · isplitl [S0]; · iexact S0
      isplitl [S1]; · iexact S1
      isplitl [S2]; · iexact S2
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      iexact A11
    iexact Hg
  · show (_ : sProp 𝕄) ⊢ _
    iintro ⟨⟨S0, S1, S2, A1, A2, A3, A4, A5, A6, A7, A8, A9, A10, A11⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [S0]; · iexact S0
      isplitl [S1]; · iexact S1
      iexact S2
    iexact Hg

/-- The invariant before position n: before the first point what the launch hands the region; afterwards the
    carried vectors at the statistics of the point before. -/
def PhiS1 (c : Dev nD) : (n : ℕ) → n ≤ cfg1.N → sProp 𝕄
  | 0, _ => Pipeline.ΦA spec1 c
  | n + 1, hn => PhiAt1 c (stats1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = PhiAt1 c (stats1 V c n hn) := rfl

theorem PhiS1_pos (c : Dev nD) (n : ℕ) (h : n ≤ cfg1.N) (hz : n ≠ 0) :
    PhiS1 V c n h = PhiAt1 c (stats1 V c (n - 1) (by omega)) := by
  cases n with
  | zero => exact absurd rfl hz
  | succ n => rfl

/-! ## The proof data -/

/-- The proof data of the second launch on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => lse1 (stats1 V c t.val t.isLt)
    | ⟨3, _⟩ => (stats1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = lse1 (stats1 V c t.val t.isLt) := by dsimp only [dat1]
theorem after1_3 (c : Dev nD) (t : Fin cfg1.N) : (dat1 V c).after 3 t = (stats1 V c t.val t.isLt).2.2 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Cert.Kernel.Online

end
-- ==== Proof.BBody1.lean ====
/-
  One grid point of the streaming row statistics, run on the machine: the second launch.

  The body of the second launch at a grid point (the same arithmetic as the first launch's, under its own
  names), started with the two input blocks, the two result blocks and the three running column vectors in whole
  buffers, ends with the inputs unchanged, the three running vectors advanced by
  one step of the streaming recurrence, and — at the last column tile only — the row log-sum-exp and the diagonal
  sum written to the two result blocks.
-/
import proofs.«116349_j13649406066960_1_alg».proof.Proof.BBody0
import proofs.«116349_j13649406066960_1_alg».proof.Proof.Gen.Kernel.Skeleton
import proofs.«116349_j13649406066960_1_alg».proof.Proof.Gen.Kernel.Launch
import proofs.«116349_j13649406066960_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Online

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The first conditional of the body, as the program computes it from the column coordinate. -/
abbrev cond1_0 (i : grid1.Coords) : Prop :=
  (Scalar.cmpi .ne (Scalar.extui (Scalar.cmpi .eq (BitVec.ofNat 32 (i 1).val) 0#32)) 0#32) = 1#1

/-- It holds exactly at the first column tile. -/
theorem cond1_0_iff (i : grid1.Coords) : cond1_0 i ↔ first1 i := by
  have h : ∀ n : Fin 16, (Scalar.cmpi .ne (Scalar.extui (Scalar.cmpi .eq (BitVec.ofNat 32 n.val) 0#32)) 0#32) = 1#1 ↔ n.val = 0 := by
    decide
  exact h (i 1)

/-- The second conditional holds exactly at the last column tile. -/
theorem cond1_1_iff (i : grid1.Coords) : k1_cond2 i = 1#1 ↔ last1 i := by
  have h : ∀ n : Fin 16, (Scalar.cmpi .ne (Scalar.extui (Scalar.cmpi .eq (BitVec.ofNat 32 n.val) 15#32)) 0#32) = 1#1 ↔ n.val = 15 := by
    decide
  exact h (i 1)

set_option maxHeartbeats 1000000 in
/-- The first column tile of a row tile: the three running vectors restart from the restart values and advance, the result blocks are untouched. -/
theorem body1_first (c : Dev nD) (i : grid1.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : cond1_0 i) (hc1 : ¬k1_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc1__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare (k1_pay3 (tile1 i xa xb) k1_pay5) ∗ owns (c : Thread nD τ) arg7 fullShare (k1_pay2 (tile1 i xa xb) k1_pay5 k1_pay6)
        ∗ owns (c : Thread nD τ) arg8 fullShare (k1_pay14 (k1_pay8 xa xb) (k1_pay9 i) (k1_pay10 i) k1_pay7))) := by
  simp only [cc1__stats_kernel_eq_skeleton]; unfold cc1__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

set_option maxHeartbeats 1000000 in
/-- A point that is neither the first nor the last column tile of its row tile: the three running vectors advance, the result blocks are untouched. -/
theorem body1_mid (c : Dev nD) (i : grid1.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : ¬cond1_0 i) (hc1 : ¬k1_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc1__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare (k1_pay3 (tile1 i xa xb) s1) ∗ owns (c : Thread nD τ) arg7 fullShare (k1_pay2 (tile1 i xa xb) s1 s2)
        ∗ owns (c : Thread nD τ) arg8 fullShare (k1_pay14 (k1_pay8 xa xb) (k1_pay9 i) (k1_pay10 i) s3))) := by
  simp only [cc1__stats_kernel_eq_skeleton]; unfold cc1__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

set_option maxHeartbeats 1000000 in
/-- The last column tile of a row tile: the three running vectors advance, and the row log-sum-exp and the diagonal sum are written to the result blocks. -/
theorem body1_last (c : Dev nD) (i : grid1.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : ¬cond1_0 i) (hc1 : k1_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc1__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare (k1_pay4 (k1_pay3 (tile1 i xa xb) s1) (k1_pay2 (tile1 i xa xb) s1 s2)) ∗ owns (c : Thread nD τ) arg5 fullShare (k1_pay14 (k1_pay8 xa xb) (k1_pay9 i) (k1_pay10 i) s3)
        ∗ owns (c : Thread nD τ) arg6 fullShare (k1_pay3 (tile1 i xa xb) s1) ∗ owns (c : Thread nD τ) arg7 fullShare (k1_pay2 (tile1 i xa xb) s1 s2)
        ∗ owns (c : Thread nD τ) arg8 fullShare (k1_pay14 (k1_pay8 xa xb) (k1_pay9 i) (k1_pay10 i) s3))) := by
  simp only [cc1__stats_kernel_eq_skeleton]; unfold cc1__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

/-- One grid point of the second launch: from the two input blocks, the two result blocks and the three running
    vectors, the body leaves the inputs as they were, the running vectors one step of the recurrence further, and the
    result blocks written at the last column tile only. -/
theorem body1 (c : Dev nD) (i : grid1.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole)
    (xa : Vec F S1024x128 .bf16) (xb : Vec F S512x128 .bf16) (o4 o5 : Vec F S1024x1 .f32) (s : St F) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s.1 ∗ owns (c : Thread nD τ) arg7 fullShare s.2.1
        ∗ owns (c : Thread nD τ) arg8 fullShare s.2.2) : sProp 𝕄)
      ⊢ wp frame (wpE (defs₀ (F := F)) Variants.none c none) Set.univ
          (cc1__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
            ∗ owns (c : Thread nD τ) arg4 fullShare (if last1 i then lse1 (step1 i xa xb s) else o4)
            ∗ owns (c : Thread nD τ) arg5 fullShare (if last1 i then (step1 i xa xb s).2.2 else o5)
            ∗ owns (c : Thread nD τ) arg6 fullShare (step1 i xa xb s).1
            ∗ owns (c : Thread nD τ) arg7 fullShare (step1 i xa xb s).2.1
            ∗ owns (c : Thread nD τ) arg8 fullShare (step1 i xa xb s).2.2)) := by
  obtain ⟨s1, s2, s3⟩ := s
  by_cases hf : first1 i <;> by_cases hl : last1 i
  · exfalso; unfold first1 at hf; unfold last1 at hl; omega
  · have e : step1 i xa xb (s1, s2, s3)
        = (k1_pay3 (tile1 i xa xb) k1_pay5, k1_pay2 (tile1 i xa xb) k1_pay5 k1_pay6,
            k1_pay14 (k1_pay8 xa xb) (k1_pay9 i) (k1_pay10 i) k1_pay7) := by
      unfold step1 start1; rw [if_pos hf]
    rw [e, if_neg hl, if_neg hl]
    exact body1_first c i arg2 harg2 arg3 harg3 arg4 harg4 arg5 harg5 arg6 harg6 arg7 harg7 arg8 harg8
      ((cond1_0_iff i).2 hf) (fun h => hl ((cond1_1_iff i).1 h)) xa xb o4 o5 s1 s2 s3
  · have e : step1 i xa xb (s1, s2, s3)
        = (k1_pay3 (tile1 i xa xb) s1, k1_pay2 (tile1 i xa xb) s1 s2,
            k1_pay14 (k1_pay8 xa xb) (k1_pay9 i) (k1_pay10 i) s3) := by
      unfold step1 start1; rw [if_neg hf]
    rw [e, if_pos hl, if_pos hl]
    exact body1_last c i arg2 harg2 arg3 harg3 arg4 harg4 arg5 harg5 arg6 harg6 arg7 harg7 arg8 harg8
      (fun h => hf ((cond1_0_iff i).1 h)) ((cond1_1_iff i).2 hl) xa xb o4 o5 s1 s2 s3
  · have e : step1 i xa xb (s1, s2, s3)
        = (k1_pay3 (tile1 i xa xb) s1, k1_pay2 (tile1 i xa xb) s1 s2,
            k1_pay14 (k1_pay8 xa xb) (k1_pay9 i) (k1_pay10 i) s3) := by
      unfold step1 start1; rw [if_neg hf]
    rw [e, if_neg hl, if_neg hl]
    exact body1_mid c i arg2 harg2 arg3 harg3 arg4 harg4 arg5 harg5 arg6 harg6 arg7 harg7 arg8 harg8
      (fun h => hf ((cond1_0_iff i).1 h)) (fun h => hl ((cond1_1_iff i).1 h)) xa xb o4 o5 s1 s2 s3

end Cert.Kernel.Online

end
-- ==== Proof.BOblig1.lean ====
/-
  The body obligation of the second launch: at every grid point the kernel body, run on the windows' current
  staging buffers and the three carried vectors, leaves what the proof data state.

  At a point the two input buffers hold the row block and the column block. The carried vectors hold what the
  point before left (at the launch's first point: anything, and the point being a first column tile the step
  restarts and ignores it). One run of the body advances the carried vectors by one step of the recurrence; at a
  last column tile it writes the row log-sum-exp and the diagonal sum into the two result buffers, and elsewhere
  it leaves those two buffers as it found them, which is what an idle window is asked to do.
-/
import proofs.«116349_j13649406066960_1_alg».proof.Proof.BData1
import proofs.«116349_j13649406066960_1_alg».proof.Proof.BBody1

noncomputable section

namespace Cert.Kernel.Online

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The column tile of a point, in closed form over the grid -/

/-- The first column tile of a row tile: the points ≡ 0 (mod 16). -/
theorem hfirst1 : ∀ t : Fin cfg1.N, first1 (grid1.coords t) ↔ t.val % 16 = 0 :=
  (by decide +kernel : ∀ t : Fin grid1.N, first1 (grid1.coords t) ↔ t.val % 16 = 0)
/-- The last column tile of a row tile: the points ≡ 15 (mod 16). -/
theorem hlast1 : ∀ t : Fin cfg1.N, last1 (grid1.coords t) ↔ t.val % 16 = 15 :=
  (by decide +kernel : ∀ t : Fin grid1.N, last1 (grid1.coords t) ↔ t.val % 16 = 15)

/-! ## Where the windows are idle -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- The result windows are live exactly at the last column tile, and written back only there. -/
theorem liveAt1_2 : ∀ t : Fin cfg1.N, last1 (grid1.coords t) → cfg1.idle 2 (grid1.coords t) = false := by decide +kernel
theorem idleAt1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem liveAt1_3 : ∀ t : Fin cfg1.N, last1 (grid1.coords t) → cfg1.idle 3 (grid1.coords t) = false := by decide +kernel
theorem idleAt1_3 : ∀ t : Fin cfg1.N, ¬last1 (grid1.coords t) → cfg1.idle 3 (grid1.coords t) = true := by decide +kernel
theorem noFlush1_3 : ∀ t : Fin cfg1.N, ¬last1 (grid1.coords t) → (cfg1.win 3).flush t = false := by decide +kernel

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at point t from carried vectors at ANY contents s from which one step gives the statistics of t. -/
theorem sound_body1_from (c : Dev nD) (t : Fin cfg1.N) (s : St F)
    (hs : stats1 V c t.val t.isLt = step1 (grid1.coords t) (xa1 V c t) (xb1 V c t) s) :
    iprop(PhiAt1 c s ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ => bodyPost1 V c t) := by
  unfold bodyPost1 bodyAt1 PhiAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  unfold PhiAt1
  by_cases hl : last1 (grid1.coords t)
  · rw [show (dat1 V c).leavesExact 2 t = owns (c : Thread nD τ) (st1_2 t) fullShare ((dat1 V c).after 2 t) from by
      unfold Dat.leavesExact; rw [liveAt1_2 t hl], after1_2]
    rw [show (dat1 V c).leavesExact 3 t = owns (c : Thread nD τ) (st1_3 t) fullShare ((dat1 V c).after 3 t) from by
      unfold Dat.leavesExact; rw [liveAt1_3 t hl], after1_3]
    rw [hs]
    iintro ⟨⟨⟨HS0, HS1, HS2, Hoth⟩, Hg⟩, Ho, ⟨%d0, H0⟩, ⟨%d1, H1⟩, ⟨%d2, H2⟩, ⟨%d3, H3⟩⟩
    have hb := body1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _)
      (xa1 V c t) (xb1 V c t) ((dat1 V c).before 2 t d2) ((dat1 V c).before 3 t d3) s
    simp only [if_pos hl] at hb
    iapply (wp_wand_r Idealize.ShloMosaic.frame (wpE (defs₀ (F := F)) Variants.none (c : Thread nD τ) none) Set.univ)
    isplitl [H0 H1 H2 H3 HS0 HS1 HS2]
    · iapply hb
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      isplitl [HS0 HS1 HS2 Hoth Hg]
      · isplitr [Hg]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      iexact H3
  · rw [Dat.leavesExact_idle (dat1 V c) 2 t (idleAt1_2 t hl) (noFlush1_2 t hl)]
    rw [Dat.leavesExact_idle (dat1 V c) 3 t (idleAt1_3 t hl) (noFlush1_3 t hl)]
    rw [hs]
    iintro ⟨⟨⟨HS0, HS1, HS2, Hoth⟩, Hg⟩, Ho, ⟨%d0, H0⟩, ⟨%d1, H1⟩, ⟨%d2, H2⟩, ⟨%d3, H3⟩⟩
    have hb := body1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _)
      (xa1 V c t) (xb1 V c t) ((dat1 V c).before 2 t d2) ((dat1 V c).before 3 t d3) s
    simp only [if_neg hl] at hb
    iapply (wp_wand_r Idealize.ShloMosaic.frame (wpE (defs₀ (F := F)) Variants.none (c : Thread nD τ) none) Set.univ)
    isplitl [H0 H1 H2 H3 HS0 HS1 HS2]
    · iapply hb
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      isplitl [HS0 HS1 HS2 Hoth Hg]
      · isplitr [Hg]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexists d2; iexact H2
      iexists d3; iexact H3

/-- The body at any point. At the launch's first point the carried vectors hold anything, and the point being a
    first column tile one step from anything gives its statistics; at a later point they hold what the point
    before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1
  by_cases hz : t.val = 0
  · rw [PhiS1_castSucc V c t, PhiS1_zero V c _ _ hz, PhiA1_eq]
    iintro ⟨⟨⟨⟨%e0, HS0⟩, ⟨%e1, HS1⟩, ⟨%e2, HS2⟩, Hoth⟩, Hg⟩, Hrest⟩
    iapply (sound_body1_from V c t (e0, e1, e2) (stats1_first V c t hz _ ((hfirst1 t).mpr (by rw [hz]))))
    unfold PhiAt1
    isplitr [Hrest]
    · isplitr [Hg]
      · isplitl [HS0]; · iexact HS0
        isplitl [HS1]; · iexact HS1
        isplitl [HS2]; · iexact HS2
        iexact Hoth
      iexact Hg
    iexact Hrest
  · rw [PhiS1_castSucc V c t, PhiS1_pos V c _ _ hz]
    exact sound_body1_from V c t _ (stats1_pos V c t hz)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the launch -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives it back: the carried vectors' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiAt1
  iintro ⟨⟨HS0, HS1, HS2, Hoth⟩, Hg⟩
  isplitr [Hg]
  · isplitl [HS0]; · iexists _; iexact HS0
    isplitl [HS1]; · iexists _; iexact HS1
    isplitl [HS2]; · iexists _; iexact HS2
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Online

end
-- ==== Proof.BKHost.lean ====
/-
  The host lines after the two launches, as pure functions of the four arrays the launches leave: the mean over
  the rows of (log-sum-exp − diagonal) for each launch, the halved sum of the two means, and the closing guard that
  replaces a result that is not a number or is infinite by 0.
-/
import proofs.«116349_j13649406066960_1_alg».proof.Proof.Gen.Kernel

noncomputable section

namespace Cert.Kernel.Online

open Idealize.ShloMosaic Cert.Kernel Cert.Kernel.Gen

variable {F : FTy → Type} [FloatOps F]

/-- The mean over the rows of `l − d`, as the host spells it: reshape both columns to vectors, subtract, sum from 0,
    divide by the row count. -/
def meanDiff (l d : FVec F S8192x1 .f32) : FVec F S_ .f32 :=
  Host.divf
    (Host.reduceAdd (subf (shapeCast S8192 l shapeCasts_S8192x1_S8192) (shapeCast S8192 d shapeCasts_S8192x1_S8192))
      (constant S_ .f32 0x00000000#32) reducesTo_S8192_S_d0 h_S_)
    (constant S_ .f32 0x46000000#32)

/-- The loss before the closing guard: the two means added and halved. -/
def lossOf (l0 d0 l1 d1 : FVec F S8192x1 .f32) : FVec F S_ .f32 :=
  Host.divf (addf (meanDiff l0 d0) (meanDiff l1 d1)) (constant S_ .f32 0x40000000#32)

/-- The closing guard. -/
def guardOf (v : FVec F S_ .f32) : FVec F S_ .f32 :=
  select (ori (cmpf .une v v) (cmpf .oeq (Host.absf v) (constant S_ .f32 0x7F800000#32))) (constant S_ .f32 0x00000000#32) v

end Cert.Kernel.Online

end
-- ==== Proof.BLaunch.lean ====
/-
  The run of @main: two launches among stretches of host operations, from the launch memory to the result.

  The core's buffer contents are followed from boundary to boundary. A host stretch takes them to what its
  operations compute from them. A launch takes its four windows' arrays to what its write-backs leave (the two
  input arrays as they were; each result array with, row tile by row tile, what the last column tile of the
  tile stored) and leaves every other buffer alone. Every weakly fair execution terminates, the two arguments
  end as launched, and the result buffer holds what the last host stretch computes from the four result arrays.
-/
import proofs.«116349_j13649406066960_1_alg».proof.Proof.BOblig0
import proofs.«116349_j13649406066960_1_alg».proof.Proof.BOblig1
import proofs.«116349_j13649406066960_1_alg».proof.Proof.BKHost
import proofs.«116349_j13649406066960_1_alg».proof.Proof.Gen.Kernel.Regions
import Idealize.ShloMosaic.Lib.Pipeline.RegionsLoop
import Idealize.ShloMosaic.Lib.Pipeline.FrameSuffix

noncomputable section

namespace Cert.Kernel.Online

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m ((c : Dev nD), b)
/-- After the first host stretch (the first launch's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the first launch's exit: its arrays at what the write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (the second launch's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the second launch's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After each of the four closing host stretches. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)

/-! ## The proof data family and the thread state -/

/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- The first launch over the thread state: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)) ]

/-- @main is the run of the segments. -/
theorem main_run (c : Dev nD) : main (F := F) c = Pipeline.Seg.run (segs m) := (main_chain c).trans (by chain_rfl)

/-! ## The arguments end as launched -/

theorem W8_of (c : Dev nD) (r : Ref sig .tc) (h5 : r ∉ hostOps2_W) (h6 : r ∉ hostOps2_1_W) (h7 : r ∉ hostOps2_2_W) (h8 : r ∉ hostOps2_3_W) :
    W8 m c (Proc.devRef .tc r) = W4 m c (Proc.devRef .tc r) :=
  (StableHlo.after_of_writes_sub hostOps2_3 _ hostOps2_3_writes h8).trans <|
  (StableHlo.after_of_writes_sub hostOps2_2 _ hostOps2_2_writes h7).trans <|
  (StableHlo.after_of_writes_sub hostOps2_1 _ hostOps2_1_writes h6).trans <|
  (StableHlo.after_of_writes_sub hostOps2 _ hostOps2_writes h5)

theorem W4_of (c : Dev nD) (r : Ref sig .tc) (h4 : ∀ w, Pipeline.arrRef spec1 w ≠ r) (h3 : r ∉ hostOps1_W) (h2 : ∀ w, Pipeline.arrRef spec0 w ≠ r) :
    W4 m c (Proc.devRef .tc r) = W1 m c (Proc.devRef .tc r) :=
  (W4_of_ne m c r h4).trans <| (StableHlo.after_of_writes_sub hostOps1 _ hostOps1_writes h3).trans <| W2_of_ne m c r h2

theorem W8_main_arg0 (c : Dev nD) : W8 m c (Proc.devRef .tc main_arg0) = m ((c : Thread nD τ).loc main_arg0) :=
  (W8_of m c main_arg0 (by decide) (by decide) (by decide) (by decide)).trans <|
  (W4_of m c main_arg0 (by decide) (by decide) (by decide)).trans <|
  (StableHlo.after_of_writes_sub hostOps0 _ hostOps0_writes (by decide)).trans rfl
theorem W8_main_arg1 (c : Dev nD) : W8 m c (Proc.devRef .tc main_arg1) = m ((c : Thread nD τ).loc main_arg1) :=
  (W8_of m c main_arg1 (by decide) (by decide) (by decide) (by decide)).trans <|
  (W4_of m c main_arg1 (by decide) (by decide) (by decide)).trans <|
  (StableHlo.after_of_writes_sub hostOps0 _ hostOps0_writes (by decide)).trans rfl

/-! ## What the boundaries' contents are -/

/-- The first launch's row-block array at its entry: the first argument, reshaped to 8192 rows and rounded. -/
theorem U1_main_v1 (c : Dev nD) :
    U1 m c main_v1 = (truncf .bf16 (shapeCast S8192x128 (m ((c : Thread nD τ).loc main_arg0)) shapeCasts_S512x16x128_S8192x128) bitsLt_bf16_f32 : FVec F S8192x128 .bf16) := by
  show StableHlo.after hostOps0 (W0 m c) (Proc.devRef .tc main_v1) = _
  after_results
  rfl
/-- Its column-block array: the second argument, likewise. -/
theorem U1_main_v3 (c : Dev nD) :
    U1 m c main_v3 = (truncf .bf16 (shapeCast S8192x128 (m ((c : Thread nD τ).loc main_arg1)) shapeCasts_S512x16x128_S8192x128) bitsLt_bf16_f32 : FVec F S8192x128 .bf16) := by
  show StableHlo.after hostOps0 (W0 m c) (Proc.devRef .tc main_v3) = _
  after_results
  rfl

/-- The second launch is entered with the same two arrays: nothing between writes them. -/
theorem U3_main_v1 (c : Dev nD) : U3 m c main_v1 = U1 m c main_v1 :=
  (StableHlo.after_of_writes_sub hostOps1 _ hostOps1_writes (by decide)).trans <|
    (W2_arr m c 0).trans (((dat0 (U1 m) c).arrAt_in 0 rfl _).trans (A_eq0 (U1 m) c 0))
theorem U3_main_v3 (c : Dev nD) : U3 m c main_v3 = U1 m c main_v3 :=
  (StableHlo.after_of_writes_sub hostOps1 _ hostOps1_writes (by decide)).trans <|
    (W2_arr m c 1).trans (((dat0 (U1 m) c).arrAt_in 1 rfl _).trans (A_eq0 (U1 m) c 1))

/-- The four closing host stretches, from any contents X: the result buffer holds the guarded loss of the two
    reshaped columns X has for the first launch and the two result arrays it has for the second. -/
theorem tail_eq (X : Valuation τ sig (Elt F)) :
    StableHlo.after hostOps2_3 (StableHlo.after hostOps2_2 (StableHlo.after hostOps2_1 (StableHlo.after hostOps2 X))) (Proc.devRef .tc main_v21)
      = guardOf (Host.divf (addf
          (Host.divf (Host.reduceAdd (subf (X (Proc.devRef .tc main_v5)) (X (Proc.devRef .tc main_v6))) (constant S_ .f32 0x00000000#32) reducesTo_S8192_S_d0 h_S_) (constant S_ .f32 0x46000000#32))
          (meanDiff (X (Proc.devRef .tc main_v7_0)) (X (Proc.devRef .tc main_v7_1)))) (constant S_ .f32 0x40000000#32)) := by
  after_results
  rfl

/-- The result buffer at the last boundary: the guarded loss of the four result arrays as the launches leave them. -/
theorem W8_main_v21 (c : Dev nD) :
    W8 m c (Proc.devRef .tc main_v21)
      = guardOf (lossOf (W2 m c (Proc.devRef .tc main_v4_0)) (W2 m c (Proc.devRef .tc main_v4_1)) (W4 m c (Proc.devRef .tc main_v7_0)) (W4 m c (Proc.devRef .tc main_v7_1))) := by
  have h5 : W4 m c (Proc.devRef .tc main_v5) = shapeCast S8192 (W2 m c (Proc.devRef .tc main_v4_0)) shapeCasts_S8192x1_S8192 :=
    (W4_of_ne m c main_v5 (by decide)).trans (by
      show StableHlo.after hostOps1 (W2 m c) (Proc.devRef .tc main_v5) = _
      after_results
      rfl)
  have h6 : W4 m c (Proc.devRef .tc main_v6) = shapeCast S8192 (W2 m c (Proc.devRef .tc main_v4_1)) shapeCasts_S8192x1_S8192 :=
    (W4_of_ne m c main_v6 (by decide)).trans (by
      show StableHlo.after hostOps1 (W2 m c) (Proc.devRef .tc main_v6) = _
      after_results
      rfl)
  refine (tail_eq (W4 m c)).trans ?_
  rw [h5, h6]
  rfl

/-- The same with the launches' result arrays named by their proof data. -/
theorem W8_main_v21_arr (c : Dev nD) :
    W8 m c (Proc.devRef .tc main_v21)
      = guardOf (lossOf ((dat0 (U1 m) c).arrAt 2 cfg0.N) ((dat0 (U1 m) c).arrAt 3 cfg0.N) ((dat1 (U3 m) c).arrAt 2 cfg1.N) ((dat1 (U3 m) c).arrAt 3 cfg1.N)) := by
  rw [W8_main_v21]
  rw [show W2 m c (Proc.devRef .tc main_v4_0) = (dat0 (U1 m) c).arrAt 2 cfg0.N from W2_arr m c 2,
    show W2 m c (Proc.devRef .tc main_v4_1) = (dat0 (U1 m) c).arrAt 3 cfg0.N from W2_arr m c 3,
    show W4 m c (Proc.devRef .tc main_v7_0) = (dat1 (U3 m) c).arrAt 2 cfg1.N from W4_arr m c 2,
    show W4 m c (Proc.devRef .tc main_v7_1) = (dat1 (U3 m) c).arrAt 3 cfg1.N from W4_arr m c 3]

/-! ## The run -/

set_option backward.isDefEq.respectTransparency.types false in
/-- From any memory with zero counters every weakly fair execution of @main terminates, and every final memory
    holds the result buffer at what the last boundary's contents say and each argument as launched. -/
theorem run_values (ρ : Dev nD → PrngReg) : θ_run defs (onTc (τ := τ) (main (F := F))) ⟨m, fun _ => 0, ρ⟩ (fun r => ∀ c : Dev nD,
      r.2.mem ((c.tc : Thread nD τ).loc main_v21) = W8 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W8 m c) ∗ R c) : sProp 𝕄)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v21 (by decide)),
       (h c _ (mem_uc main_arg0 (by decide))).trans (W8_main_arg0 m c),
       (h c _ (mem_uc main_arg1 (by decide))).trans (W8_main_arg1 m c)⟩)

end Cert.Kernel.Online

end
-- ==== Proof.Online.lean ====
/-
  One grid point of the streaming row statistics, as pure functions.

  A launch walks an 8 × 16 grid: row tile `i 0` (1024 rows) against column tile `i 1` (512 columns). Between the
  points of one row tile it keeps three column vectors over the tile's rows: the running row maximum `mx` of the
  scaled, masked similarities seen so far, the running sum `sm` of their exponentials taken relative to that
  maximum, and the running sum `dg` of the scaled similarity on the diagonal. At column tile 0 the three restart
  from −∞, 0 and 0; at column tile 15 the point hands `mx + log sm` (the row's log-sum-exp) and `dg` to the two
  result blocks. Everything here is stated over the kernel's own named arithmetic, for both launches.
-/
import proofs.«116349_j13649406066960_1_alg».proof.Proof.Gen.KernelIdeal.Skeleton

noncomputable section

namespace Cert.KernelIdeal.Online

open Idealize.ShloMosaic Idealize.SL.Sem Cert.KernelIdeal Cert.KernelIdeal.Gen

variable {F : FTy → Type} [FloatOps F] [Named F]

/-- The running statistics of a row tile: maximum, sum of exponentials relative to it, diagonal sum. -/
abbrev St (F : FTy → Type) : Type := FVec F S1024x1 .f32 × FVec F S1024x1 .f32 × FVec F S1024x1 .f32

/-! ## The first launch -/

/-- The point is the first column tile of its row tile: the statistics restart. -/
def first0 (i : grid0.Coords) : Prop := (i 1).val = 0
/-- The point is the last column tile of its row tile: the results are written. -/
def last0 (i : grid0.Coords) : Prop := (i 1).val = 15
instance (i : grid0.Coords) : Decidable (first0 i) := inferInstanceAs (Decidable (_ = _))
instance (i : grid0.Coords) : Decidable (last0 i) := inferInstanceAs (Decidable (_ = _))

/-- What the point starts from: the restart values at the first column tile, else what the point before left. -/
def start0 (i : grid0.Coords) (s : St F) : St F :=
  if first0 i then (k0_pay5, k0_pay6, k0_pay7) else s

/-- The tile of scaled, masked similarities of row block `xa` against column block `xb` at point `i`. -/
def tile0 (i : grid0.Coords) (xa : Vec F S1024x128 .bf16) (xb : Vec F S512x128 .bf16) : FVec F S1024x512 .f32 :=
  k0_pay13 (k0_pay8 xa xb) (k0_pay9 i) (k0_pay10 i) (k0_pay11 i)

/-- The statistics after the point, from the two blocks and what the point before left. -/
def step0 (i : grid0.Coords) (xa : Vec F S1024x128 .bf16) (xb : Vec F S512x128 .bf16) (s : St F) : St F :=
  (k0_pay3 (tile0 i xa xb) (start0 i s).1,
   k0_pay2 (tile0 i xa xb) (start0 i s).1 (start0 i s).2.1,
   k0_pay14 (k0_pay8 xa xb) (k0_pay9 i) (k0_pay10 i) (start0 i s).2.2)

/-- The row log-sum-exp the last column tile writes to the first result block. -/
def lse0 (s : St F) : FVec F S1024x1 .f32 := k0_pay4 s.1 s.2.1

/-! ## The second launch (the same arithmetic under its own names) -/

def first1 (i : grid1.Coords) : Prop := (i 1).val = 0
def last1 (i : grid1.Coords) : Prop := (i 1).val = 15
instance (i : grid1.Coords) : Decidable (first1 i) := inferInstanceAs (Decidable (_ = _))
instance (i : grid1.Coords) : Decidable (last1 i) := inferInstanceAs (Decidable (_ = _))

def start1 (i : grid1.Coords) (s : St F) : St F :=
  if first1 i then (k1_pay5, k1_pay6, k1_pay7) else s

def tile1 (i : grid1.Coords) (xa : Vec F S1024x128 .bf16) (xb : Vec F S512x128 .bf16) : FVec F S1024x512 .f32 :=
  k1_pay13 (k1_pay8 xa xb) (k1_pay9 i) (k1_pay10 i) (k1_pay11 i)

def step1 (i : grid1.Coords) (xa : Vec F S1024x128 .bf16) (xb : Vec F S512x128 .bf16) (s : St F) : St F :=
  (k1_pay3 (tile1 i xa xb) (start1 i s).1,
   k1_pay2 (tile1 i xa xb) (start1 i s).1 (start1 i s).2.1,
   k1_pay14 (k1_pay8 xa xb) (k1_pay9 i) (k1_pay10 i) (start1 i s).2.2)

def lse1 (s : St F) : FVec F S1024x1 .f32 := k1_pay4 s.1 s.2.1

end Cert.KernelIdeal.Online

end
-- ==== Proof.Data0.lean ====
/-
  The proof data of the first launch: what its windows and the three carried column vectors hold, point by point.

  The launch is entered with the core's buffers at contents V. At point t the two input windows hold the row
  block and the column block of their arrays as V has them. The three carried vectors hold, after point n, the
  running statistics stats0 n: the recurrence step0 applied to the blocks of point n and to what point n − 1
  left (at n = 0, to the restart values, which step0 takes by itself at every first column tile). The two result
  windows hold, at the last column tile of a row tile, the row log-sum-exp and the diagonal sum of the
  statistics there; at the other points they are idle and what is stated for them is never consulted.
-/
import proofs.«116349_j13649406066960_1_alg».proof.Proof.Online
import proofs.«116349_j13649406066960_1_alg».proof.Proof.Gen.KernelIdeal.Launch
import proofs.«116349_j13649406066960_1_alg».proof.Proof.Gen.KernelIdeal.Points
import Idealize.ShloMosaic.Lib.Pipeline.FrameBody
import Idealize.ShloMosaic.Lib.Pipeline.Frame

noncomputable section

namespace Cert.KernelIdeal.Online

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the core's buffer contents when the launch is entered
variable (V : (c : Dev nD) → (b : Ref sig .tc) → Buf (Elt F) ((c : Thread nD τ).loc b))

/-! ## The windows' blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block at point t. -/
abbrev xa0 (c : Dev nD) (t : Fin cfg0.N) : Vec F S1024x128 .bf16 := iblk0 V c 0 t
/-- The column block at point t. -/
abbrev xb0 (c : Dev nD) (t : Fin cfg0.N) : Vec F S512x128 .bf16 := iblk0 V c 1 t

/-! ## The running statistics, point by point -/

/-- The statistics after point n: one step from what point n − 1 left; from the restart values at the first. -/
def stats0 (c : Dev nD) : (n : ℕ) → n < cfg0.N → St F
  | 0, hn => step0 (grid0.coords ⟨0, hn⟩) (xa0 V c ⟨0, hn⟩) (xb0 V c ⟨0, hn⟩) (k0_pay5, k0_pay6, k0_pay7)
  | n + 1, hn => step0 (grid0.coords ⟨n + 1, hn⟩) (xa0 V c ⟨n + 1, hn⟩) (xb0 V c ⟨n + 1, hn⟩) (stats0 c n (Nat.lt_of_succ_lt hn))

theorem stats0_zero (c : Dev nD) (hn : 0 < cfg0.N) :
    stats0 V c 0 hn = step0 (grid0.coords ⟨0, hn⟩) (xa0 V c ⟨0, hn⟩) (xb0 V c ⟨0, hn⟩) (k0_pay5, k0_pay6, k0_pay7) := rfl

theorem stats0_succ (c : Dev nD) (n : ℕ) (hn : n + 1 < cfg0.N) :
    stats0 V c (n + 1) hn = step0 (grid0.coords ⟨n + 1, hn⟩) (xa0 V c ⟨n + 1, hn⟩) (xb0 V c ⟨n + 1, hn⟩) (stats0 V c n (Nat.lt_of_succ_lt hn)) := rfl

/-- At a point that is not the first: one step from what the point before left. -/
theorem stats0_pos (c : Dev nD) (t : Fin cfg0.N) (ht : t.val ≠ 0) :
    stats0 V c t.val t.isLt = step0 (grid0.coords t) (xa0 V c t) (xb0 V c t) (stats0 V c (t.val - 1) (Nat.lt_of_le_of_lt (Nat.sub_le _ _) t.isLt)) := by
  obtain ⟨n, hn⟩ := t
  cases n with
  | zero => exact absurd rfl ht
  | succ n => rfl

/-- At any point: one step from ANY statistics if the point is a first column tile (the step restarts there),
    else from what the point before left. -/
theorem stats0_first (c : Dev nD) (t : Fin cfg0.N) (hz : t.val = 0) (s : St F) (hf : first0 (grid0.coords t)) :
    stats0 V c t.val t.isLt = step0 (grid0.coords t) (xa0 V c t) (xb0 V c t) s := by
  obtain ⟨n, hn⟩ := t
  cases n with
  | zero => unfold stats0 step0 start0; rw [if_pos hf, if_pos hf]
  | succ n => exact absurd hz (Nat.succ_ne_zero n)

/-! ## The carried vectors' memrefs and the invariant -/

/-- The three scratch operands: whole scoped buffers of the kernel's own, passed beside the windows. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

/-- The core's scoped buffers that are neither a staging buffer nor a scratch operand of this launch (the second
    launch's), each whole at some contents: they ride through the launch untouched. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The invariant with the carried vectors at contents s, the other scoped buffers at anything, the generator
    register at some state. -/
def PhiAt0 (c : Dev nD) (s : St F) : sProp 𝕄 :=
  iprop((owns (c : Thread nD τ) scM0_0 fullShare s.1 ∗ owns (c : Thread nD τ) scM0_1 fullShare s.2.1 ∗ owns (c : Thread nD τ) scM0_2 fullShare s.2.2 ∗ other0 c) ∗ (∃ r, prngReg c r))

/-- What the launch hands the region, spelt out: the three scratch operands at some contents each, the other
    scoped buffers, the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ d, owns (c : Thread nD τ) scM0_2 fullShare d) ∗ other0 c) ∗ (∃ r, prngReg c r)) := by
  unfold Pipeline.ΦA other0; rw [scopedRest0_eq]; simp only [scM0_0, scM0_1, scM0_2, owns_whole]; try rfl

/-- The invariant before position n: before the first point what the launch hands the region; afterwards the
    carried vectors at the statistics of the point before. -/
def PhiS0 (c : Dev nD) : (n : ℕ) → n ≤ cfg0.N → sProp 𝕄
  | 0, _ => Pipeline.ΦA spec0 c
  | n + 1, hn => PhiAt0 c (stats0 V c n hn)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) : PhiS0 V c (n + 1) hn = PhiAt0 c (stats0 V c n hn) := rfl

theorem PhiS0_pos (c : Dev nD) (n : ℕ) (h : n ≤ cfg0.N) (hz : n ≠ 0) :
    PhiS0 V c n h = PhiAt0 c (stats0 V c (n - 1) (by omega)) := by
  cases n with
  | zero => exact absurd rfl hz
  | succ n => rfl

/-! ## The proof data -/

/-- The proof data of the first launch on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => lse0 (stats0 V c t.val t.isLt)
    | ⟨3, _⟩ => (stats0 V c t.val t.isLt).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = lse0 (stats0 V c t.val t.isLt) := by dsimp only [dat0]
theorem after0_3 (c : Dev nD) (t : Fin cfg0.N) : (dat0 V c).after 3 t = (stats0 V c t.val t.isLt).2.2 := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end Cert.KernelIdeal.Online

end
-- ==== Proof.Body0.lean ====
/-
  One grid point of the streaming row statistics, run on the machine.

  The body of a launch at a grid point, started with the two input blocks, the two result blocks and the three
  running column vectors in whole buffers, ends with the inputs unchanged, the three running vectors advanced by
  one step of the streaming recurrence, and — at the last column tile only — the row log-sum-exp and the diagonal
  sum written to the two result blocks.
-/
import proofs.«116349_j13649406066960_1_alg».proof.Proof.Online
import proofs.«116349_j13649406066960_1_alg».proof.Proof.Gen.KernelIdeal.Skeleton
import proofs.«116349_j13649406066960_1_alg».proof.Proof.Gen.KernelIdeal.Launch
import proofs.«116349_j13649406066960_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Online

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The zero offsets of a whole-buffer access. -/
theorem hz : (![0, 0] : Fin 2 → Nat) = fun _ => 0 := funext fun a => by fin_cases a <;> rfl

section Whole

variable {κ : Kind} {sp : Space} {S : Shape} {e : EltTy}

/-- A load through the whole-shape rectangle reads the contents. -/
theorem readAt_whole (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f := by
  rw [View.readAt_eq_ld, View.ld_unit_zero h]

/-- After a store through the whole-shape rectangle, whatever was stored before, the buffer reads as the payload. -/
theorem read_writes_whole (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load through the whole-shape rectangle after such a store reads the payload. -/
theorem readCov_whole (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

/-- The first conditional of the body, as the program computes it from the column coordinate. -/
abbrev cond0_0 (i : grid0.Coords) : Prop :=
  (Scalar.cmpi .ne (Scalar.extui (Scalar.cmpi .eq (BitVec.ofNat 32 (i 1).val) 0#32)) 0#32) = 1#1

/-- It holds exactly at the first column tile. -/
theorem cond0_0_iff (i : grid0.Coords) : cond0_0 i ↔ first0 i := by
  have h : ∀ n : Fin 16, (Scalar.cmpi .ne (Scalar.extui (Scalar.cmpi .eq (BitVec.ofNat 32 n.val) 0#32)) 0#32) = 1#1 ↔ n.val = 0 := by
    decide
  exact h (i 1)

/-- The second conditional holds exactly at the last column tile. -/
theorem cond0_1_iff (i : grid0.Coords) : k0_cond2 i = 1#1 ↔ last0 i := by
  have h : ∀ n : Fin 16, (Scalar.cmpi .ne (Scalar.extui (Scalar.cmpi .eq (BitVec.ofNat 32 n.val) 15#32)) 0#32) = 1#1 ↔ n.val = 15 := by
    decide
  exact h (i 1)

set_option maxHeartbeats 1000000 in
/-- The first column tile of a row tile: the three running vectors restart from the restart values and advance, the result blocks are untouched. -/
theorem body0_first (c : Dev nD) (i : grid0.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : cond0_0 i) (hc1 : ¬k0_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc0__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare (k0_pay3 (tile0 i xa xb) k0_pay5) ∗ owns (c : Thread nD τ) arg7 fullShare (k0_pay2 (tile0 i xa xb) k0_pay5 k0_pay6)
        ∗ owns (c : Thread nD τ) arg8 fullShare (k0_pay14 (k0_pay8 xa xb) (k0_pay9 i) (k0_pay10 i) k0_pay7))) := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

set_option maxHeartbeats 1000000 in
/-- A point that is neither the first nor the last column tile of its row tile: the three running vectors advance, the result blocks are untouched. -/
theorem body0_mid (c : Dev nD) (i : grid0.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : ¬cond0_0 i) (hc1 : ¬k0_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc0__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare (k0_pay3 (tile0 i xa xb) s1) ∗ owns (c : Thread nD τ) arg7 fullShare (k0_pay2 (tile0 i xa xb) s1 s2)
        ∗ owns (c : Thread nD τ) arg8 fullShare (k0_pay14 (k0_pay8 xa xb) (k0_pay9 i) (k0_pay10 i) s3))) := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

set_option maxHeartbeats 1000000 in
/-- The last column tile of a row tile: the three running vectors advance, and the row log-sum-exp and the diagonal sum are written to the result blocks. -/
theorem body0_last (c : Dev nD) (i : grid0.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : ¬cond0_0 i) (hc1 : k0_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc0__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare (k0_pay4 (k0_pay3 (tile0 i xa xb) s1) (k0_pay2 (tile0 i xa xb) s1 s2)) ∗ owns (c : Thread nD τ) arg5 fullShare (k0_pay14 (k0_pay8 xa xb) (k0_pay9 i) (k0_pay10 i) s3)
        ∗ owns (c : Thread nD τ) arg6 fullShare (k0_pay3 (tile0 i xa xb) s1) ∗ owns (c : Thread nD τ) arg7 fullShare (k0_pay2 (tile0 i xa xb) s1 s2)
        ∗ owns (c : Thread nD τ) arg8 fullShare (k0_pay14 (k0_pay8 xa xb) (k0_pay9 i) (k0_pay10 i) s3))) := by
  simp only [cc0__stats_kernel_eq_skeleton]; unfold cc0__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

/-- One grid point of the first launch: from the two input blocks, the two result blocks and the three running
    vectors, the body leaves the inputs as they were, the running vectors one step of the recurrence further, and the
    result blocks written at the last column tile only. -/
theorem body0 (c : Dev nD) (i : grid0.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole)
    (xa : Vec F S1024x128 .bf16) (xb : Vec F S512x128 .bf16) (o4 o5 : Vec F S1024x1 .f32) (s : St F) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s.1 ∗ owns (c : Thread nD τ) arg7 fullShare s.2.1
        ∗ owns (c : Thread nD τ) arg8 fullShare s.2.2) : sProp 𝕄)
      ⊢ wp frame (wpE (defs₀ (F := F)) Variants.none c none) Set.univ
          (cc0__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
            ∗ owns (c : Thread nD τ) arg4 fullShare (if last0 i then lse0 (step0 i xa xb s) else o4)
            ∗ owns (c : Thread nD τ) arg5 fullShare (if last0 i then (step0 i xa xb s).2.2 else o5)
            ∗ owns (c : Thread nD τ) arg6 fullShare (step0 i xa xb s).1
            ∗ owns (c : Thread nD τ) arg7 fullShare (step0 i xa xb s).2.1
            ∗ owns (c : Thread nD τ) arg8 fullShare (step0 i xa xb s).2.2)) := by
  obtain ⟨s1, s2, s3⟩ := s
  by_cases hf : first0 i <;> by_cases hl : last0 i
  · exfalso; unfold first0 at hf; unfold last0 at hl; omega
  · have e : step0 i xa xb (s1, s2, s3)
        = (k0_pay3 (tile0 i xa xb) k0_pay5, k0_pay2 (tile0 i xa xb) k0_pay5 k0_pay6,
            k0_pay14 (k0_pay8 xa xb) (k0_pay9 i) (k0_pay10 i) k0_pay7) := by
      unfold step0 start0; rw [if_pos hf]
    rw [e, if_neg hl, if_neg hl]
    exact body0_first c i arg2 harg2 arg3 harg3 arg4 harg4 arg5 harg5 arg6 harg6 arg7 harg7 arg8 harg8
      ((cond0_0_iff i).2 hf) (fun h => hl ((cond0_1_iff i).1 h)) xa xb o4 o5 s1 s2 s3
  · have e : step0 i xa xb (s1, s2, s3)
        = (k0_pay3 (tile0 i xa xb) s1, k0_pay2 (tile0 i xa xb) s1 s2,
            k0_pay14 (k0_pay8 xa xb) (k0_pay9 i) (k0_pay10 i) s3) := by
      unfold step0 start0; rw [if_neg hf]
    rw [e, if_pos hl, if_pos hl]
    exact body0_last c i arg2 harg2 arg3 harg3 arg4 harg4 arg5 harg5 arg6 harg6 arg7 harg7 arg8 harg8
      (fun h => hf ((cond0_0_iff i).1 h)) ((cond0_1_iff i).2 hl) xa xb o4 o5 s1 s2 s3
  · have e : step0 i xa xb (s1, s2, s3)
        = (k0_pay3 (tile0 i xa xb) s1, k0_pay2 (tile0 i xa xb) s1 s2,
            k0_pay14 (k0_pay8 xa xb) (k0_pay9 i) (k0_pay10 i) s3) := by
      unfold step0 start0; rw [if_neg hf]
    rw [e, if_neg hl, if_neg hl]
    exact body0_mid c i arg2 harg2 arg3 harg3 arg4 harg4 arg5 harg5 arg6 harg6 arg7 harg7 arg8 harg8
      (fun h => hf ((cond0_0_iff i).1 h)) (fun h => hl ((cond0_1_iff i).1 h)) xa xb o4 o5 s1 s2 s3

end Cert.KernelIdeal.Online

end
-- ==== Proof.Oblig0.lean ====
/-
  The body obligation of the first launch: at every grid point the kernel body, run on the windows' current
  staging buffers and the three carried vectors, leaves what the proof data state.

  At a point the two input buffers hold the row block and the column block. The carried vectors hold what the
  point before left (at the launch's first point: anything, and the point being a first column tile the step
  restarts and ignores it). One run of the body advances the carried vectors by one step of the recurrence; at a
  last column tile it writes the row log-sum-exp and the diagonal sum into the two result buffers, and elsewhere
  it leaves those two buffers as it found them, which is what an idle window is asked to do.
-/
import proofs.«116349_j13649406066960_1_alg».proof.Proof.Data0
import proofs.«116349_j13649406066960_1_alg».proof.Proof.Body0

noncomputable section

namespace Cert.KernelIdeal.Online

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The column tile of a point, in closed form over the grid -/

/-- The first column tile of a row tile: the points ≡ 0 (mod 16). -/
theorem hfirst0 : ∀ t : Fin cfg0.N, first0 (grid0.coords t) ↔ t.val % 16 = 0 :=
  (by decide +kernel : ∀ t : Fin grid0.N, first0 (grid0.coords t) ↔ t.val % 16 = 0)
/-- The last column tile of a row tile: the points ≡ 15 (mod 16). -/
theorem hlast0 : ∀ t : Fin cfg0.N, last0 (grid0.coords t) ↔ t.val % 16 = 15 :=
  (by decide +kernel : ∀ t : Fin grid0.N, last0 (grid0.coords t) ↔ t.val % 16 = 15)

/-! ## Where the windows are idle -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- The result windows are live exactly at the last column tile, and written back only there. -/
theorem liveAt0_2 : ∀ t : Fin cfg0.N, last0 (grid0.coords t) → cfg0.idle 2 (grid0.coords t) = false := by decide +kernel
theorem idleAt0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem liveAt0_3 : ∀ t : Fin cfg0.N, last0 (grid0.coords t) → cfg0.idle 3 (grid0.coords t) = false := by decide +kernel
theorem idleAt0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The body at point t from carried vectors at ANY contents s from which one step gives the statistics of t. -/
theorem sound_body0_from (c : Dev nD) (t : Fin cfg0.N) (s : St F)
    (hs : stats0 V c t.val t.isLt = step0 (grid0.coords t) (xa0 V c t) (xb0 V c t) s) :
    iprop(PhiAt0 c s ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ => bodyPost0 V c t) := by
  unfold bodyPost0 bodyAt0 PhiAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  unfold PhiAt0
  by_cases hl : last0 (grid0.coords t)
  · rw [show (dat0 V c).leavesExact 2 t = owns (c : Thread nD τ) (st0_2 t) fullShare ((dat0 V c).after 2 t) from by
      unfold Dat.leavesExact; rw [liveAt0_2 t hl], after0_2]
    rw [show (dat0 V c).leavesExact 3 t = owns (c : Thread nD τ) (st0_3 t) fullShare ((dat0 V c).after 3 t) from by
      unfold Dat.leavesExact; rw [liveAt0_3 t hl], after0_3]
    rw [hs]
    iintro ⟨⟨⟨HS0, HS1, HS2, Hoth⟩, Hg⟩, Ho, ⟨%d0, H0⟩, ⟨%d1, H1⟩, ⟨%d2, H2⟩, ⟨%d3, H3⟩⟩
    have hb := body0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _)
      (xa0 V c t) (xb0 V c t) ((dat0 V c).before 2 t d2) ((dat0 V c).before 3 t d3) s
    simp only [if_pos hl] at hb
    iapply (wp_wand_r Idealize.ShloMosaic.frame (wpE (defs₀ (F := F)) Variants.none (c : Thread nD τ) none) Set.univ)
    isplitl [H0 H1 H2 H3 HS0 HS1 HS2]
    · iapply hb
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      isplitl [HS0 HS1 HS2 Hoth Hg]
      · isplitr [Hg]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      iexact H3
  · rw [Dat.leavesExact_idle (dat0 V c) 2 t (idleAt0_2 t hl) (noFlush0_2 t hl)]
    rw [Dat.leavesExact_idle (dat0 V c) 3 t (idleAt0_3 t hl) (noFlush0_3 t hl)]
    rw [hs]
    iintro ⟨⟨⟨HS0, HS1, HS2, Hoth⟩, Hg⟩, Ho, ⟨%d0, H0⟩, ⟨%d1, H1⟩, ⟨%d2, H2⟩, ⟨%d3, H3⟩⟩
    have hb := body0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _)
      (xa0 V c t) (xb0 V c t) ((dat0 V c).before 2 t d2) ((dat0 V c).before 3 t d3) s
    simp only [if_neg hl] at hb
    iapply (wp_wand_r Idealize.ShloMosaic.frame (wpE (defs₀ (F := F)) Variants.none (c : Thread nD τ) none) Set.univ)
    isplitl [H0 H1 H2 H3 HS0 HS1 HS2]
    · iapply hb
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      isplitl [HS0 HS1 HS2 Hoth Hg]
      · isplitr [Hg]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexists d2; iexact H2
      iexists d3; iexact H3

/-- The body at any point. At the launch's first point the carried vectors hold anything, and the point being a
    first column tile one step from anything gives its statistics; at a later point they hold what the point
    before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0
  by_cases hz : t.val = 0
  · rw [PhiS0_castSucc V c t, PhiS0_zero V c _ _ hz, PhiA0_eq]
    iintro ⟨⟨⟨⟨%e0, HS0⟩, ⟨%e1, HS1⟩, ⟨%e2, HS2⟩, Hoth⟩, Hg⟩, Hrest⟩
    iapply (sound_body0_from V c t (e0, e1, e2) (stats0_first V c t hz _ ((hfirst0 t).mpr (by rw [hz]))))
    unfold PhiAt0
    isplitr [Hrest]
    · isplitr [Hg]
      · isplitl [HS0]; · iexact HS0
        isplitl [HS1]; · iexact HS1
        isplitl [HS2]; · iexact HS2
        iexact Hoth
      iexact Hg
    iexact Hrest
  · rw [PhiS0_castSucc V c t, PhiS0_pos V c _ _ hz]
    exact sound_body0_from V c t _ (stats0_pos V c t hz)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the launch -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives it back: the carried vectors' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  unfold PhiAt0
  iintro ⟨⟨HS0, HS1, HS2, Hoth⟩, Hg⟩
  isplitr [Hg]
  · isplitl [HS0]; · iexists _; iexact HS0
    isplitl [HS1]; · iexists _; iexact HS1
    isplitl [HS2]; · iexists _; iexact HS2
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Online

end
-- ==== Proof.Data1.lean ====
/-
  The proof data of the second launch: what its windows and the three carried column vectors hold, point by point.

  The launch is entered with the core's buffers at contents V. At point t the two input windows hold the row
  block and the column block of their arrays as V has them. The three carried vectors hold, after point n, the
  running statistics stats1 n: the recurrence step1 applied to the blocks of point n and to what point n − 1
  left (at n = 0, to the restart values, which step1 takes by itself at every first column tile). The two result
  windows hold, at the last column tile of a row tile, the row log-sum-exp and the diagonal sum of the
  statistics there; at the other points they are idle and what is stated for them is never consulted.
-/
import proofs.«116349_j13649406066960_1_alg».proof.Proof.Online
import proofs.«116349_j13649406066960_1_alg».proof.Proof.Gen.KernelIdeal.Launch
import proofs.«116349_j13649406066960_1_alg».proof.Proof.Gen.KernelIdeal.Points
import Idealize.ShloMosaic.Lib.Pipeline.FrameBody
import Idealize.ShloMosaic.Lib.Pipeline.Frame

noncomputable section

namespace Cert.KernelIdeal.Online

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the core's buffer contents when the launch is entered
variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block at point t. -/
abbrev xa1 (c : Dev nD) (t : Fin cfg1.N) : Vec F S1024x128 .bf16 := iblk1 V c 0 t
/-- The column block at point t. -/
abbrev xb1 (c : Dev nD) (t : Fin cfg1.N) : Vec F S512x128 .bf16 := iblk1 V c 1 t

/-! ## The running statistics, point by point -/

/-- The statistics after point n: one step from what point n − 1 left; from the restart values at the first. -/
def stats1 (c : Dev nD) : (n : ℕ) → n < cfg1.N → St F
  | 0, hn => step1 (grid1.coords ⟨0, hn⟩) (xa1 V c ⟨0, hn⟩) (xb1 V c ⟨0, hn⟩) (k1_pay5, k1_pay6, k1_pay7)
  | n + 1, hn => step1 (grid1.coords ⟨n + 1, hn⟩) (xa1 V c ⟨n + 1, hn⟩) (xb1 V c ⟨n + 1, hn⟩) (stats1 c n (Nat.lt_of_succ_lt hn))

theorem stats1_zero (c : Dev nD) (hn : 0 < cfg1.N) :
    stats1 V c 0 hn = step1 (grid1.coords ⟨0, hn⟩) (xa1 V c ⟨0, hn⟩) (xb1 V c ⟨0, hn⟩) (k1_pay5, k1_pay6, k1_pay7) := rfl

theorem stats1_succ (c : Dev nD) (n : ℕ) (hn : n + 1 < cfg1.N) :
    stats1 V c (n + 1) hn = step1 (grid1.coords ⟨n + 1, hn⟩) (xa1 V c ⟨n + 1, hn⟩) (xb1 V c ⟨n + 1, hn⟩) (stats1 V c n (Nat.lt_of_succ_lt hn)) := rfl

/-- At a point that is not the first: one step from what the point before left. -/
theorem stats1_pos (c : Dev nD) (t : Fin cfg1.N) (ht : t.val ≠ 0) :
    stats1 V c t.val t.isLt = step1 (grid1.coords t) (xa1 V c t) (xb1 V c t) (stats1 V c (t.val - 1) (Nat.lt_of_le_of_lt (Nat.sub_le _ _) t.isLt)) := by
  obtain ⟨n, hn⟩ := t
  cases n with
  | zero => exact absurd rfl ht
  | succ n => rfl

/-- At any point: one step from ANY statistics if the point is a first column tile (the step restarts there),
    else from what the point before left. -/
theorem stats1_first (c : Dev nD) (t : Fin cfg1.N) (hz : t.val = 0) (s : St F) (hf : first1 (grid1.coords t)) :
    stats1 V c t.val t.isLt = step1 (grid1.coords t) (xa1 V c t) (xb1 V c t) s := by
  obtain ⟨n, hn⟩ := t
  cases n with
  | zero => unfold stats1 step1 start1; rw [if_pos hf, if_pos hf]
  | succ n => exact absurd hz (Nat.succ_ne_zero n)

/-! ## The carried vectors' memrefs and the invariant -/

/-- The three scratch operands: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

/-- The core's scoped buffers that are neither a staging buffer nor a scratch operand of this launch (the first
    launch's), each whole at some contents: they ride through the launch untouched. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The invariant with the carried vectors at contents s, the other scoped buffers at anything, the generator
    register at some state. -/
def PhiAt1 (c : Dev nD) (s : St F) : sProp 𝕄 :=
  iprop((owns (c : Thread nD τ) scM1_0 fullShare s.1 ∗ owns (c : Thread nD τ) scM1_1 fullShare s.2.1 ∗ owns (c : Thread nD τ) scM1_2 fullShare s.2.2 ∗ other1 c) ∗ (∃ r, prngReg c r))

/-- What the launch hands the region, spelt out: the three scratch operands at some contents each, the other
    scoped buffers, the generator register (the separating conjunction reordered: the scratch operands first). -/
theorem PhiA1_eq (c : Dev nD) :
    (Pipeline.ΦA spec1 c : sProp 𝕄)
      = iprop(((∃ d, owns (c : Thread nD τ) scM1_0 fullShare d) ∗ (∃ d, owns (c : Thread nD τ) scM1_1 fullShare d) ∗ (∃ d, owns (c : Thread nD τ) scM1_2 fullShare d) ∗ other1 c) ∗ (∃ r, prngReg c r)) := by
  unfold Pipeline.ΦA other1; rw [scopedRest1_eq]; simp only [scM1_0, scM1_1, scM1_2, owns_whole]
  refine BI.equiv_iff.mp ⟨?_, ?_⟩
  · show (_ : sProp 𝕄) ⊢ _
    iintro ⟨⟨A1, A2, A3, A4, A5, A6, A7, A8, A9, A10, A11, S0, S1, S2⟩, Hg⟩
    isplitr [Hg]
    · isplitl [S0]; · iexact S0
      isplitl [S1]; · iexact S1
      isplitl [S2]; · iexact S2
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      iexact A11
    iexact Hg
  · show (_ : sProp 𝕄) ⊢ _
    iintro ⟨⟨S0, S1, S2, A1, A2, A3, A4, A5, A6, A7, A8, A9, A10, A11⟩, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [S0]; · iexact S0
      isplitl [S1]; · iexact S1
      iexact S2
    iexact Hg

/-- The invariant before position n: before the first point what the launch hands the region; afterwards the
    carried vectors at the statistics of the point before. -/
def PhiS1 (c : Dev nD) : (n : ℕ) → n ≤ cfg1.N → sProp 𝕄
  | 0, _ => Pipeline.ΦA spec1 c
  | n + 1, hn => PhiAt1 c (stats1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = PhiAt1 c (stats1 V c n hn) := rfl

theorem PhiS1_pos (c : Dev nD) (n : ℕ) (h : n ≤ cfg1.N) (hz : n ≠ 0) :
    PhiS1 V c n h = PhiAt1 c (stats1 V c (n - 1) (by omega)) := by
  cases n with
  | zero => exact absurd rfl hz
  | succ n => rfl

/-! ## The proof data -/

/-- The proof data of the second launch on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => lse1 (stats1 V c t.val t.isLt)
    | ⟨3, _⟩ => (stats1 V c t.val t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = lse1 (stats1 V c t.val t.isLt) := by dsimp only [dat1]
theorem after1_3 (c : Dev nD) (t : Fin cfg1.N) : (dat1 V c).after 3 t = (stats1 V c t.val t.isLt).2.2 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end Cert.KernelIdeal.Online

end
-- ==== Proof.Body1.lean ====
/-
  One grid point of the streaming row statistics, run on the machine: the second launch.

  The body of the second launch at a grid point (the same arithmetic as the first launch's, under its own
  names), started with the two input blocks, the two result blocks and the three running column vectors in whole
  buffers, ends with the inputs unchanged, the three running vectors advanced by
  one step of the streaming recurrence, and — at the last column tile only — the row log-sum-exp and the diagonal
  sum written to the two result blocks.
-/
import proofs.«116349_j13649406066960_1_alg».proof.Proof.Body0
import proofs.«116349_j13649406066960_1_alg».proof.Proof.Gen.KernelIdeal.Skeleton
import proofs.«116349_j13649406066960_1_alg».proof.Proof.Gen.KernelIdeal.Launch
import proofs.«116349_j13649406066960_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Online

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The first conditional of the body, as the program computes it from the column coordinate. -/
abbrev cond1_0 (i : grid1.Coords) : Prop :=
  (Scalar.cmpi .ne (Scalar.extui (Scalar.cmpi .eq (BitVec.ofNat 32 (i 1).val) 0#32)) 0#32) = 1#1

/-- It holds exactly at the first column tile. -/
theorem cond1_0_iff (i : grid1.Coords) : cond1_0 i ↔ first1 i := by
  have h : ∀ n : Fin 16, (Scalar.cmpi .ne (Scalar.extui (Scalar.cmpi .eq (BitVec.ofNat 32 n.val) 0#32)) 0#32) = 1#1 ↔ n.val = 0 := by
    decide
  exact h (i 1)

/-- The second conditional holds exactly at the last column tile. -/
theorem cond1_1_iff (i : grid1.Coords) : k1_cond2 i = 1#1 ↔ last1 i := by
  have h : ∀ n : Fin 16, (Scalar.cmpi .ne (Scalar.extui (Scalar.cmpi .eq (BitVec.ofNat 32 n.val) 15#32)) 0#32) = 1#1 ↔ n.val = 15 := by
    decide
  exact h (i 1)

set_option maxHeartbeats 1000000 in
/-- The first column tile of a row tile: the three running vectors restart from the restart values and advance, the result blocks are untouched. -/
theorem body1_first (c : Dev nD) (i : grid1.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : cond1_0 i) (hc1 : ¬k1_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc1__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare (k1_pay3 (tile1 i xa xb) k1_pay5) ∗ owns (c : Thread nD τ) arg7 fullShare (k1_pay2 (tile1 i xa xb) k1_pay5 k1_pay6)
        ∗ owns (c : Thread nD τ) arg8 fullShare (k1_pay14 (k1_pay8 xa xb) (k1_pay9 i) (k1_pay10 i) k1_pay7))) := by
  simp only [cc1__stats_kernel_eq_skeleton]; unfold cc1__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

set_option maxHeartbeats 1000000 in
/-- A point that is neither the first nor the last column tile of its row tile: the three running vectors advance, the result blocks are untouched. -/
theorem body1_mid (c : Dev nD) (i : grid1.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : ¬cond1_0 i) (hc1 : ¬k1_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc1__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare (k1_pay3 (tile1 i xa xb) s1) ∗ owns (c : Thread nD τ) arg7 fullShare (k1_pay2 (tile1 i xa xb) s1 s2)
        ∗ owns (c : Thread nD τ) arg8 fullShare (k1_pay14 (k1_pay8 xa xb) (k1_pay9 i) (k1_pay10 i) s3))) := by
  simp only [cc1__stats_kernel_eq_skeleton]; unfold cc1__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

set_option maxHeartbeats 1000000 in
/-- The last column tile of a row tile: the three running vectors advance, and the row log-sum-exp and the diagonal sum are written to the result blocks. -/
theorem body1_last (c : Dev nD) (i : grid1.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole) (hc0 : ¬cond1_0 i) (hc1 : k1_cond2 i = 1#1)
    (xa : Vec F S1024x128 .bf16) (xb : Vec F S512x128 .bf16) (o4 o5 : Vec F S1024x1 .f32) (s1 s2 s3 : Vec F S1024x1 .f32) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s1 ∗ owns (c : Thread nD τ) arg7 fullShare s2
        ∗ owns (c : Thread nD τ) arg8 fullShare s3) : sProp 𝕄)
      ⊢ wp frame (wpE (defs₀ (F := F)) Variants.none c none) Set.univ
          (cc1__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
        ∗ owns (c : Thread nD τ) arg4 fullShare (k1_pay4 (k1_pay3 (tile1 i xa xb) s1) (k1_pay2 (tile1 i xa xb) s1 s2)) ∗ owns (c : Thread nD τ) arg5 fullShare (k1_pay14 (k1_pay8 xa xb) (k1_pay9 i) (k1_pay10 i) s3)
        ∗ owns (c : Thread nD τ) arg6 fullShare (k1_pay3 (tile1 i xa xb) s1) ∗ owns (c : Thread nD τ) arg7 fullShare (k1_pay2 (tile1 i xa xb) s1 s2)
        ∗ owns (c : Thread nD τ) arg8 fullShare (k1_pay14 (k1_pay8 xa xb) (k1_pay9 i) (k1_pay10 i) s3))) := by
  simp only [cc1__stats_kernel_eq_skeleton]; unfold cc1__stats_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  subst hf2 hf3 hf4 hf5 hf6 hf7 hf8
  sl_exec (disch := first | exact hc0 | exact hc1)
  sl_step
  isplitl [H2]
  · iexists _; isplitr; · ipureintro; rfl
    iexact H2
  isplitl [H3]
  · iexists _; isplitr; · ipureintro; rfl
    iexact H3
  isplitl [H4]
  · iexists _; isplitr
    swap; · iexact H4
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H5]
  · iexists _; isplitr
    swap; · iexact H5
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H6]
  · iexists _; isplitr
    swap; · iexact H6
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  isplitl [H7]
  · iexists _; isplitr
    swap; · iexact H7
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl
  · iexists _; isplitr
    swap; · iexact H8
    ipureintro; sl_unfold_run_names
    simp only [read_writes_whole (S := S1024x1) _ _ hz, readCov_whole (S := S1024x1) _ hz, readAt_whole (S := S1024x1) _ _ hz, readAt_whole (S := S1024x128) _ _ hz, readAt_whole (S := S512x128) _ _ hz]
    try rfl

/-- One grid point of the second launch: from the two input blocks, the two result blocks and the three running
    vectors, the body leaves the inputs as they were, the running vectors one step of the recurrence further, and the
    result blocks written at the last column tile only. -/
theorem body1 (c : Dev nD) (i : grid1.Coords)
    (arg2 : Memref sig .tc .vmem S1024x128 .bf16) (harg2 : arg2.IsWhole)
    (arg3 : Memref sig .tc .vmem S512x128 .bf16) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1 .f32) (harg8 : arg8.IsWhole)
    (xa : Vec F S1024x128 .bf16) (xb : Vec F S512x128 .bf16) (o4 o5 : Vec F S1024x1 .f32) (s : St F) :
    (iprop(owns (c : Thread nD τ) arg2 fullShare xa ∗ owns (c : Thread nD τ) arg3 fullShare xb
        ∗ owns (c : Thread nD τ) arg4 fullShare o4 ∗ owns (c : Thread nD τ) arg5 fullShare o5
        ∗ owns (c : Thread nD τ) arg6 fullShare s.1 ∗ owns (c : Thread nD τ) arg7 fullShare s.2.1
        ∗ owns (c : Thread nD τ) arg8 fullShare s.2.2) : sProp 𝕄)
      ⊢ wp frame (wpE (defs₀ (F := F)) Variants.none c none) Set.univ
          (cc1__stats_kernel i arg2 harg2 arg3 harg3 arg4 harg4 arg5 harg5 arg6 harg6 arg7 harg7 arg8 harg8)
          (fun _ => iprop(owns (c : Thread nD τ) arg2 fullShare xa ∗ owns (c : Thread nD τ) arg3 fullShare xb
            ∗ owns (c : Thread nD τ) arg4 fullShare (if last1 i then lse1 (step1 i xa xb s) else o4)
            ∗ owns (c : Thread nD τ) arg5 fullShare (if last1 i then (step1 i xa xb s).2.2 else o5)
            ∗ owns (c : Thread nD τ) arg6 fullShare (step1 i xa xb s).1
            ∗ owns (c : Thread nD τ) arg7 fullShare (step1 i xa xb s).2.1
            ∗ owns (c : Thread nD τ) arg8 fullShare (step1 i xa xb s).2.2)) := by
  obtain ⟨s1, s2, s3⟩ := s
  by_cases hf : first1 i <;> by_cases hl : last1 i
  · exfalso; unfold first1 at hf; unfold last1 at hl; omega
  · have e : step1 i xa xb (s1, s2, s3)
        = (k1_pay3 (tile1 i xa xb) k1_pay5, k1_pay2 (tile1 i xa xb) k1_pay5 k1_pay6,
            k1_pay14 (k1_pay8 xa xb) (k1_pay9 i) (k1_pay10 i) k1_pay7) := by
      unfold step1 start1; rw [if_pos hf]
    rw [e, if_neg hl, if_neg hl]
    exact body1_first c i arg2 harg2 arg3 harg3 arg4 harg4 arg5 harg5 arg6 harg6 arg7 harg7 arg8 harg8
      ((cond1_0_iff i).2 hf) (fun h => hl ((cond1_1_iff i).1 h)) xa xb o4 o5 s1 s2 s3
  · have e : step1 i xa xb (s1, s2, s3)
        = (k1_pay3 (tile1 i xa xb) s1, k1_pay2 (tile1 i xa xb) s1 s2,
            k1_pay14 (k1_pay8 xa xb) (k1_pay9 i) (k1_pay10 i) s3) := by
      unfold step1 start1; rw [if_neg hf]
    rw [e, if_pos hl, if_pos hl]
    exact body1_last c i arg2 harg2 arg3 harg3 arg4 harg4 arg5 harg5 arg6 harg6 arg7 harg7 arg8 harg8
      (fun h => hf ((cond1_0_iff i).1 h)) ((cond1_1_iff i).2 hl) xa xb o4 o5 s1 s2 s3
  · have e : step1 i xa xb (s1, s2, s3)
        = (k1_pay3 (tile1 i xa xb) s1, k1_pay2 (tile1 i xa xb) s1 s2,
            k1_pay14 (k1_pay8 xa xb) (k1_pay9 i) (k1_pay10 i) s3) := by
      unfold step1 start1; rw [if_neg hf]
    rw [e, if_neg hl, if_neg hl]
    exact body1_mid c i arg2 harg2 arg3 harg3 arg4 harg4 arg5 harg5 arg6 harg6 arg7 harg7 arg8 harg8
      (fun h => hf ((cond1_0_iff i).1 h)) (fun h => hl ((cond1_1_iff i).1 h)) xa xb o4 o5 s1 s2 s3

end Cert.KernelIdeal.Online

end
-- ==== Proof.Oblig1.lean ====
/-
  The body obligation of the second launch: at every grid point the kernel body, run on the windows' current
  staging buffers and the three carried vectors, leaves what the proof data state.

  At a point the two input buffers hold the row block and the column block. The carried vectors hold what the
  point before left (at the launch's first point: anything, and the point being a first column tile the step
  restarts and ignores it). One run of the body advances the carried vectors by one step of the recurrence; at a
  last column tile it writes the row log-sum-exp and the diagonal sum into the two result buffers, and elsewhere
  it leaves those two buffers as it found them, which is what an idle window is asked to do.
-/
import proofs.«116349_j13649406066960_1_alg».proof.Proof.Data1
import proofs.«116349_j13649406066960_1_alg».proof.Proof.Body1

noncomputable section

namespace Cert.KernelIdeal.Online

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The column tile of a point, in closed form over the grid -/

/-- The first column tile of a row tile: the points ≡ 0 (mod 16). -/
theorem hfirst1 : ∀ t : Fin cfg1.N, first1 (grid1.coords t) ↔ t.val % 16 = 0 :=
  (by decide +kernel : ∀ t : Fin grid1.N, first1 (grid1.coords t) ↔ t.val % 16 = 0)
/-- The last column tile of a row tile: the points ≡ 15 (mod 16). -/
theorem hlast1 : ∀ t : Fin cfg1.N, last1 (grid1.coords t) ↔ t.val % 16 = 15 :=
  (by decide +kernel : ∀ t : Fin grid1.N, last1 (grid1.coords t) ↔ t.val % 16 = 15)

/-! ## Where the windows are idle -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- The result windows are live exactly at the last column tile, and written back only there. -/
theorem liveAt1_2 : ∀ t : Fin cfg1.N, last1 (grid1.coords t) → cfg1.idle 2 (grid1.coords t) = false := by decide +kernel
theorem idleAt1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem liveAt1_3 : ∀ t : Fin cfg1.N, last1 (grid1.coords t) → cfg1.idle 3 (grid1.coords t) = false := by decide +kernel
theorem idleAt1_3 : ∀ t : Fin cfg1.N, ¬last1 (grid1.coords t) → cfg1.idle 3 (grid1.coords t) = true := by decide +kernel
theorem noFlush1_3 : ∀ t : Fin cfg1.N, ¬last1 (grid1.coords t) → (cfg1.win 3).flush t = false := by decide +kernel

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at point t from carried vectors at ANY contents s from which one step gives the statistics of t. -/
theorem sound_body1_from (c : Dev nD) (t : Fin cfg1.N) (s : St F)
    (hs : stats1 V c t.val t.isLt = step1 (grid1.coords t) (xa1 V c t) (xb1 V c t) s) :
    iprop(PhiAt1 c s ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ => bodyPost1 V c t) := by
  unfold bodyPost1 bodyAt1 PhiAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  unfold PhiAt1
  by_cases hl : last1 (grid1.coords t)
  · rw [show (dat1 V c).leavesExact 2 t = owns (c : Thread nD τ) (st1_2 t) fullShare ((dat1 V c).after 2 t) from by
      unfold Dat.leavesExact; rw [liveAt1_2 t hl], after1_2]
    rw [show (dat1 V c).leavesExact 3 t = owns (c : Thread nD τ) (st1_3 t) fullShare ((dat1 V c).after 3 t) from by
      unfold Dat.leavesExact; rw [liveAt1_3 t hl], after1_3]
    rw [hs]
    iintro ⟨⟨⟨HS0, HS1, HS2, Hoth⟩, Hg⟩, Ho, ⟨%d0, H0⟩, ⟨%d1, H1⟩, ⟨%d2, H2⟩, ⟨%d3, H3⟩⟩
    have hb := body1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _)
      (xa1 V c t) (xb1 V c t) ((dat1 V c).before 2 t d2) ((dat1 V c).before 3 t d3) s
    simp only [if_pos hl] at hb
    iapply (wp_wand_r Idealize.ShloMosaic.frame (wpE (defs₀ (F := F)) Variants.none (c : Thread nD τ) none) Set.univ)
    isplitl [H0 H1 H2 H3 HS0 HS1 HS2]
    · iapply hb
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      isplitl [HS0 HS1 HS2 Hoth Hg]
      · isplitr [Hg]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexact H2
      iexact H3
  · rw [Dat.leavesExact_idle (dat1 V c) 2 t (idleAt1_2 t hl) (noFlush1_2 t hl)]
    rw [Dat.leavesExact_idle (dat1 V c) 3 t (idleAt1_3 t hl) (noFlush1_3 t hl)]
    rw [hs]
    iintro ⟨⟨⟨HS0, HS1, HS2, Hoth⟩, Hg⟩, Ho, ⟨%d0, H0⟩, ⟨%d1, H1⟩, ⟨%d2, H2⟩, ⟨%d3, H3⟩⟩
    have hb := body1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (Memref.whole cc1_scratch1) (Memref.isWhole_whole _) (Memref.whole cc1_scratch2) (Memref.isWhole_whole _)
      (xa1 V c t) (xb1 V c t) ((dat1 V c).before 2 t d2) ((dat1 V c).before 3 t d3) s
    simp only [if_neg hl] at hb
    iapply (wp_wand_r Idealize.ShloMosaic.frame (wpE (defs₀ (F := F)) Variants.none (c : Thread nD τ) none) Set.univ)
    isplitl [H0 H1 H2 H3 HS0 HS1 HS2]
    · iapply hb
      isplitl [H0]; · iexact H0
      isplitl [H1]; · iexact H1
      isplitl [H2]; · iexact H2
      isplitl [H3]; · iexact H3
      isplitl [HS0]; · iexact HS0
      isplitl [HS1]; · iexact HS1
      iexact HS2
    · iintro %_ ⟨H0, H1, H2, H3, HS0, HS1, HS2⟩
      isplitl [HS0 HS1 HS2 Hoth Hg]
      · isplitr [Hg]
        · isplitl [HS0]; · iexact HS0
          isplitl [HS1]; · iexact HS1
          isplitl [HS2]; · iexact HS2
          iexact Hoth
        iexact Hg
      isplitl [Ho]; · iexact Ho
      isplitl [H0]; · iexact H0
      isplitl [H1]; · iexact H1
      isplitl [H2]; · iexists d2; iexact H2
      iexists d3; iexact H3

/-- The body at any point. At the launch's first point the carried vectors hold anything, and the point being a
    first column tile one step from anything gives its statistics; at a later point they hold what the point
    before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1
  by_cases hz : t.val = 0
  · rw [PhiS1_castSucc V c t, PhiS1_zero V c _ _ hz, PhiA1_eq]
    iintro ⟨⟨⟨⟨%e0, HS0⟩, ⟨%e1, HS1⟩, ⟨%e2, HS2⟩, Hoth⟩, Hg⟩, Hrest⟩
    iapply (sound_body1_from V c t (e0, e1, e2) (stats1_first V c t hz _ ((hfirst1 t).mpr (by rw [hz]))))
    unfold PhiAt1
    isplitr [Hrest]
    · isplitr [Hg]
      · isplitl [HS0]; · iexact HS0
        isplitl [HS1]; · iexact HS1
        isplitl [HS2]; · iexact HS2
        iexact Hoth
      iexact Hg
    iexact Hrest
  · rw [PhiS1_castSucc V c t, PhiS1_pos V c _ _ hz]
    exact sound_body1_from V c t _ (stats1_pos V c t hz)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the launch -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives it back: the carried vectors' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiAt1
  iintro ⟨⟨HS0, HS1, HS2, Hoth⟩, Hg⟩
  isplitr [Hg]
  · isplitl [HS0]; · iexists _; iexact HS0
    isplitl [HS1]; · iexists _; iexact HS1
    isplitl [HS2]; · iexists _; iexact HS2
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Online

end
-- ==== Proof.KHost.lean ====
/-
  The host lines after the two launches, as pure functions of the four arrays the launches leave: the mean over
  the rows of (log-sum-exp − diagonal) for each launch, the halved sum of the two means, and the closing guard that
  replaces a result that is not a number or is infinite by 0.
-/
import proofs.«116349_j13649406066960_1_alg».proof.Proof.Gen.KernelIdeal

noncomputable section

namespace Cert.KernelIdeal.Online

open Idealize.ShloMosaic Cert.KernelIdeal Cert.KernelIdeal.Gen

variable {F : FTy → Type} [FloatOps F] [Named F]

/-- The mean over the rows of `l − d`, as the host spells it: reshape both columns to vectors, subtract, sum from 0,
    divide by the row count. -/
def meanDiff (l d : FVec F S8192x1 .f32) : FVec F S_ .f32 :=
  Host.divf
    (Host.reduceAdd (subf (shapeCast S8192 l shapeCasts_S8192x1_S8192) (shapeCast S8192 d shapeCasts_S8192x1_S8192))
      (constant S_ .f32 0x00000000#32) reducesTo_S8192_S_d0 h_S_)
    (constant S_ .f32 0x46000000#32)

/-- The loss before the closing guard: the two means added and halved. -/
def lossOf (l0 d0 l1 d1 : FVec F S8192x1 .f32) : FVec F S_ .f32 :=
  Host.divf (addf (meanDiff l0 d0) (meanDiff l1 d1)) (constant S_ .f32 0x40000000#32)

/-- The closing guard. -/
def guardOf (v : FVec F S_ .f32) : FVec F S_ .f32 :=
  select (ori (cmpf .une v v) (cmpf .oeq (Host.absf v) (constant S_ .f32 0x7F800000#32))) (constant S_ .f32 0x00000000#32) v

end Cert.KernelIdeal.Online

end
-- ==== Proof.Launch.lean ====
/-
  The run of @main: two launches among stretches of host operations, from the launch memory to the result.

  The core's buffer contents are followed from boundary to boundary. A host stretch takes them to what its
  operations compute from them. A launch takes its four windows' arrays to what its write-backs leave (the two
  input arrays as they were; each result array with, row tile by row tile, what the last column tile of the
  tile stored) and leaves every other buffer alone. Every weakly fair execution terminates, the two arguments
  end as launched, and the result buffer holds what the last host stretch computes from the four result arrays.
-/
import proofs.«116349_j13649406066960_1_alg».proof.Proof.Oblig0
import proofs.«116349_j13649406066960_1_alg».proof.Proof.Oblig1
import proofs.«116349_j13649406066960_1_alg».proof.Proof.KHost
import proofs.«116349_j13649406066960_1_alg».proof.Proof.Gen.KernelIdeal.Regions
import Idealize.ShloMosaic.Lib.Pipeline.RegionsLoop
import Idealize.ShloMosaic.Lib.Pipeline.FrameSuffix

noncomputable section

namespace Cert.KernelIdeal.Online

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m ((c : Dev nD), b)
/-- After the first host stretch (the first launch's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the first launch's exit: its arrays at what the write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (the second launch's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the second launch's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After each of the four closing host stretches. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)

/-! ## The proof data family and the thread state -/

/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- The first launch over the thread state: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)) ]

/-- @main is the run of the segments. -/
theorem main_run (c : Dev nD) : main (F := F) c = Pipeline.Seg.run (segs m) := (main_chain c).trans (by chain_rfl)

/-! ## The arguments end as launched -/

theorem W8_of (c : Dev nD) (r : Ref sig .tc) (h5 : r ∉ hostOps2_W) (h6 : r ∉ hostOps2_1_W) (h7 : r ∉ hostOps2_2_W) (h8 : r ∉ hostOps2_3_W) :
    W8 m c (Proc.devRef .tc r) = W4 m c (Proc.devRef .tc r) :=
  (StableHlo.after_of_writes_sub hostOps2_3 _ hostOps2_3_writes h8).trans <|
  (StableHlo.after_of_writes_sub hostOps2_2 _ hostOps2_2_writes h7).trans <|
  (StableHlo.after_of_writes_sub hostOps2_1 _ hostOps2_1_writes h6).trans <|
  (StableHlo.after_of_writes_sub hostOps2 _ hostOps2_writes h5)

theorem W4_of (c : Dev nD) (r : Ref sig .tc) (h4 : ∀ w, Pipeline.arrRef spec1 w ≠ r) (h3 : r ∉ hostOps1_W) (h2 : ∀ w, Pipeline.arrRef spec0 w ≠ r) :
    W4 m c (Proc.devRef .tc r) = W1 m c (Proc.devRef .tc r) :=
  (W4_of_ne m c r h4).trans <| (StableHlo.after_of_writes_sub hostOps1 _ hostOps1_writes h3).trans <| W2_of_ne m c r h2

theorem W8_main_arg0 (c : Dev nD) : W8 m c (Proc.devRef .tc main_arg0) = m ((c : Thread nD τ).loc main_arg0) :=
  (W8_of m c main_arg0 (by decide) (by decide) (by decide) (by decide)).trans <|
  (W4_of m c main_arg0 (by decide) (by decide) (by decide)).trans <|
  (StableHlo.after_of_writes_sub hostOps0 _ hostOps0_writes (by decide)).trans rfl
theorem W8_main_arg1 (c : Dev nD) : W8 m c (Proc.devRef .tc main_arg1) = m ((c : Thread nD τ).loc main_arg1) :=
  (W8_of m c main_arg1 (by decide) (by decide) (by decide) (by decide)).trans <|
  (W4_of m c main_arg1 (by decide) (by decide) (by decide)).trans <|
  (StableHlo.after_of_writes_sub hostOps0 _ hostOps0_writes (by decide)).trans rfl

/-! ## What the boundaries' contents are -/

/-- The first launch's row-block array at its entry: the first argument, reshaped to 8192 rows and rounded. -/
theorem U1_main_v1 (c : Dev nD) :
    U1 m c main_v1 = (truncf .bf16 (shapeCast S8192x128 (m ((c : Thread nD τ).loc main_arg0)) shapeCasts_S512x16x128_S8192x128) bitsLt_bf16_f32 : FVec F S8192x128 .bf16) := by
  show StableHlo.after hostOps0 (W0 m c) (Proc.devRef .tc main_v1) = _
  after_results
  rfl
/-- Its column-block array: the second argument, likewise. -/
theorem U1_main_v3 (c : Dev nD) :
    U1 m c main_v3 = (truncf .bf16 (shapeCast S8192x128 (m ((c : Thread nD τ).loc main_arg1)) shapeCasts_S512x16x128_S8192x128) bitsLt_bf16_f32 : FVec F S8192x128 .bf16) := by
  show StableHlo.after hostOps0 (W0 m c) (Proc.devRef .tc main_v3) = _
  after_results
  rfl

/-- The second launch is entered with the same two arrays: nothing between writes them. -/
theorem U3_main_v1 (c : Dev nD) : U3 m c main_v1 = U1 m c main_v1 :=
  (StableHlo.after_of_writes_sub hostOps1 _ hostOps1_writes (by decide)).trans <|
    (W2_arr m c 0).trans (((dat0 (U1 m) c).arrAt_in 0 rfl _).trans (A_eq0 (U1 m) c 0))
theorem U3_main_v3 (c : Dev nD) : U3 m c main_v3 = U1 m c main_v3 :=
  (StableHlo.after_of_writes_sub hostOps1 _ hostOps1_writes (by decide)).trans <|
    (W2_arr m c 1).trans (((dat0 (U1 m) c).arrAt_in 1 rfl _).trans (A_eq0 (U1 m) c 1))

/-- The four closing host stretches, from any contents X: the result buffer holds the guarded loss of the two
    reshaped columns X has for the first launch and the two result arrays it has for the second. -/
theorem tail_eq (X : Valuation τ sig (Elt F)) :
    StableHlo.after hostOps2_3 (StableHlo.after hostOps2_2 (StableHlo.after hostOps2_1 (StableHlo.after hostOps2 X))) (Proc.devRef .tc main_v21)
      = guardOf (Host.divf (addf
          (Host.divf (Host.reduceAdd (subf (X (Proc.devRef .tc main_v5)) (X (Proc.devRef .tc main_v6))) (constant S_ .f32 0x00000000#32) reducesTo_S8192_S_d0 h_S_) (constant S_ .f32 0x46000000#32))
          (meanDiff (X (Proc.devRef .tc main_v7_0)) (X (Proc.devRef .tc main_v7_1)))) (constant S_ .f32 0x40000000#32)) := by
  after_results
  rfl

/-- The result buffer at the last boundary: the guarded loss of the four result arrays as the launches leave them. -/
theorem W8_main_v21 (c : Dev nD) :
    W8 m c (Proc.devRef .tc main_v21)
      = guardOf (lossOf (W2 m c (Proc.devRef .tc main_v4_0)) (W2 m c (Proc.devRef .tc main_v4_1)) (W4 m c (Proc.devRef .tc main_v7_0)) (W4 m c (Proc.devRef .tc main_v7_1))) := by
  have h5 : W4 m c (Proc.devRef .tc main_v5) = shapeCast S8192 (W2 m c (Proc.devRef .tc main_v4_0)) shapeCasts_S8192x1_S8192 :=
    (W4_of_ne m c main_v5 (by decide)).trans (by
      show StableHlo.after hostOps1 (W2 m c) (Proc.devRef .tc main_v5) = _
      after_results
      rfl)
  have h6 : W4 m c (Proc.devRef .tc main_v6) = shapeCast S8192 (W2 m c (Proc.devRef .tc main_v4_1)) shapeCasts_S8192x1_S8192 :=
    (W4_of_ne m c main_v6 (by decide)).trans (by
      show StableHlo.after hostOps1 (W2 m c) (Proc.devRef .tc main_v6) = _
      after_results
      rfl)
  refine (tail_eq (W4 m c)).trans ?_
  rw [h5, h6]
  rfl

/-- The same with the launches' result arrays named by their proof data. -/
theorem W8_main_v21_arr (c : Dev nD) :
    W8 m c (Proc.devRef .tc main_v21)
      = guardOf (lossOf ((dat0 (U1 m) c).arrAt 2 cfg0.N) ((dat0 (U1 m) c).arrAt 3 cfg0.N) ((dat1 (U3 m) c).arrAt 2 cfg1.N) ((dat1 (U3 m) c).arrAt 3 cfg1.N)) := by
  rw [W8_main_v21]
  rw [show W2 m c (Proc.devRef .tc main_v4_0) = (dat0 (U1 m) c).arrAt 2 cfg0.N from W2_arr m c 2,
    show W2 m c (Proc.devRef .tc main_v4_1) = (dat0 (U1 m) c).arrAt 3 cfg0.N from W2_arr m c 3,
    show W4 m c (Proc.devRef .tc main_v7_0) = (dat1 (U3 m) c).arrAt 2 cfg1.N from W4_arr m c 2,
    show W4 m c (Proc.devRef .tc main_v7_1) = (dat1 (U3 m) c).arrAt 3 cfg1.N from W4_arr m c 3]

/-! ## The run -/

set_option backward.isDefEq.respectTransparency.types false in
/-- From any memory with zero counters every weakly fair execution of @main terminates, and every final memory
    holds the result buffer at what the last boundary's contents say and each argument as launched. -/
theorem run_values (ρ : Dev nD → PrngReg) : θ_run defs (onTc (τ := τ) (main (F := F))) ⟨m, fun _ => 0, ρ⟩ (fun r => ∀ c : Dev nD,
      r.2.mem ((c.tc : Thread nD τ).loc main_v21) = W8 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W8 m c) ∗ R c) : sProp 𝕄)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v21 (by decide)),
       (h c _ (mem_uc main_arg0 (by decide))).trans (W8_main_arg0 m c),
       (h c _ (mem_uc main_arg1 (by decide))).trans (W8_main_arg1 m c)⟩)

end Cert.KernelIdeal.Online

end
-- ==== Proof.KBlocks0.lean ====
/-
  The first launch's grid and blocks, read off the arrays.

  The launch walks its 128 points row tile by row tile: point t is column tile t mod 16 of row tile t / 16. The row
  block of a point is rows 1024 (t / 16) … 1024 (t / 16) + 1023 of the first feature array, the column block rows
  512 (t mod 16) … 512 (t mod 16) + 511 of the second; the two result blocks move with the row tile. A block's
  element sits in its array, on each axis, at the block index times the block's size plus its own coordinate.
-/
import proofs.«116349_j13649406066960_1_alg».proof.Proof.Data0
import Idealize.ShloMosaic.Lib.ValueIdx
import Idealize.ShloMosaic.Lib.Pipeline.Value

noncomputable section

namespace Cert.KernelIdeal.Online

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx

variable {F : FTy → Type} [FloatOps F] [Named F]

variable (V : (c : Dev nD) → (b : Ref sig .tc) → Buf (Elt F) ((c : Thread nD τ).loc b))

/-! ## The grid's points and the windows' block indices -/

/-- Point t is column tile t mod 16 of row tile t / 16. -/
theorem coords0 : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The row block and the two result blocks move with the row tile, the column block with the column tile. -/
theorem index0 : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0 :=
  (by decide +kernel : ∀ t : Fin grid0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0)

/-! ## The two input arrays and their blocks -/

/-- The two feature arrays as the launch finds them. -/
abbrev arrA0 (c : Dev nD) : Vec F S8192x128 .bf16 := V c main_v1
abbrev arrB0 (c : Dev nD) : Vec F S8192x128 .bf16 := V c main_v3

/-- Row p of the row block at point t is row 1024 (t / 16) + p of the first array. -/
theorem xa0_apply (c : Dev nD) (t : Fin cfg0.N) (p : Fin 1024) (k : Fin 128) (r : Fin 8192)
    (hr : r.val = 1024 * (t.val / 16) + p.val) : xa0 V c t (ix2 p k) = arrA0 V c (ix2 r k) := by
  obtain ⟨e00, e01, -⟩ := index0 t
  unfold xa0 iblk0
  rw [View.read_apply]
  show V c main_v1 _ = V c main_v1 _
  congr 1
  funext a; apply Fin.ext
  match a with
  | ⟨0, _⟩ => show win0_0.index t (0 : Fin 2) * 1024 + 1 * p.val = r.val; rw [e00, hr]; omega
  | ⟨1, _⟩ => show win0_0.index t (1 : Fin 2) * 128 + 1 * k.val = k.val; rw [e01]; omega

/-- Row q of the column block at point t is row 512 (t mod 16) + q of the second array. -/
theorem xb0_apply (c : Dev nD) (t : Fin cfg0.N) (q : Fin 512) (k : Fin 128) (r : Fin 8192)
    (hr : r.val = 512 * (t.val % 16) + q.val) : xb0 V c t (ix2 q k) = arrB0 V c (ix2 r k) := by
  obtain ⟨-, -, e10, e11, -⟩ := index0 t
  unfold xb0 iblk0
  rw [View.read_apply]
  show V c main_v3 _ = V c main_v3 _
  congr 1
  funext a; apply Fin.ext
  match a with
  | ⟨0, _⟩ => show win0_1.index t (0 : Fin 2) * 512 + 1 * q.val = r.val; rw [e10, hr]; omega
  | ⟨1, _⟩ => show win0_1.index t (1 : Fin 2) * 128 + 1 * k.val = k.val; rw [e11]; omega

end Cert.KernelIdeal.Online

end
-- ==== Proof.Spec.lean ====
/-
  The loss both programs compute, in two arrangements, over plain matrices of extended reals.

  Two feature matrices `a`, `b` of 8192 rows (16 consecutive rows form a group) and 128 features give the
  similarity `⟨a i, b j⟩`. Inside a group every off-diagonal similarity is replaced by a fill value; the result is
  scaled, and each row's cross entropy against its own index is `logsumexp_j (row i) − (row i at i)`. The loss is
  the mean of the row cross entropies of the scaled matrix and of its transpose, halved.

  * The STREAMING arrangement walks a row's 8192 columns in 16 tiles of 512, keeping the running maximum, the
    running sum of exponentials relative to it (rescaled when the maximum grows) and the running diagonal sum, and
    MULTIPLIES by the reciprocal temperature `rt`.
  * The WHOLE-ROW arrangement takes the row maximum first, then the sum of exponentials relative to it, and
    DIVIDES by the temperature `tp`.
-/
import Idealize.ShloMosaic.PureOps.Ideal

noncomputable section

namespace Cert.Loss

open Idealize.ShloMosaic

/-- A feature matrix: 8192 rows of 128 features. -/
abbrev Mat : Type := Fin 8192 → Fin 128 → EReal

/-- The fill value of masked similarities (the same word in both programs). -/
def fill : EReal := Ideal.ofBits .f32 0xC61C4000#32
/-- The temperature the whole-row arrangement divides by: the binary fraction 5368709 / 2²⁹. -/
def tp : EReal := Ideal.ofBits .f32 0x3C23D70A#32
/-- Its exact reciprocal, which the streaming arrangement multiplies by. -/
def rt : EReal := ((536870912 / 5368709 : ℝ) : EReal)
/-- The row count as the mean's divisor, and the final halving's divisor. -/
def rowsE : EReal := Ideal.ofBits .f32 0x46000000#32
def twoE : EReal := Ideal.ofBits .f32 0x40000000#32

/-- The similarity of row `i` of `a` and row `j` of `b`. -/
def inner (a b : Mat) (i j : Fin 8192) : EReal := ∑ k : Fin 128, a i k * b j k

/-- Two different rows of one group of 16. -/
def masked (i j : Fin 8192) : Prop := i.val / 16 = j.val / 16 ∧ i ≠ j
instance (i j : Fin 8192) : Decidable (masked i j) := inferInstanceAs (Decidable (_ ∧ _))

/-- The masked similarity. -/
def msim (a b : Mat) (i j : Fin 8192) : EReal := if masked i j then fill else inner a b i j

/-- The maximum of finitely many extended reals, from −∞. -/
def vmax {n : ℕ} (f : Fin n → EReal) : EReal := (Finset.univ : Finset (Fin n)).fold max ⊥ f

/-! ## The streaming arrangement -/

/-- Column `q` of column tile `j`. -/
def col (j : Fin 16) (q : Fin 512) : Fin 8192 := ⟨512 * j.val + q.val, by have := j.isLt; have := q.isLt; omega⟩

/-- The scaled masked similarity, multiplied by the reciprocal temperature. -/
def logitK (a b : Mat) (r : Fin 8192) (j : Fin 16) (q : Fin 512) : EReal := msim a b r (col j q) * rt

/-- One column tile folded into a row's running maximum, sum and diagonal sum. -/
def stepK (a b : Mat) (r : Fin 8192) (s : EReal × EReal × EReal) (j : Fin 16) : EReal × EReal × EReal :=
  let m' := max s.1 (vmax fun q => logitK a b r j q)
  (m',
   Ideal.exp (s.1 - m') * s.2.1 + ∑ q : Fin 512, Ideal.exp (logitK a b r j q - m'),
   s.2.2 + ∑ q : Fin 512, (if r = col j q then inner a b r (col j q) * rt else 0))

/-- The statistics of row `r` after column tiles `0 … n`, from −∞, 0, 0. -/
def statsK (a b : Mat) (r : Fin 8192) : (n : ℕ) → n < 16 → EReal × EReal × EReal
  | 0, h => stepK a b r (⊥, 0, 0) ⟨0, h⟩
  | n + 1, h => stepK a b r (statsK a b r n (Nat.lt_of_succ_lt h)) ⟨n + 1, h⟩

/-- The row's log-sum-exp and diagonal as the streaming arrangement ends with them. -/
def lseK (a b : Mat) (r : Fin 8192) : EReal := (statsK a b r 15 (by decide)).1 + Ideal.log (statsK a b r 15 (by decide)).2.1
def diagK (a b : Mat) (r : Fin 8192) : EReal := (statsK a b r 15 (by decide)).2.2

/-- The mean row cross entropy, streaming. -/
def ceK (a b : Mat) : EReal := Ideal.div (0 + ∑ r : Fin 8192, (lseK a b r - diagK a b r)) rowsE

/-- The loss, streaming: rows of `a` against `b`, then rows of `b` against `a`. -/
def lossK (a b : Mat) : EReal := Ideal.div (ceK a b + ceK b a) twoE

/-! ## The whole-row arrangement -/

/-- The scaled masked similarity, divided by the temperature. -/
def logitR (a b : Mat) (i j : Fin 8192) : EReal := Ideal.div (msim a b i j) tp

/-- The row maximum of a score matrix (taken once more against −∞, as the log-softmax spells it). -/
def rmax (L : Fin 8192 → Fin 8192 → EReal) (i : Fin 8192) : EReal := max ⊥ (vmax fun j => L i j)

/-- The log-softmax of row `i` at its own index. -/
def lsmDiag (L : Fin 8192 → Fin 8192 → EReal) (i : Fin 8192) : EReal :=
  (L i i - rmax L i) - Ideal.log (0 + ∑ j : Fin 8192, Ideal.exp (L i j - rmax L i))

/-- The mean row cross entropy, whole-row. -/
def ceR (L : Fin 8192 → Fin 8192 → EReal) : EReal := -(Ideal.div (0 + ∑ i : Fin 8192, lsmDiag L i) rowsE)

/-- The loss, whole-row: the score matrix and its transpose. -/
def lossR (a b : Mat) : EReal := Ideal.div (ceR (logitR a b) + ceR (fun i j => logitR a b j i)) twoE

end Cert.Loss

end
-- ==== Proof.KMat.lean ====
/-
  Arrays as matrices, and a row's three statistics as a triple.

  A feature array of 8192 rows and 128 columns is read as the matrix of its entries; a triple of column vectors
  over a tile's 1024 rows is read, at row p, as the triple of its entries there. The streaming statistics of the
  specification are indexed by a tile count and a proof that it is below 16: they do not depend on how the count
  is written.
-/
import proofs.«116349_j13649406066960_1_alg».proof.Proof.Online
import proofs.«116349_j13649406066960_1_alg».proof.Proof.Spec
import Idealize.ShloMosaic.Lib.ValueIdx

noncomputable section

namespace Cert.KernelIdeal.Online

open Idealize.ShloMosaic Idealize.SL.Sem Cert.KernelIdeal
open Idealize.ShloMosaic.ValueIdx

/-- An array of 8192 rows of 128 features as a matrix of extended reals. -/
def matOf (v : Vec Ideal S8192x128 .bf16) : Cert.Loss.Mat := fun r k => v (ix2 r k)

/-- The three statistics at row p of the tile, as a triple. -/
abbrev atRow (s : St Ideal) (p : Fin 1024) : EReal × EReal × EReal := (s.1 (ix2 p 0), s.2.1 (ix2 p 0), s.2.2 (ix2 p 0))

/-- The streaming statistics do not depend on how the tile count is written. -/
theorem statsK_congr (a b : Cert.Loss.Mat) (r : Fin 8192) {n n' : ℕ} (e : n = n') (h : n < 16) (h' : n' < 16) :
    Cert.Loss.statsK a b r n h = Cert.Loss.statsK a b r n' h' := by subst e; rfl

end Cert.KernelIdeal.Online

end
-- ==== Proof.StepMask.lean ====
/-
  The integer side of one grid point, read at one element of the 1024 × 512 tile.

  The row word of element (p, q) at point i is the global row 1024·(i 0) + p, the column word the global column
  512·(i 1) + q; both are below 8192, so nothing wraps and every signed reading is the unsigned one. The floor
  division by 16, as the kernel spells it (a truncating division corrected where the signs differ and the
  remainder is not zero), is on such words the plain quotient. Hence the mask bit "same group of 16 and not the
  same index" is 1 exactly on the masked pairs of the specification, and the diagonal bit exactly where the
  global row is the global column.
-/
import proofs.«116349_j13649406066960_1_alg».proof.Proof.Online
import proofs.«116349_j13649406066960_1_alg».proof.Proof.Spec
import Idealize.ShloMosaic.Lib.ValueIdx
import Idealize.ShloMosaic.Lib.Pipeline.Value
import Idealize.ShloMosaic.Lib.StableHlo.Predicate

noncomputable section

namespace Cert.KernelIdeal.Online

open Idealize.ShloMosaic Idealize.SL.Sem Cert.KernelIdeal Cert.KernelIdeal.Gen
open Idealize.ShloMosaic.ValueIdx
open Idealize.ShloMosaic.StableHlo (Predicate.sgt_iff_toNat Predicate.slt_iff_toNat Predicate.cmpi_eq_iff)

/-- The global row of row `p` of row tile `i 0`. -/
def rowOf (i : grid0.Coords) (p : Fin 1024) : Fin 8192 :=
  ⟨1024 * (i 0).val + p.val, by have h : (i 0).val < 8 := (i 0).isLt; have := p.isLt; omega⟩
/-- The column tile of the point. -/
def tileOf (i : grid0.Coords) : Fin 16 := ⟨(i 1).val, (i 1).isLt⟩

/-! ## Words -/

/-- The floor division by 16 on one 32-bit word, as the kernel spells it: the truncating quotient, less one where
    the operands' signs differ and the remainder is not zero. -/
def fdiv16 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32)
    (IntOp.divsi .vector x 16#32)

/-- A word below 2³¹ divided by 16, signed: no corner is met and the quotient is the naturals'. -/
theorem divsi_sixteen (w : BitVec 32) (hw : w.toNat < 2 ^ 31) : (IntOp.divsi .vector w 16#32).toNat = w.toNat / 16 := by
  have hcorner : ¬ IntOp.SDivCorner w 16#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (16#32 : BitVec 32).msb = false from by decide, BitVec.udiv_eq,
    BitVec.toNat_udiv, BitVec.toNat_ofNat]

/-- On a non-negative word the correction never applies: the floor quotient is the truncating one. -/
theorem fdiv16_of_lt (x : BitVec 32) (hx : x.toNat < 2 ^ 31) : fdiv16 x = IntOp.divsi .vector x 16#32 := by
  unfold fdiv16
  rcases Nat.eq_zero_or_pos x.toNat with h0 | hpos
  · have hx0 : x = 0#32 := BitVec.eq_of_toNat_eq (by simpa using h0)
    subst hx0; decide
  · have hsgt : IntOp.cmpi .sgt x 0#32 = 1#1 :=
      (Predicate.sgt_iff_toNat hx (by decide)).mpr (by simpa using hpos)
    have hslt : IntOp.cmpi .slt x 0#32 = 0#1 :=
      eq_zero_of_ne_one fun h => by
        have := (Predicate.slt_iff_toNat hx (by decide)).mp h
        simp at this
    rw [hsgt, hslt]
    have h1 : IntOp.cmpi .ne (IntOp.subi ((1#1 : BitVec 1).setWidth 32) ((0#1 : BitVec 1).setWidth 32))
        (Scalar.subi (Scalar.extui (Scalar.cmpi .sgt 16#32 0#32)) (Scalar.extui (Scalar.cmpi .slt 16#32 0#32))) = 0#1 := by
      decide
    rw [h1]
    have h2 : ∀ b : BitVec 1, IntOp.andi 0#1 b = 0#1 := fun b => by
      rcases BitVec.eq_zero_or_eq_one b with rfl | rfl <;> decide
    rw [h2, select_zero]

/-- The floor quotient of the word of a small natural is the word of the quotient. -/
theorem fdiv16_ofNat (n : Nat) (hn : n < 8192) : fdiv16 (BitVec.ofNat 32 n) = BitVec.ofNat 32 (n / 16) := by
  have ht : (BitVec.ofNat 32 n).toNat = n := by rw [BitVec.toNat_ofNat]; omega
  rw [fdiv16_of_lt _ (by rw [ht]; omega)]
  apply BitVec.eq_of_toNat_eq
  rw [divsi_sixteen _ (by rw [ht]; omega), ht, BitVec.toNat_ofNat]
  omega

/-- Words of small naturals are equal exactly when the naturals are. -/
theorem ofNat_inj_small (m n : Nat) (hm : m < 8192) (hn : n < 8192) : BitVec.ofNat 32 m = BitVec.ofNat 32 n ↔ m = n := by
  constructor
  · intro h
    have := congrArg BitVec.toNat h
    rw [BitVec.toNat_ofNat, BitVec.toNat_ofNat] at this
    omega
  · rintro rfl; rfl

/-- A select on a bit that is 1 exactly when `P` holds is the `if` on `P`. -/
theorem select_of_iff {α : Type} {c : BitVec 1} {P : Prop} [Decidable P] (h : c = 1#1 ↔ P) (a b : α) :
    Scalar.select c a b = if P then a else b := by
  unfold Scalar.select
  by_cases hp : P
  · rw [if_pos hp]; exact if_pos (h.mpr hp)
  · rw [if_neg hp]; exact if_neg fun hc => hp (h.mp hc)

/-- The mask bit of a pair of global indices: same group of 16, not the same index. -/
theorem maskBit_iff (r c : Nat) (hr : r < 8192) (hc : c < 8192) :
    IntOp.andi (IntOp.cmpi .eq (fdiv16 (BitVec.ofNat 32 r)) (fdiv16 (BitVec.ofNat 32 c)))
        (IntOp.xori (IntOp.cmpi .eq (BitVec.ofNat 32 r) (BitVec.ofNat 32 c)) 1#1) = 1#1
      ↔ (r / 16 = c / 16 ∧ r ≠ c) := by
  rw [fdiv16_ofNat r hr, fdiv16_ofNat c hc]
  have hand : ∀ x y : BitVec 1, IntOp.andi x y = 1#1 ↔ (x = 1#1 ∧ y = 1#1) := fun x y => by
    rcases BitVec.eq_zero_or_eq_one x with rfl | rfl <;> rcases BitVec.eq_zero_or_eq_one y with rfl | rfl <;> decide
  have hxor : ∀ x : BitVec 1, IntOp.xori x 1#1 = 1#1 ↔ ¬ x = 1#1 := fun x => by
    rcases BitVec.eq_zero_or_eq_one x with rfl | rfl <;> decide
  rw [hand, hxor, Predicate.cmpi_eq_iff, Predicate.cmpi_eq_iff, ofNat_inj_small _ _ (by omega) (by omega),
    ofNat_inj_small _ _ hr hc]

/-- The diagonal bit of a pair of global indices. -/
theorem diagBit_iff (r c : Nat) (hr : r < 8192) (hc : c < 8192) :
    IntOp.cmpi .eq (BitVec.ofNat 32 r) (BitVec.ofNat 32 c) = 1#1 ↔ r = c := by
  rw [Predicate.cmpi_eq_iff, ofNat_inj_small _ _ hr hc]

/-! ## The three integer payloads at an element -/

/-- The row word of element (p, q): the global row. -/
theorem pay9_apply (i : grid0.Coords) (p : Fin 1024) (q : Fin 512) :
    k0_pay9 i (ix2 p q) = BitVec.ofNat 32 (rowOf i p).val := by
  show IntOp.addi (iota .tc S1024x512 32 [0] iota_S1024x512_d0_w32 (ix2 p q)) (Scalar.muli (BitVec.ofNat 32 (i 0).val) 1024#32) = _
  rw [iota_single_apply]
  show BitVec.ofNat 32 p.val + BitVec.ofNat 32 (i 0).val * 1024#32 = BitVec.ofNat 32 (1024 * (i 0).val + p.val)
  have h8 : (i 0).val < 8 := (i 0).isLt
  have hp := p.isLt
  apply BitVec.eq_of_toNat_eq
  simp only [BitVec.toNat_add, BitVec.toNat_mul, BitVec.toNat_ofNat]
  omega

/-- The column word of element (p, q): the global column. -/
theorem pay10_apply (i : grid0.Coords) (p : Fin 1024) (q : Fin 512) :
    k0_pay10 i (ix2 p q) = BitVec.ofNat 32 (Cert.Loss.col (tileOf i) q).val := by
  show IntOp.addi (iota .tc S1024x512 32 [1] iota_S1024x512_d1_w32 (ix2 p q)) (Scalar.muli (BitVec.ofNat 32 (i 1).val) 512#32) = _
  rw [iota_single_apply]
  show BitVec.ofNat 32 q.val + BitVec.ofNat 32 (i 1).val * 512#32 = BitVec.ofNat 32 (512 * (i 1).val + q.val)
  have h16 : (i 1).val < 16 := (i 1).isLt
  have hq := q.isLt
  apply BitVec.eq_of_toNat_eq
  simp only [BitVec.toNat_add, BitVec.toNat_mul, BitVec.toNat_ofNat]
  omega

/-- The row's group word is the floor quotient of the row word, element by element. -/
theorem pay11_apply (i : grid0.Coords) (j : S1024x512.Idx) : k0_pay11 i j = fdiv16 (k0_pay9 i j) := rfl

/-- The diagonal bit, element by element. -/
theorem pay12_apply (v13 v16 : IVec S1024x512 32) (j : S1024x512.Idx) :
    k0_pay12 v13 v16 j = IntOp.cmpi .eq (v13 j) (v16 j) := rfl

end Cert.KernelIdeal.Online

end
-- ==== Proof.StepTile.lean ====
/-
  The similarity tile of one grid point, read at one element: the matrix product of the row block against the
  transposed column block, accumulated into zero, is at (p, q) the inner product of row p of the first block with
  row q of the second.
-/
import proofs.«116349_j13649406066960_1_alg».proof.Proof.Online
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Online

open Idealize.ShloMosaic Idealize.SL.Sem Cert.KernelIdeal Cert.KernelIdeal.Gen
open Idealize.ShloMosaic.ValueIdx

/-! ## The product's operand indices, axis by axis -/

theorem lhs_axis0 (j : S1024x512.Idx) (k : dot_S1024x128_S128x512_S1024x512_1_0_0_1_n_n.contr.Idx) :
    (dot_S1024x128_S128x512_S1024x512_1_0_0_1_n_n.lhsIdx j k 0).val = (j 0).val := by
  simp [DotDims.lhsIdx, dot_S1024x128_S128x512_S1024x512_1_0_0_1_n_n]; rfl

theorem lhs_axis1 (j : S1024x512.Idx) (k : dot_S1024x128_S128x512_S1024x512_1_0_0_1_n_n.contr.Idx) :
    (dot_S1024x128_S128x512_S1024x512_1_0_0_1_n_n.lhsIdx j k 1).val = (k ⟨0, by decide⟩).val :=
  dot_S1024x128_S128x512_S1024x512_1_0_0_1_n_n.lhsIdx_val_of_single rfl j k

theorem rhs_axis0 (j : S1024x512.Idx) (k : dot_S1024x128_S128x512_S1024x512_1_0_0_1_n_n.contr.Idx) :
    (dot_S1024x128_S128x512_S1024x512_1_0_0_1_n_n.rhsIdx j k 0).val = (k ⟨0, by decide⟩).val :=
  dot_S1024x128_S128x512_S1024x512_1_0_0_1_n_n.rhsIdx_val_of_single rfl j k

theorem rhs_axis1 (j : S1024x512.Idx) (k : dot_S1024x128_S128x512_S1024x512_1_0_0_1_n_n.contr.Idx) :
    (dot_S1024x128_S128x512_S1024x512_1_0_0_1_n_n.rhsIdx j k 1).val = (j 1).val := by
  simp [DotDims.rhsIdx, dot_S1024x128_S128x512_S1024x512_1_0_0_1_n_n]; rfl

/-! ## The tile at an element -/

/-- Element (p, q) of the similarity tile is the inner product of row `p` of the row block and row `q` of the
    column block. -/
theorem pay8_apply (xa : Vec Ideal S1024x128 .bf16) (xb : Vec Ideal S512x128 .bf16) (p : Fin 1024) (q : Fin 512) :
    k0_pay8 xa xb (ix2 p q) = ∑ k : Fin 128, xa (ix2 p k) * xb (ix2 q k) := by
  unfold k0_pay8
  simp only [shapeCast_self]
  refine (Ideal.matmul_constant_zero_apply dot_S1024x128_S128x512_S1024x512_1_0_0_1_n_n none xa
    (transpose S128x512 [1, 0] xb transposes_S512x128_p1_0_S128x512) (ix2 p q)).trans ?_
  rw [← Equiv.sum_comp (contrEquiv1 dot_S1024x128_S128x512_S1024x512_1_0_0_1_n_n 128 rfl rfl).symm]
  refine Finset.sum_congr rfl fun c _ => ?_
  have hc := contrEquiv1_symm_val dot_S1024x128_S128x512_S1024x512_1_0_0_1_n_n 128 rfl rfl c
  have hl : dot_S1024x128_S128x512_S1024x512_1_0_0_1_n_n.lhsIdx (ix2 p q)
      ((contrEquiv1 dot_S1024x128_S128x512_S1024x512_1_0_0_1_n_n 128 rfl rfl).symm c) = ix2 p c := by
    funext ax; apply Fin.ext
    match ax with
    | ⟨0, _⟩ => exact lhs_axis0 _ _
    | ⟨1, _⟩ => exact (lhs_axis1 _ _).trans hc
  have hr : dot_S1024x128_S128x512_S1024x512_1_0_0_1_n_n.rhsIdx (ix2 p q)
      ((contrEquiv1 dot_S1024x128_S128x512_S1024x512_1_0_0_1_n_n 128 rfl rfl).symm c) = ix2 c q := by
    funext ax; apply Fin.ext
    match ax with
    | ⟨0, _⟩ => exact (rhs_axis0 _ _).trans hc
    | ⟨1, _⟩ => exact rhs_axis1 _ _
  rw [hl, hr, transpose_ix2_apply]

end Cert.KernelIdeal.Online

end
-- ==== Proof.Consts.lean ====
/-
  The float words the two programs spell, as the extended reals they denote. Stated once, here; every other
  module of this certificate reads a word's value from this file and unfolds the word's decoding nowhere else.
-/
import Idealize.ShloMosaic.PureOps.Ideal

noncomputable section

namespace Cert.Consts

open Idealize.ShloMosaic

/-- The word of +∞ (the bound of the finiteness test, the infinity test's comparand). -/
theorem ofBits_inf : Ideal.ofBits .f32 0x7F800000#32 = ⊤ := by
  simp [Ideal.ofBits, Ideal.ieee]

/-- The word of −∞ (where a running maximum starts). -/
theorem ofBits_neg_inf : Ideal.ofBits .f32 0xFF800000#32 = ⊥ := by
  simp [Ideal.ofBits, Ideal.ieee]

/-- The fill value of masked similarities, −10000. -/
theorem ofBits_fill : Ideal.ofBits .f32 0xC61C4000#32 = ((-10000 : ℝ) : EReal) := by
  simp [Ideal.ofBits, Ideal.ieee, -EReal.coe_mul]; norm_num

/-- The temperature word: the binary fraction 5368709 / 2²⁹ nearest 0.01. -/
theorem ofBits_temp : Ideal.ofBits .f32 0x3C23D70A#32 = ((5368709 / 536870912 : ℝ) : EReal) := by
  simp [Ideal.ofBits, Ideal.ieee, -EReal.coe_mul]; norm_num

/-- The row count 8192, the mean's divisor. -/
theorem ofBits_rows : Ideal.ofBits .f32 0x46000000#32 = ((8192 : ℝ) : EReal) := by
  simp [Ideal.ofBits, Ideal.ieee, -EReal.coe_mul]; norm_num

/-- The final halving's divisor 2. -/
theorem ofBits_two : Ideal.ofBits .f32 0x40000000#32 = ((2 : ℝ) : EReal) := by
  simp [Ideal.ofBits, Ideal.ieee, -EReal.coe_mul]; norm_num

end Cert.Consts

end
-- ==== Proof.StepStats.lean ====
/-
  The three running statistics of one grid point, read at one row.

  A column vector over the tile's 1024 rows is kept as a 1024 × 1 array. A reduction over the tile's 512 columns
  gives a vector over the rows, which a shape cast turns into such a column and a broadcast spreads back over the
  columns. Read at row p: the running maximum becomes the larger of the old maximum and the row's maximum; the
  running sum is rescaled by the exponential of the old maximum less the new and gains the row's exponentials
  relative to the new maximum; the diagonal sum gains the scaled similarity where the diagonal bit is set.
-/
import proofs.«116349_j13649406066960_1_alg».proof.Proof.Online
import proofs.«116349_j13649406066960_1_alg».proof.Proof.Spec
import proofs.«116349_j13649406066960_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Online

open Idealize.ShloMosaic Idealize.SL.Sem Cert.KernelIdeal Cert.KernelIdeal.Gen
open Idealize.ShloMosaic.ValueIdx

/-! ## A vector kept as a column -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The reductions over a row's 512 columns -/

/-- The reduced index with the column put back is the tile's index (p, q). -/
theorem lift_row (p : Fin 1024) (q : Fin 512) : reduces_S1024x512_S1024.lift (ix1 p) q = ix2 p q := by
  funext ax; apply Fin.ext
  match ax with
  | ⟨0, _⟩ => rfl
  | ⟨1, _⟩ => rfl

/-- The row maximum of a tile, from −∞. -/
theorem rowMax_apply (v : FVec Ideal S1024x512 .f32) (p : Fin 1024) :
    multiReduction (F := Ideal) .maximumf [1] S1024 v 0xFF800000#32 reduces_S1024x512_S1024 (.inl rfl) rfl (ix1 p)
      = Cert.Loss.vmax fun q : Fin 512 => v (ix2 p q) := by
  refine (Ideal.multiReduction_maximumf_single v _ reduces_S1024x512_S1024 _ _ (ix1 p)).trans ?_
  show (Finset.univ : Finset (Fin 512)).fold max (Ideal.ofBits .f32 0xFF800000#32) (fun q => v (reduces_S1024x512_S1024.lift (ix1 p) q)) = _
  rw [Cert.Consts.ofBits_neg_inf]
  unfold Cert.Loss.vmax
  congr 1
  funext q
  exact congrArg v (lift_row p q)

/-- The row sum of a tile. -/
theorem rowSum_apply (v : FVec Ideal S1024x512 .f32) (p : Fin 1024) :
    multiReduction (F := Ideal) .add [1] S1024 v 0x00000000#32 reduces_S1024x512_S1024 (.inl rfl) rfl (ix1 p)
      = ∑ q : Fin 512, v (ix2 p q) := by
  refine (Ideal.multiReduction_add_single v _ reduces_S1024x512_S1024 _ _ (ix1 p)).trans ?_
  show ∑ q : Fin 512, v (reduces_S1024x512_S1024.lift (ix1 p) q) = _
  exact Finset.sum_congr rfl fun q _ => congrArg v (lift_row p q)

/-! ## The statistics at a row -/

/-- The new running maximum at row `p`. -/
theorem pay1_apply (t : FVec Ideal S1024x512 .f32) (mx : Vec Ideal S1024x1 .f32) (p : Fin 1024) (u : Fin 1) :
    k0_pay1 t mx (ix2 p u) = max (mx (ix2 p u)) (Cert.Loss.vmax fun q : Fin 512 => t (ix2 p q)) := by
  unfold k0_pay1
  rw [maximumf_apply, shapeCast_a_a1_apply, rowMax_apply]

theorem pay3_apply (t : FVec Ideal S1024x512 .f32) (mx : Vec Ideal S1024x1 .f32) (p : Fin 1024) (u : Fin 1) :
    k0_pay3 t mx (ix2 p u) = max (mx (ix2 p u)) (Cert.Loss.vmax fun q : Fin 512 => t (ix2 p q)) := by
  unfold k0_pay3
  rw [shapeCast_self, pay1_apply]

/-- The new running sum at row `p`. -/
theorem pay2_apply (t : FVec Ideal S1024x512 .f32) (mx sm : Vec Ideal S1024x1 .f32) (p : Fin 1024) :
    k0_pay2 t mx sm (ix2 p 0)
      = Ideal.exp (mx (ix2 p 0) - k0_pay1 t mx (ix2 p 0)) * sm (ix2 p 0)
        + ∑ q : Fin 512, Ideal.exp (t (ix2 p q) - k0_pay1 t mx (ix2 p 0)) := by
  unfold k0_pay2
  rw [shapeCast_self]
  show Ideal.exp (mx (ix2 p 0) - k0_pay1 t mx (ix2 p 0)) * sm (ix2 p 0)
      + shapeCast S1024x1 _ shapeCasts_S1024_S1024x1 (ix2 p 0) = _
  rw [shapeCast_a_a1_apply, rowSum_apply]
  congr 1
  refine Finset.sum_congr rfl fun q _ => ?_
  show Ideal.exp (t (ix2 p q) - broadcastTo S1024x512 (k0_pay1 t mx) broadcasts_S1024x1_S1024x512 (ix2 p q)) = _
  rw [broadcastTo_a1_ab_apply]

/-- The log-sum-exp a row ends with. -/
theorem pay4_apply (mx sm : Vec Ideal S1024x1 .f32) (j : S1024x1.Idx) :
    k0_pay4 mx sm j = mx j + Ideal.log (sm j) := rfl

/-- The restart values. -/
theorem pay5_apply (j : S1024x1.Idx) : (k0_pay5 (F := Ideal)) j = ⊥ := by
  unfold k0_pay5
  rw [shapeCast_self]
  exact Cert.Consts.ofBits_neg_inf
theorem pay6_apply (j : S1024x1.Idx) : (k0_pay6 (F := Ideal)) j = 0 := by
  unfold k0_pay6
  rw [shapeCast_self]
  exact Ideal.ofBits_zero_f32
theorem pay7_apply (j : S1024x1.Idx) : (k0_pay7 (F := Ideal)) j = 0 := by
  unfold k0_pay7
  rw [shapeCast_self]
  exact Ideal.ofBits_zero_f32

/-- The reciprocal temperature, by the certificate's table of named constants. -/
theorem named_rt : Named.named (F := Ideal) κ "inv_temperature" (φ := .f32) 0x42C80000#32 = Cert.Loss.rt :=
  IdealRules.named_const.ideal_named_scalar _ _ _ _ rfl

/-- The new diagonal sum at row `p`, over the product's elements and the two index words. -/
theorem pay14_apply (d : FVec Ideal S1024x512 .f32) (R C : IVec S1024x512 32) (dg : Vec Ideal S1024x1 .f32) (p : Fin 1024) :
    k0_pay14 d R C dg (ix2 p 0)
      = dg (ix2 p 0) + ∑ q : Fin 512,
          Scalar.select (IntOp.cmpi .eq (R (ix2 p q)) (C (ix2 p q))) (d (ix2 p q) * Cert.Loss.rt) 0 := by
  unfold k0_pay14
  rw [shapeCast_self]
  show dg (ix2 p 0) + shapeCast S1024x1 _ shapeCasts_S1024_S1024x1 (ix2 p 0) = _
  rw [shapeCast_a_a1_apply, rowSum_apply]
  congr 1
  refine Finset.sum_congr rfl fun q _ => ?_
  show Scalar.select (IntOp.cmpi .eq (R (ix2 p q)) (C (ix2 p q)))
      (d (ix2 p q) * Named.named (F := Ideal) κ "inv_temperature" (φ := .f32) 0x42C80000#32) (Ideal.ofBits .f32 0x00000000#32) = _
  rw [named_rt, Ideal.ofBits_zero_f32]

end Cert.KernelIdeal.Online

end
-- ==== Proof.StepValue.lean ====
/-
  One grid point of the kernel, read row by row at the ideal values, is one step of the specification's streaming
  arrangement: for row p of row tile `i 0` against column tile `i 1`, the three statistics after the point are
  `stepK` of the statistics before it (the restart values at the first column tile).
-/
import proofs.«116349_j13649406066960_1_alg».proof.Proof.StepMask
import proofs.«116349_j13649406066960_1_alg».proof.Proof.StepTile
import proofs.«116349_j13649406066960_1_alg».proof.Proof.StepStats

noncomputable section

namespace Cert.KernelIdeal.Online

open Idealize.ShloMosaic Idealize.SL.Sem Cert.KernelIdeal Cert.KernelIdeal.Gen
open Idealize.ShloMosaic.ValueIdx

/-! ## The scaled, masked tile -/

/-- One element of the scaled, masked tile, over the product's element and the three index words. -/
theorem pay13_apply (d : FVec Ideal S1024x512 .f32) (R C G : IVec S1024x512 32) (j : S1024x512.Idx) :
    k0_pay13 d R C G j
      = Scalar.select (IntOp.andi (IntOp.cmpi .eq (G j) (fdiv16 (C j))) (IntOp.xori (IntOp.cmpi .eq (R j) (C j)) 1#1))
          Cert.Loss.fill (d j) * Cert.Loss.rt := by
  show Scalar.select (IntOp.andi (IntOp.cmpi .eq (G j) (fdiv16 (C j))) (IntOp.xori (IntOp.cmpi .eq (R j) (C j)) 1#1))
      (Ideal.ofBits .f32 0xC61C4000#32) (d j) * Named.named (F := Ideal) κ "inv_temperature" (φ := .f32) 0x42C80000#32 = _
  rw [named_rt]
  rfl

section Point
variable (i : grid0.Coords) (a b : Cert.Loss.Mat) (xa : Vec Ideal S1024x128 .bf16) (xb : Vec Ideal S512x128 .bf16)
  (hxa : ∀ (p : Fin 1024) (k : Fin 128), xa (ix2 p k) = a (rowOf i p) k)
  (hxb : ∀ (q : Fin 512) (k : Fin 128), xb (ix2 q k) = b (Cert.Loss.col (tileOf i) q) k)
include hxa hxb

/-- The similarity tile's element is the inner product of the two global rows. -/
theorem prod_apply (p : Fin 1024) (q : Fin 512) :
    k0_pay8 xa xb (ix2 p q) = Cert.Loss.inner a b (rowOf i p) (Cert.Loss.col (tileOf i) q) := by
  rw [pay8_apply]
  unfold Cert.Loss.inner
  exact Finset.sum_congr rfl fun k _ => by rw [hxa, hxb]

/-- The tile's element is the specification's scaled masked similarity. -/
theorem tile0_apply (p : Fin 1024) (q : Fin 512) :
    tile0 i xa xb (ix2 p q) = Cert.Loss.logitK a b (rowOf i p) (tileOf i) q := by
  unfold tile0
  rw [pay13_apply, pay11_apply, pay9_apply, pay10_apply, prod_apply i a b xa xb hxa hxb]
  have hm : ((rowOf i p).val / 16 = (Cert.Loss.col (tileOf i) q).val / 16 ∧ (rowOf i p).val ≠ (Cert.Loss.col (tileOf i) q).val)
      ↔ Cert.Loss.masked (rowOf i p) (Cert.Loss.col (tileOf i) q) := by
    unfold Cert.Loss.masked
    rw [Ne, Ne, Fin.ext_iff]
  rw [select_of_iff ((maskBit_iff _ _ (rowOf i p).isLt (Cert.Loss.col (tileOf i) q).isLt).trans hm)]
  rfl

/-- The diagonal's term at column q. -/
theorem diag_apply (p : Fin 1024) (q : Fin 512) :
    Scalar.select (IntOp.cmpi .eq (k0_pay9 i (ix2 p q)) (k0_pay10 i (ix2 p q))) (k0_pay8 xa xb (ix2 p q) * Cert.Loss.rt) 0
      = if rowOf i p = Cert.Loss.col (tileOf i) q then Cert.Loss.inner a b (rowOf i p) (Cert.Loss.col (tileOf i) q) * Cert.Loss.rt else 0 := by
  rw [pay9_apply, pay10_apply, prod_apply i a b xa xb hxa hxb]
  have hd : (rowOf i p).val = (Cert.Loss.col (tileOf i) q).val ↔ rowOf i p = Cert.Loss.col (tileOf i) q := Fin.ext_iff.symm
  rw [select_of_iff ((diagBit_iff _ _ (rowOf i p).isLt (Cert.Loss.col (tileOf i) q).isLt).trans hd)]

/-- ONE POINT IS ONE STEP. -/
theorem step0_apply (s : St Ideal) (p : Fin 1024) (s' : EReal × EReal × EReal)
    (hs : ¬ first0 i → (s.1 (ix2 p 0), s.2.1 (ix2 p 0), s.2.2 (ix2 p 0)) = s') :
    ((step0 i xa xb s).1 (ix2 p 0), (step0 i xa xb s).2.1 (ix2 p 0), (step0 i xa xb s).2.2 (ix2 p 0))
      = Cert.Loss.stepK a b (rowOf i p) (if first0 i then (⊥, 0, 0) else s') (tileOf i) := by
  have hstart : ((start0 i s).1 (ix2 p 0), (start0 i s).2.1 (ix2 p 0), (start0 i s).2.2 (ix2 p 0))
      = (if first0 i then (⊥, 0, 0) else s') := by
    unfold start0
    by_cases hf : first0 i
    · rw [if_pos hf, if_pos hf]
      show ((k0_pay5 (F := Ideal)) (ix2 p 0), (k0_pay6 (F := Ideal)) (ix2 p 0), (k0_pay7 (F := Ideal)) (ix2 p 0)) = _
      rw [pay5_apply, pay6_apply, pay7_apply]
    · rw [if_neg hf, if_neg hf]
      exact hs hf
  generalize (if first0 i then ((⊥ : EReal), (0 : EReal), (0 : EReal)) else s') = S at hstart
  obtain ⟨m0, l0, d0⟩ := S
  have h1 : (start0 i s).1 (ix2 p 0) = m0 := congrArg Prod.fst hstart
  have h2 : (start0 i s).2.1 (ix2 p 0) = l0 := congrArg (fun x => x.2.1) hstart
  have h3 : (start0 i s).2.2 (ix2 p 0) = d0 := congrArg (fun x => x.2.2) hstart
  unfold step0 Cert.Loss.stepK
  show (k0_pay3 (tile0 i xa xb) (start0 i s).1 (ix2 p 0),
      k0_pay2 (tile0 i xa xb) (start0 i s).1 (start0 i s).2.1 (ix2 p 0),
      k0_pay14 (k0_pay8 xa xb) (k0_pay9 i) (k0_pay10 i) (start0 i s).2.2 (ix2 p 0)) = _
  rw [pay3_apply, pay2_apply, pay1_apply, pay14_apply, h1, h2, h3]
  simp only [tile0_apply i a b xa xb hxa hxb, diag_apply i a b xa xb hxa hxb]

end Point

/-- The log-sum-exp the last column tile writes, at a row. -/
theorem lse0_apply (s : St Ideal) (p : Fin 1024) :
    lse0 s (ix2 p 0) = s.1 (ix2 p 0) + Ideal.log (s.2.1 (ix2 p 0)) := rfl

/-! ## The second launch: the same arithmetic under its own names -/

theorem step1_eq_step0 : @step1 = @step0 := rfl
theorem lse1_eq_lse0 : @lse1 = @lse0 := rfl
theorem first1_eq_first0 : @first1 = @first0 := rfl

theorem step1_apply (i : grid1.Coords) (a b : Cert.Loss.Mat) (xa : Vec Ideal S1024x128 .bf16) (xb : Vec Ideal S512x128 .bf16)
    (hxa : ∀ (p : Fin 1024) (k : Fin 128), xa (ix2 p k) = a (rowOf i p) k)
    (hxb : ∀ (q : Fin 512) (k : Fin 128), xb (ix2 q k) = b (Cert.Loss.col (tileOf i) q) k)
    (s : St Ideal) (p : Fin 1024) (s' : EReal × EReal × EReal)
    (hs : ¬ first1 i → (s.1 (ix2 p 0), s.2.1 (ix2 p 0), s.2.2 (ix2 p 0)) = s') :
    ((step1 i xa xb s).1 (ix2 p 0), (step1 i xa xb s).2.1 (ix2 p 0), (step1 i xa xb s).2.2 (ix2 p 0))
      = Cert.Loss.stepK a b (rowOf i p) (if first1 i then (⊥, 0, 0) else s') (tileOf i) :=
  step0_apply i a b xa xb hxa hxb s p s' hs

theorem lse1_apply (s : St Ideal) (p : Fin 1024) :
    lse1 s (ix2 p 0) = s.1 (ix2 p 0) + Ideal.log (s.2.1 (ix2 p 0)) := rfl

end Cert.KernelIdeal.Online

end
-- ==== Proof.KStats0.lean ====
/-
  The first launch's carried statistics are the specification's streaming statistics, row by row.

  Point t = 16 i + j folds column tile j into the statistics of the rows of row tile i. Read at row p of the tile,
  one step of the kernel is one step of the specification's recurrence on the array's row 1024 i + p, restarting
  from (−∞, 0, 0) when j = 0 and continuing from what point t − 1 left otherwise; point t − 1 is then in the same
  row tile, at column tile j − 1. So by induction over the points, after point t the carried vectors hold at row p
  the streaming statistics of row 1024 i + p over the column tiles 0 … j.
-/
import proofs.«116349_j13649406066960_1_alg».proof.Proof.KBlocks0
import proofs.«116349_j13649406066960_1_alg».proof.Proof.KMat
import proofs.«116349_j13649406066960_1_alg».proof.Proof.StepValue

noncomputable section

namespace Cert.KernelIdeal.Online

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx

variable (W : (c : Dev nD) → (b : Ref sig .tc) → Buf (Elt Ideal) ((c : Thread nD τ).loc b))

/-- The two feature matrices of the launch: the one whose rows the row tiles walk, the one whose rows the column tiles walk. -/
abbrev matA0 (c : Dev nD) : Cert.Loss.Mat := matOf (arrA0 W c)
abbrev matB0 (c : Dev nD) : Cert.Loss.Mat := matOf (arrB0 W c)

/-- Row p of the row tile of point t is the array's row 1024 (t / 16) + p. -/
theorem rowOf_val0 (t : Fin cfg0.N) (p : Fin 1024) : (rowOf (grid0.coords t) p).val = 1024 * (t.val / 16) + p.val := by
  show 1024 * (grid0.coords t 0).val + p.val = _; rw [(coords0 t).1]

/-- The column tile of point t is t mod 16. -/
theorem tileOf_val0 (t : Fin cfg0.N) : (tileOf (grid0.coords t)).val = t.val % 16 := by
  show (grid0.coords t 1).val = _; rw [(coords0 t).2]

/-- Column q of the column tile of point t is the array's row 512 (t mod 16) + q. -/
theorem col_tileOf_val0 (t : Fin cfg0.N) (q : Fin 512) :
    (Cert.Loss.col (tileOf (grid0.coords t)) q).val = 512 * (t.val % 16) + q.val := by
  show 512 * (tileOf (grid0.coords t)).val + q.val = _; rw [tileOf_val0]

/-- The statistics restart exactly at the points divisible by 16. -/
theorem first0_iff (t : Fin cfg0.N) : first0 (grid0.coords t) ↔ t.val % 16 = 0 := by
  show (grid0.coords t 1).val = 0 ↔ _; rw [(coords0 t).2]

/-- One point's step at row p, over the launch's own blocks: one column tile folded into the row's statistics,
    from the restart values at a point divisible by 16. -/
theorem step0_rows (c : Dev nD) (t : Fin cfg0.N) (s : St Ideal) (p : Fin 1024) (s' : EReal × EReal × EReal)
    (hs : ¬ t.val % 16 = 0 → atRow s p = s') :
    atRow (step0 (grid0.coords t) (xa0 W c t) (xb0 W c t) s) p
      = Cert.Loss.stepK (matA0 W c) (matB0 W c) (rowOf (grid0.coords t) p) (if t.val % 16 = 0 then (⊥, 0, 0) else s') (tileOf (grid0.coords t)) := by
  refine (step0_apply (grid0.coords t) (matA0 W c) (matB0 W c) (xa0 W c t) (xb0 W c t)
    (fun p k => xa0_apply W c t p k (rowOf (grid0.coords t) p) (rowOf_val0 t p))
    (fun q k => xb0_apply W c t q k (Cert.Loss.col (tileOf (grid0.coords t)) q) (col_tileOf_val0 t q))
    s p s' (fun h => hs (fun h' => h ((first0_iff t).mpr h')))).trans ?_
  by_cases h : t.val % 16 = 0
  · rw [if_pos h, if_pos ((first0_iff t).mpr h)]
  · rw [if_neg h, if_neg (fun h' => h ((first0_iff t).mp h'))]

/-- After point n the carried vectors hold, at row p of the row tile n / 16, the streaming statistics of the array's
    row 1024 (n / 16) + p over the column tiles 0 … n mod 16: by induction on the point, a point divisible by 16
    restarting and any other continuing from the point before, which is in the same row tile. -/
theorem stats0_rows (c : Dev nD) : ∀ (n : ℕ) (hn : n < cfg0.N) (p : Fin 1024) (r : Fin 8192) (hr : r.val = 1024 * (n / 16) + p.val)
    (j : ℕ) (hj : j < 16) (hjn : j = n % 16),
    atRow (stats0 W c n hn) p = Cert.Loss.statsK (matA0 W c) (matB0 W c) r j hj := by
  intro n
  induction n with
  | zero =>
    intro hn p r hr j hj hjn
    have hrow : rowOf (grid0.coords ⟨0, hn⟩) p = r := Fin.ext ((rowOf_val0 ⟨0, hn⟩ p).trans hr.symm)
    have htile : tileOf (grid0.coords ⟨0, hn⟩) = ⟨0, by omega⟩ := Fin.ext (tileOf_val0 ⟨0, hn⟩)
    rw [stats0_zero]
    refine (step0_rows W c ⟨0, hn⟩ (k0_pay5, k0_pay6, k0_pay7) p (⊥, 0, 0) (fun h => absurd rfl h)).trans ?_
    rw [if_pos (show (⟨0, hn⟩ : Fin cfg0.N).val % 16 = 0 from rfl), hrow, htile]
    subst hjn
    rfl
  | succ n ih =>
    intro hn p r hr j hj hjn
    have hN : cfg0.N = 128 := N_0
    have hrow : rowOf (grid0.coords ⟨n + 1, hn⟩) p = r := Fin.ext ((rowOf_val0 ⟨n + 1, hn⟩ p).trans hr.symm)
    have htile : tileOf (grid0.coords ⟨n + 1, hn⟩) = ⟨j, hj⟩ := Fin.ext ((tileOf_val0 ⟨n + 1, hn⟩).trans hjn.symm)
    rw [stats0_succ]
    by_cases h : (n + 1) % 16 = 0
    · refine (step0_rows W c ⟨n + 1, hn⟩ (stats0 W c n (Nat.lt_of_succ_lt hn)) p (⊥, 0, 0) (fun h' => absurd h h')).trans ?_
      rw [if_pos (show (⟨n + 1, hn⟩ : Fin cfg0.N).val % 16 = 0 from h), hrow, htile]
      have hj0 : j = 0 := by omega
      subst hj0
      rfl
    · have hj' : j = n % 16 + 1 := by omega
      subst hj'
      have ihn := ih (Nat.lt_of_succ_lt hn) p r (by omega) (n % 16) (by omega) rfl
      refine (step0_rows W c ⟨n + 1, hn⟩ (stats0 W c n (Nat.lt_of_succ_lt hn)) p _ (fun _ => ihn)).trans ?_
      rw [if_neg (show ¬ (⟨n + 1, hn⟩ : Fin cfg0.N).val % 16 = 0 from h), hrow, htile]
      rfl

/-- The same at a point of the grid. -/
theorem stats0_at (c : Dev nD) (t : Fin cfg0.N) (p : Fin 1024) (r : Fin 8192) (hr : r.val = 1024 * (t.val / 16) + p.val)
    (j : ℕ) (hj : j < 16) (hjn : j = t.val % 16) :
    atRow (stats0 W c t.val t.isLt) p = Cert.Loss.statsK (matA0 W c) (matB0 W c) r j hj :=
  stats0_rows W c t.val t.isLt p r hr j hj hjn

end Cert.KernelIdeal.Online

end
-- ==== Proof.KValue0.lean ====
/-
  The first launch's two result arrays: every row's streaming log-sum-exp and diagonal sum.

  The result blocks move with the row tile and are written back at its last column tile, point 16 i + 15, when the
  carried statistics of the tile's rows are complete: the first block then holds max + log sum, the second the
  diagonal sum. Row r of a result array lies in the block of row tile r / 1024 only, so the blocks written back
  cover the array and each array ends as one function of its row index.
-/
import proofs.«116349_j13649406066960_1_alg».proof.Proof.KStats0

noncomputable section

namespace Cert.KernelIdeal.Online

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx

variable (W : (c : Dev nD) → (b : Ref sig .tc) → Buf (Elt Ideal) ((c : Thread nD τ).loc b))

/-- The first result array as the launch leaves it: each row's log-sum-exp; the second: each row's diagonal sum. -/
abbrev lseArr0 (c : Dev nD) : Vec Ideal S8192x1 .f32 := fun i => Cert.Loss.lseK (matA0 W c) (matB0 W c) (i 0)
abbrev diagArr0 (c : Dev nD) : Vec Ideal S8192x1 .f32 := fun i => Cert.Loss.diagK (matA0 W c) (matB0 W c) (i 0)

/-- At the last column tile of a row tile, the log-sum-exp block holds at row p the row's streaming log-sum-exp. -/
theorem lse0_row (c : Dev nD) (t : Fin cfg0.N) (ht : t.val % 16 = 15) (p : Fin 1024) (r : Fin 8192)
    (hr : r.val = 1024 * (t.val / 16) + p.val) :
    lse0 (stats0 W c t.val t.isLt) (ix2 p 0) = Cert.Loss.lseK (matA0 W c) (matB0 W c) r := by
  have h := stats0_at W c t p r hr 15 (by decide) ht.symm
  rw [lse0_apply]
  unfold Cert.Loss.lseK
  rw [← h]

/-- And the carried diagonal sum holds at row p the row's streaming diagonal sum. -/
theorem diag0_row (c : Dev nD) (t : Fin cfg0.N) (ht : t.val % 16 = 15) (p : Fin 1024) (r : Fin 8192)
    (hr : r.val = 1024 * (t.val / 16) + p.val) :
    (stats0 W c t.val t.isLt).2.2 (ix2 p 0) = Cert.Loss.diagK (matA0 W c) (matB0 W c) r := by
  have h := stats0_at W c t p r hr 15 (by decide) ht.symm
  unfold Cert.Loss.diagK
  rw [← h]

/-- What a point at a last column tile writes back into the first result array is its block of the rows' log-sum-exp. -/
theorem flushed0_2 (c : Dev nD) (t : Fin cfg0.N) (hf : (cfg0.win 2).flush t = true) :
    (dat0 W c).flushed 2 t = ((cfg0.win 2).blk t).view.read (Elt Ideal) (lseArr0 W c) := by
  have ht : t.val % 16 = 15 := (flush0_2 t).mp hf
  obtain ⟨-, -, -, -, e20, e21, -⟩ := index0 t
  show (cfg0.win 2).cut (grid0.coords t) ((dat0 W c).after 2 t) = _
  rw [after0_2]
  funext y
  rw [View.read_apply]
  have hy0 : (y 0).val < 1024 := (y 0).isLt
  have hy1 : (y 1).val < 1 := (y 1).isLt
  have e : (cfg0.win 2).xinj (grid0.coords t) y = ix2 (⟨(y 0).val, hy0⟩ : Fin 1024) (0 : Fin 1) := by
    funext a; apply Fin.ext
    match a with
    | ⟨0, _⟩ => rfl
    | ⟨1, _⟩ => show (y 1).val = 0; omega
  show lse0 (stats0 W c t.val t.isLt) ((cfg0.win 2).xinj (grid0.coords t) y) = lseArr0 W c (((cfg0.win 2).blk t).view.emb y)
  refine (congrArg (lse0 (stats0 W c t.val t.isLt)) e).trans ?_
  exact lse0_row W c t ht ⟨(y 0).val, hy0⟩ ((((cfg0.win 2).blk t).view.emb y) 0)
    (by show win0_2.index t (0 : Fin 2) * 1024 + 1 * (y 0).val = 1024 * (t.val / 16) + (y 0).val; rw [e20]; omega)

theorem flushed0_3 (c : Dev nD) (t : Fin cfg0.N) (hf : (cfg0.win 3).flush t = true) :
    (dat0 W c).flushed 3 t = ((cfg0.win 3).blk t).view.read (Elt Ideal) (diagArr0 W c) := by
  have ht : t.val % 16 = 15 := (flush0_3 t).mp hf
  obtain ⟨-, -, -, -, -, -, e30, e31⟩ := index0 t
  show (cfg0.win 3).cut (grid0.coords t) ((dat0 W c).after 3 t) = _
  rw [after0_3]
  funext y
  rw [View.read_apply]
  have hy0 : (y 0).val < 1024 := (y 0).isLt
  have hy1 : (y 1).val < 1 := (y 1).isLt
  have e : (cfg0.win 3).xinj (grid0.coords t) y = ix2 (⟨(y 0).val, hy0⟩ : Fin 1024) (0 : Fin 1) := by
    funext a; apply Fin.ext
    match a with
    | ⟨0, _⟩ => rfl
    | ⟨1, _⟩ => show (y 1).val = 0; omega
  show (stats0 W c t.val t.isLt).2.2 ((cfg0.win 3).xinj (grid0.coords t) y) = diagArr0 W c (((cfg0.win 3).blk t).view.emb y)
  refine (congrArg (stats0 W c t.val t.isLt).2.2 e).trans ?_
  exact diag0_row W c t ht ⟨(y 0).val, hy0⟩ ((((cfg0.win 3).blk t).view.emb y) 0)
    (by show win0_3.index t (0 : Fin 2) * 1024 + 1 * (y 0).val = 1024 * (t.val / 16) + (y 0).val; rw [e30]; omega)

/-- An index of a result array is in point t's block iff each coordinate is in the block's range on its axis. -/
theorem mem_blk0_2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v4_0).slice (win0_2.rect t)).set ↔ _
  rw [View.set_slice_whole, Rect.mem_set_unit]
  exact Iff.rfl

theorem mem_blk0_3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v4_1).slice (win0_3.rect t)).set ↔ _
  rw [View.set_slice_whole, Rect.mem_set_unit]
  exact Iff.rfl

/-- Row r of a result array is written back by the last column tile of its row tile, point 16 (r / 1024) + 15. -/
theorem cover0_2 (i : S8192x1.Idx) : ∃ t : Fin cfg0.N, (cfg0.win 2).flush t = true ∧ i ∈ ((cfg0.win 2).blk t).view.set := by
  have hN : cfg0.N = 128 := N_0
  have hi0 : (i 0).val < 8192 := (i 0).isLt
  have hi1 : (i 1).val < 1 := (i 1).isLt
  obtain ⟨t, ht⟩ : ∃ t : Fin cfg0.N, t.val = 16 * ((i 0).val / 1024) + 15 := ⟨⟨16 * ((i 0).val / 1024) + 15, by omega⟩, rfl⟩
  obtain ⟨-, -, -, -, e20, e21, -⟩ := index0 t
  refine ⟨t, (flush0_2 t).mpr (by omega), ?_⟩
  rw [mem_blk0_2]
  intro a
  match a with
  | ⟨0, _⟩ => show win0_2.index t (0 : Fin 2) * 1024 ≤ (i 0).val ∧ (i 0).val < win0_2.index t (0 : Fin 2) * 1024 + 1024; rw [e20]; omega
  | ⟨1, _⟩ => show win0_2.index t (1 : Fin 2) * 1 ≤ (i 1).val ∧ (i 1).val < win0_2.index t (1 : Fin 2) * 1 + 1; rw [e21]; omega

theorem cover0_3 (i : S8192x1.Idx) : ∃ t : Fin cfg0.N, (cfg0.win 3).flush t = true ∧ i ∈ ((cfg0.win 3).blk t).view.set := by
  have hN : cfg0.N = 128 := N_0
  have hi0 : (i 0).val < 8192 := (i 0).isLt
  have hi1 : (i 1).val < 1 := (i 1).isLt
  obtain ⟨t, ht⟩ : ∃ t : Fin cfg0.N, t.val = 16 * ((i 0).val / 1024) + 15 := ⟨⟨16 * ((i 0).val / 1024) + 15, by omega⟩, rfl⟩
  obtain ⟨-, -, -, -, -, -, e30, e31⟩ := index0 t
  refine ⟨t, (flush0_3 t).mpr (by omega), ?_⟩
  rw [mem_blk0_3]
  intro a
  match a with
  | ⟨0, _⟩ => show win0_3.index t (0 : Fin 2) * 1024 ≤ (i 0).val ∧ (i 0).val < win0_3.index t (0 : Fin 2) * 1024 + 1024; rw [e30]; omega
  | ⟨1, _⟩ => show win0_3.index t (1 : Fin 2) * 1 ≤ (i 1).val ∧ (i 1).val < win0_3.index t (1 : Fin 2) * 1 + 1; rw [e31]; omega

/-- The first result array ends holding each row's streaming log-sum-exp. -/
theorem arr0_lse_eq (c : Dev nD) : (dat0 W c).arrAt 2 cfg0.N = lseArr0 W c :=
  (dat0 W c).arrAt_eq_of_cover 2 (lseArr0 W c) (flushed0_2 W c) cover0_2

/-- The second result array ends holding each row's streaming diagonal sum. -/
theorem arr0_diag_eq (c : Dev nD) : (dat0 W c).arrAt 3 cfg0.N = diagArr0 W c :=
  (dat0 W c).arrAt_eq_of_cover 3 (diagArr0 W c) (flushed0_3 W c) cover0_3

/-- Row by row. -/
theorem arr0_lse (c : Dev nD) (r : Fin 8192) :
    (dat0 W c).arrAt 2 cfg0.N (ix2 r (0 : Fin 1)) = Cert.Loss.lseK (matA0 W c) (matB0 W c) r :=
  congrFun (arr0_lse_eq W c) (ix2 r (0 : Fin 1))

theorem arr0_diag (c : Dev nD) (r : Fin 8192) :
    (dat0 W c).arrAt 3 cfg0.N (ix2 r (0 : Fin 1)) = Cert.Loss.diagK (matA0 W c) (matB0 W c) r :=
  congrFun (arr0_diag_eq W c) (ix2 r (0 : Fin 1))

end Cert.KernelIdeal.Online

end
-- ==== Proof.KBlocks1.lean ====
/-
  The second launch's grid and blocks, read off the arrays.

  The launch walks its 128 points row tile by row tile: point t is column tile t mod 16 of row tile t / 16. The row
  block of a point is rows 1024 (t / 16) … 1024 (t / 16) + 1023 of the second feature array, the column block rows
  512 (t mod 16) … 512 (t mod 16) + 511 of the first; the two result blocks move with the row tile. A block's
  element sits in its array, on each axis, at the block index times the block's size plus its own coordinate.
-/
import proofs.«116349_j13649406066960_1_alg».proof.Proof.Data1
import Idealize.ShloMosaic.Lib.ValueIdx
import Idealize.ShloMosaic.Lib.Pipeline.Value

noncomputable section

namespace Cert.KernelIdeal.Online

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx

variable {F : FTy → Type} [FloatOps F] [Named F]

variable (V : (c : Dev nD) → (b : Ref sig .tc) → Buf (Elt F) ((c : Thread nD τ).loc b))

/-! ## The grid's points and the windows' block indices -/

/-- Point t is column tile t mod 16 of row tile t / 16. -/
theorem coords1 : ∀ t : Fin cfg1.N, (grid1.coords t 0).val = t.val / 16 ∧ (grid1.coords t 1).val = t.val % 16 :=
  (by decide +kernel : ∀ t : Fin grid1.N, (grid1.coords t 0).val = t.val / 16 ∧ (grid1.coords t 1).val = t.val % 16)

/-- The row block and the two result blocks move with the row tile, the column block with the column tile. -/
theorem index1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val / 16 ∧ win1_3.index t (1 : Fin 2) = 0 :=
  (by decide +kernel : ∀ t : Fin grid1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val / 16 ∧ win1_3.index t (1 : Fin 2) = 0)

/-! ## The two input arrays and their blocks -/

/-- The two feature arrays as the launch finds them. -/
abbrev arrA1 (c : Dev nD) : Vec F S8192x128 .bf16 := V c main_v3
abbrev arrB1 (c : Dev nD) : Vec F S8192x128 .bf16 := V c main_v1

/-- Row p of the row block at point t is row 1024 (t / 16) + p of the first array. -/
theorem xa1_apply (c : Dev nD) (t : Fin cfg1.N) (p : Fin 1024) (k : Fin 128) (r : Fin 8192)
    (hr : r.val = 1024 * (t.val / 16) + p.val) : xa1 V c t (ix2 p k) = arrA1 V c (ix2 r k) := by
  obtain ⟨e00, e01, -⟩ := index1 t
  unfold xa1 iblk1
  rw [View.read_apply]
  show V c main_v3 _ = V c main_v3 _
  congr 1
  funext a; apply Fin.ext
  match a with
  | ⟨0, _⟩ => show win1_0.index t (0 : Fin 2) * 1024 + 1 * p.val = r.val; rw [e00, hr]; omega
  | ⟨1, _⟩ => show win1_0.index t (1 : Fin 2) * 128 + 1 * k.val = k.val; rw [e01]; omega

/-- Row q of the column block at point t is row 512 (t mod 16) + q of the second array. -/
theorem xb1_apply (c : Dev nD) (t : Fin cfg1.N) (q : Fin 512) (k : Fin 128) (r : Fin 8192)
    (hr : r.val = 512 * (t.val % 16) + q.val) : xb1 V c t (ix2 q k) = arrB1 V c (ix2 r k) := by
  obtain ⟨-, -, e10, e11, -⟩ := index1 t
  unfold xb1 iblk1
  rw [View.read_apply]
  show V c main_v1 _ = V c main_v1 _
  congr 1
  funext a; apply Fin.ext
  match a with
  | ⟨0, _⟩ => show win1_1.index t (0 : Fin 2) * 512 + 1 * q.val = r.val; rw [e10, hr]; omega
  | ⟨1, _⟩ => show win1_1.index t (1 : Fin 2) * 128 + 1 * k.val = k.val; rw [e11]; omega

end Cert.KernelIdeal.Online

end
-- ==== Proof.KStats1.lean ====
/-
  The second launch's carried statistics are the specification's streaming statistics, row by row.

  Point t = 16 i + j folds column tile j into the statistics of the rows of row tile i. Read at row p of the tile,
  one step of the kernel is one step of the specification's recurrence on the array's row 1024 i + p, restarting
  from (−∞, 0, 0) when j = 0 and continuing from what point t − 1 left otherwise; point t − 1 is then in the same
  row tile, at column tile j − 1. So by induction over the points, after point t the carried vectors hold at row p
  the streaming statistics of row 1024 i + p over the column tiles 0 … j.
-/
import proofs.«116349_j13649406066960_1_alg».proof.Proof.KBlocks1
import proofs.«116349_j13649406066960_1_alg».proof.Proof.KMat
import proofs.«116349_j13649406066960_1_alg».proof.Proof.StepValue

noncomputable section

namespace Cert.KernelIdeal.Online

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx

variable (W : (c : Dev nD) → (b : Ref sig .tc) → Buf (Elt Ideal) ((c : Thread nD τ).loc b))

/-- The two feature matrices of the launch: the one whose rows the row tiles walk, the one whose rows the column tiles walk. -/
abbrev matA1 (c : Dev nD) : Cert.Loss.Mat := matOf (arrA1 W c)
abbrev matB1 (c : Dev nD) : Cert.Loss.Mat := matOf (arrB1 W c)

/-- Row p of the row tile of point t is the array's row 1024 (t / 16) + p. -/
theorem rowOf_val1 (t : Fin cfg1.N) (p : Fin 1024) : (rowOf (grid1.coords t) p).val = 1024 * (t.val / 16) + p.val := by
  show 1024 * (grid1.coords t 0).val + p.val = _; rw [(coords1 t).1]

/-- The column tile of point t is t mod 16. -/
theorem tileOf_val1 (t : Fin cfg1.N) : (tileOf (grid1.coords t)).val = t.val % 16 := by
  show (grid1.coords t 1).val = _; rw [(coords1 t).2]

/-- Column q of the column tile of point t is the array's row 512 (t mod 16) + q. -/
theorem col_tileOf_val1 (t : Fin cfg1.N) (q : Fin 512) :
    (Cert.Loss.col (tileOf (grid1.coords t)) q).val = 512 * (t.val % 16) + q.val := by
  show 512 * (tileOf (grid1.coords t)).val + q.val = _; rw [tileOf_val1]

/-- The statistics restart exactly at the points divisible by 16. -/
theorem first1_iff (t : Fin cfg1.N) : first1 (grid1.coords t) ↔ t.val % 16 = 0 := by
  show (grid1.coords t 1).val = 0 ↔ _; rw [(coords1 t).2]

/-- One point's step at row p, over the launch's own blocks: one column tile folded into the row's statistics,
    from the restart values at a point divisible by 16. -/
theorem step1_rows (c : Dev nD) (t : Fin cfg1.N) (s : St Ideal) (p : Fin 1024) (s' : EReal × EReal × EReal)
    (hs : ¬ t.val % 16 = 0 → atRow s p = s') :
    atRow (step1 (grid1.coords t) (xa1 W c t) (xb1 W c t) s) p
      = Cert.Loss.stepK (matA1 W c) (matB1 W c) (rowOf (grid1.coords t) p) (if t.val % 16 = 0 then (⊥, 0, 0) else s') (tileOf (grid1.coords t)) := by
  refine (step1_apply (grid1.coords t) (matA1 W c) (matB1 W c) (xa1 W c t) (xb1 W c t)
    (fun p k => xa1_apply W c t p k (rowOf (grid1.coords t) p) (rowOf_val1 t p))
    (fun q k => xb1_apply W c t q k (Cert.Loss.col (tileOf (grid1.coords t)) q) (col_tileOf_val1 t q))
    s p s' (fun h => hs (fun h' => h ((first1_iff t).mpr h')))).trans ?_
  by_cases h : t.val % 16 = 0
  · rw [if_pos h, if_pos ((first1_iff t).mpr h)]
  · rw [if_neg h, if_neg (fun h' => h ((first1_iff t).mp h'))]

/-- After point n the carried vectors hold, at row p of the row tile n / 16, the streaming statistics of the array's
    row 1024 (n / 16) + p over the column tiles 0 … n mod 16: by induction on the point, a point divisible by 16
    restarting and any other continuing from the point before, which is in the same row tile. -/
theorem stats1_rows (c : Dev nD) : ∀ (n : ℕ) (hn : n < cfg1.N) (p : Fin 1024) (r : Fin 8192) (hr : r.val = 1024 * (n / 16) + p.val)
    (j : ℕ) (hj : j < 16) (hjn : j = n % 16),
    atRow (stats1 W c n hn) p = Cert.Loss.statsK (matA1 W c) (matB1 W c) r j hj := by
  intro n
  induction n with
  | zero =>
    intro hn p r hr j hj hjn
    have hrow : rowOf (grid1.coords ⟨0, hn⟩) p = r := Fin.ext ((rowOf_val1 ⟨0, hn⟩ p).trans hr.symm)
    have htile : tileOf (grid1.coords ⟨0, hn⟩) = ⟨0, by omega⟩ := Fin.ext (tileOf_val1 ⟨0, hn⟩)
    rw [stats1_zero]
    refine (step1_rows W c ⟨0, hn⟩ (k1_pay5, k1_pay6, k1_pay7) p (⊥, 0, 0) (fun h => absurd rfl h)).trans ?_
    rw [if_pos (show (⟨0, hn⟩ : Fin cfg1.N).val % 16 = 0 from rfl), hrow, htile]
    subst hjn
    rfl
  | succ n ih =>
    intro hn p r hr j hj hjn
    have hN : cfg1.N = 128 := N_1
    have hrow : rowOf (grid1.coords ⟨n + 1, hn⟩) p = r := Fin.ext ((rowOf_val1 ⟨n + 1, hn⟩ p).trans hr.symm)
    have htile : tileOf (grid1.coords ⟨n + 1, hn⟩) = ⟨j, hj⟩ := Fin.ext ((tileOf_val1 ⟨n + 1, hn⟩).trans hjn.symm)
    rw [stats1_succ]
    by_cases h : (n + 1) % 16 = 0
    · refine (step1_rows W c ⟨n + 1, hn⟩ (stats1 W c n (Nat.lt_of_succ_lt hn)) p (⊥, 0, 0) (fun h' => absurd h h')).trans ?_
      rw [if_pos (show (⟨n + 1, hn⟩ : Fin cfg1.N).val % 16 = 0 from h), hrow, htile]
      have hj0 : j = 0 := by omega
      subst hj0
      rfl
    · have hj' : j = n % 16 + 1 := by omega
      subst hj'
      have ihn := ih (Nat.lt_of_succ_lt hn) p r (by omega) (n % 16) (by omega) rfl
      refine (step1_rows W c ⟨n + 1, hn⟩ (stats1 W c n (Nat.lt_of_succ_lt hn)) p _ (fun _ => ihn)).trans ?_
      rw [if_neg (show ¬ (⟨n + 1, hn⟩ : Fin cfg1.N).val % 16 = 0 from h), hrow, htile]
      rfl

/-- The same at a point of the grid. -/
theorem stats1_at (c : Dev nD) (t : Fin cfg1.N) (p : Fin 1024) (r : Fin 8192) (hr : r.val = 1024 * (t.val / 16) + p.val)
    (j : ℕ) (hj : j < 16) (hjn : j = t.val % 16) :
    atRow (stats1 W c t.val t.isLt) p = Cert.Loss.statsK (matA1 W c) (matB1 W c) r j hj :=
  stats1_rows W c t.val t.isLt p r hr j hj hjn

end Cert.KernelIdeal.Online

end
-- ==== Proof.KValue1.lean ====
/-
  The second launch's two result arrays: every row's streaming log-sum-exp and diagonal sum.

  The result blocks move with the row tile and are written back at its last column tile, point 16 i + 15, when the
  carried statistics of the tile's rows are complete: the first block then holds max + log sum, the second the
  diagonal sum. Row r of a result array lies in the block of row tile r / 1024 only, so the blocks written back
  cover the array and each array ends as one function of its row index.
-/
import proofs.«116349_j13649406066960_1_alg».proof.Proof.KStats1

noncomputable section

namespace Cert.KernelIdeal.Online

open Idealize.ShloMosaic Idealize.ShloMosaic.TcCoe
open Idealize.SL.Sem
open Idealize.ShloMosaic.Pipeline (Dat Cfg Window)
open Cert.KernelIdeal Cert.KernelIdeal.Gen
open Idealize.ShloMosaic.ValueIdx

variable (W : (c : Dev nD) → (b : Ref sig .tc) → Buf (Elt Ideal) ((c : Thread nD τ).loc b))

/-- The first result array as the launch leaves it: each row's log-sum-exp; the second: each row's diagonal sum. -/
abbrev lseArr1 (c : Dev nD) : Vec Ideal S8192x1 .f32 := fun i => Cert.Loss.lseK (matA1 W c) (matB1 W c) (i 0)
abbrev diagArr1 (c : Dev nD) : Vec Ideal S8192x1 .f32 := fun i => Cert.Loss.diagK (matA1 W c) (matB1 W c) (i 0)

/-- At the last column tile of a row tile, the log-sum-exp block holds at row p the row's streaming log-sum-exp. -/
theorem lse1_row (c : Dev nD) (t : Fin cfg1.N) (ht : t.val % 16 = 15) (p : Fin 1024) (r : Fin 8192)
    (hr : r.val = 1024 * (t.val / 16) + p.val) :
    lse1 (stats1 W c t.val t.isLt) (ix2 p 0) = Cert.Loss.lseK (matA1 W c) (matB1 W c) r := by
  have h := stats1_at W c t p r hr 15 (by decide) ht.symm
  rw [lse1_apply]
  unfold Cert.Loss.lseK
  rw [← h]

/-- And the carried diagonal sum holds at row p the row's streaming diagonal sum. -/
theorem diag1_row (c : Dev nD) (t : Fin cfg1.N) (ht : t.val % 16 = 15) (p : Fin 1024) (r : Fin 8192)
    (hr : r.val = 1024 * (t.val / 16) + p.val) :
    (stats1 W c t.val t.isLt).2.2 (ix2 p 0) = Cert.Loss.diagK (matA1 W c) (matB1 W c) r := by
  have h := stats1_at W c t p r hr 15 (by decide) ht.symm
  unfold Cert.Loss.diagK
  rw [← h]

/-- What a point at a last column tile writes back into the first result array is its block of the rows' log-sum-exp. -/
theorem flushed1_2 (c : Dev nD) (t : Fin cfg1.N) (hf : (cfg1.win 2).flush t = true) :
    (dat1 W c).flushed 2 t = ((cfg1.win 2).blk t).view.read (Elt Ideal) (lseArr1 W c) := by
  have ht : t.val % 16 = 15 := (flush1_2 t).mp hf
  obtain ⟨-, -, -, -, e20, e21, -⟩ := index1 t
  show (cfg1.win 2).cut (grid1.coords t) ((dat1 W c).after 2 t) = _
  rw [after1_2]
  funext y
  rw [View.read_apply]
  have hy0 : (y 0).val < 1024 := (y 0).isLt
  have hy1 : (y 1).val < 1 := (y 1).isLt
  have e : (cfg1.win 2).xinj (grid1.coords t) y = ix2 (⟨(y 0).val, hy0⟩ : Fin 1024) (0 : Fin 1) := by
    funext a; apply Fin.ext
    match a with
    | ⟨0, _⟩ => rfl
    | ⟨1, _⟩ => show (y 1).val = 0; omega
  show lse1 (stats1 W c t.val t.isLt) ((cfg1.win 2).xinj (grid1.coords t) y) = lseArr1 W c (((cfg1.win 2).blk t).view.emb y)
  refine (congrArg (lse1 (stats1 W c t.val t.isLt)) e).trans ?_
  exact lse1_row W c t ht ⟨(y 0).val, hy0⟩ ((((cfg1.win 2).blk t).view.emb y) 0)
    (by show win1_2.index t (0 : Fin 2) * 1024 + 1 * (y 0).val = 1024 * (t.val / 16) + (y 0).val; rw [e20]; omega)

theorem flushed1_3 (c : Dev nD) (t : Fin cfg1.N) (hf : (cfg1.win 3).flush t = true) :
    (dat1 W c).flushed 3 t = ((cfg1.win 3).blk t).view.read (Elt Ideal) (diagArr1 W c) := by
  have ht : t.val % 16 = 15 := (flush1_3 t).mp hf
  obtain ⟨-, -, -, -, -, -, e30, e31⟩ := index1 t
  show (cfg1.win 3).cut (grid1.coords t) ((dat1 W c).after 3 t) = _
  rw [after1_3]
  funext y
  rw [View.read_apply]
  have hy0 : (y 0).val < 1024 := (y 0).isLt
  have hy1 : (y 1).val < 1 := (y 1).isLt
  have e : (cfg1.win 3).xinj (grid1.coords t) y = ix2 (⟨(y 0).val, hy0⟩ : Fin 1024) (0 : Fin 1) := by
    funext a; apply Fin.ext
    match a with
    | ⟨0, _⟩ => rfl
    | ⟨1, _⟩ => show (y 1).val = 0; omega
  show (stats1 W c t.val t.isLt).2.2 ((cfg1.win 3).xinj (grid1.coords t) y) = diagArr1 W c (((cfg1.win 3).blk t).view.emb y)
  refine (congrArg (stats1 W c t.val t.isLt).2.2 e).trans ?_
  exact diag1_row W c t ht ⟨(y 0).val, hy0⟩ ((((cfg1.win 3).blk t).view.emb y) 0)
    (by show win1_3.index t (0 : Fin 2) * 1024 + 1 * (y 0).val = 1024 * (t.val / 16) + (y 0).val; rw [e30]; omega)

/-- An index of a result array is in point t's block iff each coordinate is in the block's range on its axis. -/
theorem mem_blk1_2 (t : Fin cfg1.N) (i : S8192x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v7_0).slice (win1_2.rect t)).set ↔ _
  rw [View.set_slice_whole, Rect.mem_set_unit]
  exact Iff.rfl

theorem mem_blk1_3 (t : Fin cfg1.N) (i : S8192x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v7_1).slice (win1_3.rect t)).set ↔ _
  rw [View.set_slice_whole, Rect.mem_set_unit]
  exact Iff.rfl

/-- Row r of a result array is written back by the last column tile of its row tile, point 16 (r / 1024) + 15. -/
theorem cover1_2 (i : S8192x1.Idx) : ∃ t : Fin cfg1.N, (cfg1.win 2).flush t = true ∧ i ∈ ((cfg1.win 2).blk t).view.set := by
  have hN : cfg1.N = 128 := N_1
  have hi0 : (i 0).val < 8192 := (i 0).isLt
  have hi1 : (i 1).val < 1 := (i 1).isLt
  obtain ⟨t, ht⟩ : ∃ t : Fin cfg1.N, t.val = 16 * ((i 0).val / 1024) + 15 := ⟨⟨16 * ((i 0).val / 1024) + 15, by omega⟩, rfl⟩
  obtain ⟨-, -, -, -, e20, e21, -⟩ := index1 t
  refine ⟨t, (flush1_2 t).mpr (by omega), ?_⟩
  rw [mem_blk1_2]
  intro a
  match a with
  | ⟨0, _⟩ => show win1_2.index t (0 : Fin 2) * 1024 ≤ (i 0).val ∧ (i 0).val < win1_2.index t (0 : Fin 2) * 1024 + 1024; rw [e20]; omega
  | ⟨1, _⟩ => show win1_2.index t (1 : Fin 2) * 1 ≤ (i 1).val ∧ (i 1).val < win1_2.index t (1 : Fin 2) * 1 + 1; rw [e21]; omega

theorem cover1_3 (i : S8192x1.Idx) : ∃ t : Fin cfg1.N, (cfg1.win 3).flush t = true ∧ i ∈ ((cfg1.win 3).blk t).view.set := by
  have hN : cfg1.N = 128 := N_1
  have hi0 : (i 0).val < 8192 := (i 0).isLt
  have hi1 : (i 1).val < 1 := (i 1).isLt
  obtain ⟨t, ht⟩ : ∃ t : Fin cfg1.N, t.val = 16 * ((i 0).val / 1024) + 15 := ⟨⟨16 * ((i 0).val / 1024) + 15, by omega⟩, rfl⟩
  obtain ⟨-, -, -, -, -, -, e30, e31⟩ := index1 t
  refine ⟨t, (flush1_3 t).mpr (by omega), ?_⟩
  rw [mem_blk1_3]
  intro a
  match a with
  | ⟨0, _⟩ => show win1_3.index t (0 : Fin 2) * 1024 ≤ (i 0).val ∧ (i 0).val < win1_3.index t (0 : Fin 2) * 1024 + 1024; rw [e30]; omega
  | ⟨1, _⟩ => show win1_3.index t (1 : Fin 2) * 1 ≤ (i 1).val ∧ (i 1).val < win1_3.index t (1 : Fin 2) * 1 + 1; rw [e31]; omega

/-- The first result array ends holding each row's streaming log-sum-exp. -/
theorem arr1_lse_eq (c : Dev nD) : (dat1 W c).arrAt 2 cfg1.N = lseArr1 W c :=
  (dat1 W c).arrAt_eq_of_cover 2 (lseArr1 W c) (flushed1_2 W c) cover1_2

/-- The second result array ends holding each row's streaming diagonal sum. -/
theorem arr1_diag_eq (c : Dev nD) : (dat1 W c).arrAt 3 cfg1.N = diagArr1 W c :=
  (dat1 W c).arrAt_eq_of_cover 3 (diagArr1 W c) (flushed1_3 W c) cover1_3

/-- Row by row. -/
theorem arr1_lse (c : Dev nD) (r : Fin 8192) :
    (dat1 W c).arrAt 2 cfg1.N (ix2 r (0 : Fin 1)) = Cert.Loss.lseK (matA1 W c) (matB1 W c) r :=
  congrFun (arr1_lse_eq W c) (ix2 r (0 : Fin 1))

theorem arr1_diag (c : Dev nD) (r : Fin 8192) :
    (dat1 W c).arrAt 3 cfg1.N (ix2 r (0 : Fin 1)) = Cert.Loss.diagK (matA1 W c) (matB1 W c) r :=
  congrFun (arr1_diag_eq W c) (ix2 r (0 : Fin 1))

end Cert.KernelIdeal.Online

end
-- ==== Proof.Rows.lean ====
/-
  The two inputs as feature matrices, and the guard both programs end with.

  An input of shape 512 × 16 × 128 is read as 8192 rows of 128 features, row `r` being entry `(r / 16, r % 16)`:
  the 16 rows of one leading index are one group. The guard replaces a result that is not a number or is infinite
  by 0 and keeps any other.
-/
import proofs.«116349_j13649406066960_1_alg».proof.Proof.Spec
import Idealize.ShloMosaic.Lib.ValueIdx
import Idealize.ShloMosaic.PureOps

noncomputable section

namespace Cert.Loss

open Idealize.ShloMosaic

/-- The rows of a 512 × 16 × 128 input. -/
def rowsOf (x : (⟨3, ![512, 16, 128]⟩ : Shape).Idx → EReal) : Mat := fun r k =>
  x (ValueIdx.ix3 (⟨r.val / 16, by have := r.isLt; omega⟩ : Fin 512) (⟨r.val % 16, Nat.mod_lt _ (by decide)⟩ : Fin 16) k)

/-- The closing guard of both programs on the scalar loss. -/
def guard (v : FVec Ideal (⟨0, ![]⟩ : Shape) .f32) : FVec Ideal (⟨0, ![]⟩ : Shape) .f32 :=
  select (ori (cmpf .une v v) (cmpf .oeq (Host.absf v) (constant (F := Ideal) (⟨0, ![]⟩ : Shape) .f32 0x7F800000#32)))
    (constant (F := Ideal) (⟨0, ![]⟩ : Shape) .f32 0x00000000#32) v

end Cert.Loss

end
-- ==== Proof.KTail.lean ====
/-
  The host lines after the two launches, read at the ideal instance: the mean over the 8192 rows of
  (log-sum-exp − diagonal) is the sum from 0 divided by the row count, the loss the halved sum of the two means,
  and the closing guard is the specification's.
-/
import proofs.«116349_j13649406066960_1_alg».proof.Proof.KHost
import proofs.«116349_j13649406066960_1_alg».proof.Proof.Rows
import proofs.«116349_j13649406066960_1_alg».proof.Proof.Consts
import Idealize.ShloMosaic.Lib.ValueIdx
import Idealize.ShloMosaic.Lib.Pipeline.Value
import Idealize.ShloMosaic.PureOps.Ideal.Laws

noncomputable section

namespace Cert.KernelIdeal.Online

open Idealize.ShloMosaic Idealize.ShloMosaic.ValueIdx Cert.KernelIdeal Cert.KernelIdeal.Gen

variable {F : FTy → Type} [FloatOps F] [Named F]

/-- At the ideal instance the guard is the specification's. -/
theorem guardOf_ideal (v : FVec Ideal S_ .f32) : guardOf v = Cert.Loss.guard v := rfl

/-- A column reshaped to a vector, read at row `r`. -/
theorem col_apply (l : FVec Ideal S8192x1 .f32) (r : Fin 8192) :
    shapeCast S8192 l shapeCasts_S8192x1_S8192 (ix1 r) = l (ix2 r 0) := by
  refine shapeCast_apply l _ (ix1 r) (ix2 r 0) ?_
  rw [Shape.rowMajor_val_two, Shape.rowMajor_val_one]
  show r.val * 1 + 0 = r.val
  omega

/-- A sum over the indices of a vector is the sum over its one coordinate. -/
theorem sum_idx1 {n : Nat} (f : (⟨1, ![n]⟩ : Shape).Idx → EReal) : ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

/-- The mean of `l − d` over the rows, at the ideal instance. -/
theorem meanDiff_ideal (l d : FVec Ideal S8192x1 .f32) (j : S_.Idx) :
    meanDiff l d j = Ideal.div (0 + ∑ r : Fin 8192, (l (ix2 r 0) - d (ix2 r 0))) Cert.Loss.rowsE := by
  unfold meanDiff Host.divf Host.reduceAdd
  simp only [Ideal.hostDivf_def, Ideal.hostReduceAdd_def, constant, Ideal.ofBits_def, Ideal.ofBits_zero_f32]
  rw [Ideal.hostReduceAdd_total reducesTo_S8192_S_d0 (fun b => b.elim0)]
  unfold Cert.Loss.rowsE
  refine congrArg (fun z => Ideal.div (0 + z) _) ?_
  rw [sum_idx1]
  refine Finset.sum_congr rfl fun r _ => ?_
  simp only [subf, Ideal.subf_def]
  rw [col_apply, col_apply]

/-- The loss before the guard, at the ideal instance. -/
theorem lossOf_ideal (l0 d0 l1 d1 : FVec Ideal S8192x1 .f32) (j : S_.Idx) :
    lossOf l0 d0 l1 d1 j
      = Ideal.div (Ideal.div (0 + ∑ r : Fin 8192, (l0 (ix2 r 0) - d0 (ix2 r 0))) Cert.Loss.rowsE
          + Ideal.div (0 + ∑ r : Fin 8192, (l1 (ix2 r 0) - d1 (ix2 r 0))) Cert.Loss.rowsE) Cert.Loss.twoE := by
  unfold lossOf Host.divf
  simp only [Ideal.hostDivf_def, constant, Ideal.ofBits_def, addf, Ideal.addf_def]
  rw [meanDiff_ideal, meanDiff_ideal]
  rfl

end Cert.KernelIdeal.Online

end
-- ==== Proof.KFinal.lean ====
/-
  The idealized kernel's result: the guarded streaming loss of its two inputs read as feature matrices.

  The first launch is entered with the first input's rows as its row blocks and the second input's rows as its
  column blocks (the rounding to a narrower format is the identity on extended reals; the reshape keeps row-major
  order, so row `r` is entry `(r / 16, r % 16)`); the second launch with the two exchanged. Each leaves the column
  of streaming row log-sum-exps and the column of scaled diagonal similarities, and the host lines after them take
  the two means, halve their sum and apply the closing guard.
-/
import proofs.«116349_j13649406066960_1_alg».proof.Proof.Launch
import proofs.«116349_j13649406066960_1_alg».proof.Proof.KValue0
import proofs.«116349_j13649406066960_1_alg».proof.Proof.KValue1
import proofs.«116349_j13649406066960_1_alg».proof.Proof.KTail
import proofs.«116349_j13649406066960_1_alg».proof.Proof.Rows

noncomputable section

namespace Cert.KernelIdeal.Online

open Idealize.ShloMosaic Idealize.ShloMosaic.TcCoe Idealize.ShloMosaic.ValueIdx Idealize.SL.Sem
open Cert.KernelIdeal Cert.KernelIdeal.Gen

/-- An input reshaped to 8192 rows and rounded, read as a matrix, is the input's rows. -/
theorem matOf_entry (x : FVec Ideal S512x16x128 .f32) :
    matOf (truncf .bf16 (shapeCast S8192x128 x shapeCasts_S512x16x128_S8192x128) bitsLt_bf16_f32 : FVec Ideal S8192x128 .bf16)
      = Cert.Loss.rowsOf x := by
  funext r k
  unfold matOf Cert.Loss.rowsOf
  show shapeCast S8192x128 x shapeCasts_S512x16x128_S8192x128 (ix2 r k) = _
  refine shapeCast_apply x _ (ix2 r k) _ ?_
  rw [Shape.rowMajor_val_three, Shape.rowMajor_val_two]
  show (r.val / 16 * 16 + r.val % 16) * 128 + k.val = r.val * 128 + k.val
  omega

variable (m : (ℓ : Loc nD τ sig) → Buf (Elt Ideal) ℓ)

/-- The result buffer at the last boundary is the guarded streaming loss of the two inputs' rows. -/
theorem final_value (c : Dev nD) :
    W8 m c (Proc.devRef .tc main_v21)
      = Cert.Loss.guard (fun _ => Cert.Loss.lossK (Cert.Loss.rowsOf (m ((c : Thread nD τ).loc main_arg0)))
          (Cert.Loss.rowsOf (m ((c : Thread nD τ).loc main_arg1)))) := by
  rw [W8_main_v21_arr, guardOf_ideal]
  refine congrArg Cert.Loss.guard (funext fun j => ?_)
  rw [lossOf_ideal]
  simp only [arr0_lse, arr0_diag, arr1_lse, arr1_diag]
  have hA0 : matA0 (U1 m) c = Cert.Loss.rowsOf (m ((c : Thread nD τ).loc main_arg0)) := by
    show matOf (U1 m c main_v1) = _
    rw [U1_main_v1]; exact matOf_entry _
  have hB0 : matB0 (U1 m) c = Cert.Loss.rowsOf (m ((c : Thread nD τ).loc main_arg1)) := by
    show matOf (U1 m c main_v3) = _
    rw [U1_main_v3]; exact matOf_entry _
  have hA1 : matA1 (U3 m) c = Cert.Loss.rowsOf (m ((c : Thread nD τ).loc main_arg1)) := by
    show matOf (U3 m c main_v3) = _
    rw [U3_main_v3, U1_main_v3]; exact matOf_entry _
  have hB1 : matB1 (U3 m) c = Cert.Loss.rowsOf (m ((c : Thread nD τ).loc main_arg0)) := by
    show matOf (U3 m c main_v1) = _
    rw [U3_main_v1, U1_main_v1]; exact matOf_entry _
  rw [hA0, hB0, hA1, hB1]
  rfl

/-- Every weakly fair execution of the idealized kernel's @main from memory `m` terminates with the result buffer at
    the guarded streaming loss and both arguments as launched. -/
theorem kernel_value (ρ : Dev nD → PrngReg) :
    θ_run defs (onTc (τ := τ) (main (F := Ideal))) ⟨m, fun _ => 0, ρ⟩ (fun r => ∀ c : Dev nD,
      r.2.mem ((c.tc : Thread nD τ).loc main_v21)
        = Cert.Loss.guard (fun _ => Cert.Loss.lossK (Cert.Loss.rowsOf (m ((c.tc : Thread nD τ).loc main_arg0)))
            (Cert.Loss.rowsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final_value m c), (h c).2⟩) (run_values (F := Ideal) m ρ)

end Cert.KernelIdeal.Online

end
-- ==== Proof.RefTerm.lean ====
import proofs.«116349_j13649406066960_1_alg».proof.ReferenceIdeal
import proofs.«116349_j13649406066960_1_alg».proof.Proof.Gen.ReferenceIdeal

noncomputable section

namespace Cert.ReferenceIdeal.Hand

open Cert.ReferenceIdeal Idealize.ShloMosaic Idealize.SL.Sem
open Facts₀ Facts

variable {F : FTy → Type} [FloatOps F] [Facts]

/-- The contents of a tensor value of shape `S` and element type `e`. -/
local notation "𝒞[" S ", " e "]" => (BufTy.Contents (Elt F) (BufTy.mk S e))

/-! The reference's result as a pure function of its two arguments. Each definition below is a stretch of @main
(or the body of one of its functions), one binding per operation in program order, each binding named after the
value it is (`v2` is `%2`; inside a function's body the callee's own names); `preTail` and `refTerm` put the stretches
together in program order. -/

/-- `%2`: the two arguments flattened to 8192 rows and contracted over the feature axis, `sim[i, j] = ⟨ts_i, nt_j⟩`. -/
def sim (x y : 𝒞[S512x16x128, .f32]) : 𝒞[S8192x8192, .f32] :=
  let v0 : FVec F S8192x128 .f32 := shapeCast S8192x128 x shapeCasts_S512x16x128_S8192x128
  let v1 : FVec F S8192x128 .f32 := shapeCast S8192x128 y shapeCasts_S512x16x128_S8192x128
  let v2 : FVec F S8192x8192 .f32 := Host.dotGeneral dot_S8192x128_S8192x128_S8192x8192_1_1_0_0_n_n none v0 v1
  v2

/-- `%3`: the row numbers `0 … 8191`. -/
def rowIds : IVec S8192 32 := iotaInDim S8192 32 0

/-- `%4 = floor_divide(%3, %c)` with `%c = 16`: the body of `@floor_divide` (and of the `@_where` it calls) over the row
    numbers — the block number of each row. -/
def blockIds (v3 : IVec S8192 32) : IVec S8192 32 :=
  let c : IVec S_ 32 := constantI S_ 32 16#32
  let call0_v0 : IVec S_ 32 := id c
  let call0_v1 : IVec S8192 32 := broadcastInDim S8192 ![] bcast_S_S8192 call0_v0
  let call0_v2 : IVec S8192 32 := Host.divsi v3 call0_v1
  let call0_v3 : IVec S8192 32 := signi v3
  let call0_v4 : IVec S_ 32 := signi call0_v0
  let call0_v5 : IVec S8192 32 := broadcastInDim S8192 ![] bcast_S_S8192 call0_v4
  let call0_v6 : IVec S8192 1 := cmpi .ne call0_v3 call0_v5
  let call0_v7 : IVec S8192 32 := broadcastInDim S8192 ![] bcast_S_S8192 call0_v0
  let call0_v8 : IVec S8192 32 := Host.remsi v3 call0_v7
  let call0_c : IVec S_ 32 := constantI S_ 32 0#32
  let call0_v9 : IVec S8192 32 := broadcastInDim S8192 ![] bcast_S_S8192 call0_c
  let call0_v10 : IVec S8192 1 := cmpi .ne call0_v8 call0_v9
  let call0_v11 : IVec S8192 1 := andi call0_v6 call0_v10
  let call0_c_0 : IVec S_ 32 := constantI S_ 32 1#32
  let call0_v12 : IVec S8192 32 := broadcastInDim S8192 ![] bcast_S_S8192 call0_c_0
  let call0_v13 : IVec S8192 32 := subi call0_v2 call0_v12
  let v4 : IVec S8192 32 := select call0_v11 call0_v13 call0_v2
  v4

/-- `%16`: where two distinct rows lie in the same block (`%5 … %16`). -/
def offDiagInBlock (v3 v4 : IVec S8192 32) : IVec S8192x8192 1 :=
  let v5 : IVec S8192x1 32 := broadcastInDim S8192x1 ![0] bcast_S8192_S8192x1_0 v4
  let v6 : IVec S1x8192 32 := broadcastInDim S1x8192 ![1] bcast_S8192_S1x8192_1 v4
  let v7 : IVec S8192x8192 32 := broadcastInDim S8192x8192 ![0, 1] bcast_S8192x1_S8192x8192_0_1 v5
  let v8 : IVec S8192x8192 32 := broadcastInDim S8192x8192 ![0, 1] bcast_S1x8192_S8192x8192_0_1 v6
  let v9 : IVec S8192x8192 1 := cmpi .eq v7 v8
  let v10 : IVec S8192x1 32 := broadcastInDim S8192x1 ![0] bcast_S8192_S8192x1_0 v3
  let v11 : IVec S1x8192 32 := broadcastInDim S1x8192 ![1] bcast_S8192_S1x8192_1 v3
  let v12 : IVec S8192x8192 32 := broadcastInDim S8192x8192 ![0, 1] bcast_S8192x1_S8192x8192_0_1 v10
  let v13 : IVec S8192x8192 32 := broadcastInDim S8192x8192 ![0, 1] bcast_S1x8192_S8192x8192_0_1 v11
  let v14 : IVec S8192x8192 1 := cmpi .eq v12 v13
  let v15 : IVec S8192x8192 1 := noti v14
  let v16 : IVec S8192x8192 1 := andi v9 v15
  v16

/-- `%19`: the masked similarities over the temperature (`%cst … %19`, with `@_where_0`'s body). -/
def maskScale (v16 : IVec S8192x8192 1) (v2 : 𝒞[S8192x8192, .f32]) : 𝒞[S8192x8192, .f32] :=
  let cst : FVec F S_ .f32 := constant S_ .f32 0xC61C4000#32
  let call1_v0 : FVec F S8192x8192 .f32 := broadcastInDim S8192x8192 ![] bcast_S_S8192x8192 cst
  let v17 : FVec F S8192x8192 .f32 := select v16 call1_v0 v2
  let cst_0 : FVec F S_ .f32 := constant S_ .f32 0x3C23D70A#32
  let v18 : FVec F S8192x8192 .f32 := broadcastInDim S8192x8192 ![] bcast_S_S8192x8192 cst_0
  let v19 : FVec F S8192x8192 .f32 := Host.divf v17 v18
  v19

/-- `%19` of the arguments: `%0 … %19` in program order. -/
def logits (x y : 𝒞[S512x16x128, .f32]) : 𝒞[S8192x8192, .f32] :=
  let v2 : FVec F S8192x8192 .f32 := sim x y
  let v3 : IVec S8192 32 := rowIds
  let v4 : IVec S8192 32 := blockIds v3
  let v16 : IVec S8192x8192 1 := offDiagInBlock v3 v4
  maskScale v16 v2

/-- The body of `@log_softmax` over its argument (the callee's own value names): along each row, the entry less the row's
    maximum, less the logarithm of the row's sum of exponentials of those differences. -/
def logSoftmax (arg0 : 𝒞[S8192x8192, .f32]) : 𝒞[S8192x8192, .f32] :=
  let cst : FVec F S_ .f32 := constant S_ .f32 0xFF800000#32
  let v0 : FVec F S8192 .f32 := Host.reduce FloatOps.maximumf arg0 cst reducesTo_S8192x8192_S8192_d1 h_S_
  let cst_0 : FVec F S_ .f32 := constant S_ .f32 0xFF800000#32
  let v1 : FVec F S8192 .f32 := broadcastInDim S8192 ![] bcast_S_S8192 cst_0
  let v2 : FVec F S8192 .f32 := maximumf v1 v0
  let v3 : FVec F S8192x1 .f32 := broadcastInDim S8192x1 ![0] bcast_S8192_S8192x1_0 v2
  let v4 : FVec F S8192x8192 .f32 := broadcastInDim S8192x8192 ![0, 1] bcast_S8192x1_S8192x8192_0_1 v3
  let v5 : FVec F S8192x8192 .f32 := subf arg0 v4
  let v6 : FVec F S8192x8192 .f32 := Host.exp v5
  let cst_1 : FVec F S_ .f32 := constant S_ .f32 0x00000000#32
  let v7 : FVec F S8192 .f32 := Host.reduceAdd v6 cst_1 reducesTo_S8192x8192_S8192_d1 h_S_
  let v8 : FVec F S8192x1 .f32 := broadcastInDim S8192x1 ![0] bcast_S8192_S8192x1_0 v7
  let v9 : FVec F S8192x1 .f32 := Host.log v8
  let v10 : FVec F S8192x8192 .f32 := broadcastInDim S8192x8192 ![0, 1] bcast_S8192x1_S8192x8192_0_1 v9
  let v11 : FVec F S8192x8192 .f32 := subf v5 v10
  v11

/-- One coordinate of the diagonal's index table (`%c_1 … %27`, and again `%c_3 … %32`, `%c_7 … %44`, `%c_9 … %49`): the
    row number, wrapped by 8192 where negative. -/
def wrapIds (v3 : IVec S8192 32) : IVec S8192 32 :=
  let c_1 : IVec S_ 32 := constantI S_ 32 0#32
  let v23 : IVec S8192 32 := broadcastInDim S8192 ![] bcast_S_S8192 c_1
  let v24 : IVec S8192 1 := cmpi .slt v3 v23
  let c_2 : IVec S_ 32 := constantI S_ 32 8192#32
  let v25 : IVec S8192 32 := broadcastInDim S8192 ![] bcast_S_S8192 c_2
  let v26 : IVec S8192 32 := addi v3 v25
  let v27 : IVec S8192 32 := select v24 v26 v3
  v27

/-- `%39` (and again `%56`): the entries of `a` at the index pairs `(p k, q k)` gathered, summed, divided by 8192 and
    negated (`%33 … %39`, and again `%50 … %56`). -/
def negMeanAt (a : 𝒞[S8192x8192, .f32]) (p q : IVec S8192 32) : 𝒞[S_, .f32] :=
  let v33 : IVec S8192x1 32 := broadcastInDim S8192x1 ![0] bcast_S8192_S8192x1_0 p
  let v34 : IVec S8192x1 32 := broadcastInDim S8192x1 ![0] bcast_S8192_S8192x1_0 q
  let v35 : IVec S8192x2 32 := concatenate S8192x2 1 [⟨S8192x1, v33⟩, ⟨S8192x1, v34⟩] concatenates_S8192x1_S8192x1_S8192x2_d1
  let v36 : FVec F S8192 .f32 := Host.gather gather_S8192x8192_S8192x2_S8192_n_01_n_n_01_1_11 a v35
  let cst_5 : FVec F S_ .f32 := constant S_ .f32 0x00000000#32
  let v37 : FVec F S_ .f32 := Host.reduceAdd v36 cst_5 reducesTo_S8192_S_d0 h_S_
  let cst_6 : FVec F S_ .f32 := constant S_ .f32 0x46000000#32
  let v38 : FVec F S_ .f32 := Host.divf v37 cst_6
  let v39 : FVec F S_ .f32 := Host.negf v38
  v39

/-- The value of `%58`: the mean of the two cross-entropy terms, before the final nan/inf guard, as a function of the
    two arguments; `%0 … %58` in program order, stretch by stretch. -/
def preTail (x y : 𝒞[S512x16x128, .f32]) : 𝒞[S_, .f32] :=
  let v19 : FVec F S8192x8192 .f32 := logits x y
  let v20 : FVec F S8192x8192 .f32 := logSoftmax v19
  let v21 : FVec F S8192x8192 .f32 := transpose S8192x8192 [1, 0] v19 transposes_S8192x8192_S8192x8192_1_0
  let v22 : FVec F S8192x8192 .f32 := logSoftmax v21
  let v3 : IVec S8192 32 := rowIds
  let v27 : IVec S8192 32 := wrapIds v3
  let v32 : IVec S8192 32 := wrapIds v3
  let v39 : FVec F S_ .f32 := negMeanAt v20 v27 v32
  let v44 : IVec S8192 32 := wrapIds v3
  let v49 : IVec S8192 32 := wrapIds v3
  let v56 : FVec F S_ .f32 := negMeanAt v22 v44 v49
  let v57 : FVec F S_ .f32 := addf v39 v56
  let cst_13 : FVec F S_ .f32 := constant S_ .f32 0x40000000#32
  let v58 : FVec F S_ .f32 := Host.divf v57 cst_13
  v58

/-- The final guard, `%59 … %62` (with `@isinf`'s and `@_where_1`'s bodies): a NaN or an infinity becomes zero, anything
    else is kept. -/
def guardTail (v : 𝒞[S_, .f32]) : 𝒞[S_, .f32] :=
  let v59 : IVec S_ 1 := cmpf .une v v
  let call4_v0 : FVec F S_ .f32 := Host.absf v
  let call4_cst : FVec F S_ .f32 := constant S_ .f32 0x7F800000#32
  let v60 : IVec S_ 1 := cmpf .oeq call4_v0 call4_cst
  let v61 : IVec S_ 1 := ori v59 v60
  let cst_14 : FVec F S_ .f32 := constant S_ .f32 0x00000000#32
  select v61 cst_14 v

/-- @main's result `%62` as a function of the two arguments. -/
def refTerm (x y : 𝒞[S512x16x128, .f32]) : 𝒞[S_, .f32] :=
  let v58 : FVec F S_ .f32 := preTail x y
  let v59 : IVec S_ 1 := cmpf .une v58 v58
  let call4_v0 : FVec F S_ .f32 := Host.absf v58
  let call4_cst : FVec F S_ .f32 := constant S_ .f32 0x7F800000#32
  let v60 : IVec S_ 1 := cmpf .oeq call4_v0 call4_cst
  let v61 : IVec S_ 1 := ori v59 v60
  let cst_14 : FVec F S_ .f32 := constant S_ .f32 0x00000000#32
  select v61 cst_14 v58

theorem refTerm_eq_guardTail (x y : 𝒞[S512x16x128, .f32]) :
    refTerm (F := F) x y = guardTail (preTail x y) := rfl

/-- The guard spelt out as one term. -/
theorem guardTail_eq (v : 𝒞[S_, .f32]) :
    guardTail (F := F) v
      = select (ori (cmpf .une v v) (cmpf .oeq (Host.absf v) (constant S_ .f32 0x7F800000#32)))
          (constant S_ .f32 0x00000000#32) v := rfl

end Cert.ReferenceIdeal.Hand

end
-- ==== Proof.RefOps.lean ====
import proofs.«116349_j13649406066960_1_alg».proof.ReferenceIdeal
import proofs.«116349_j13649406066960_1_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-! @main as a list of its 127 host operations, the functions' bodies written out at their calls over each call's
buffers, cut into six stretches (a cut before each concatenate and at the end of the first window). -/

/-- A stretch of @main's operations, in order (40). -/
abbrev opsA1 : List (HloOp τ sig (Elt F)) :=
  [ reshape main_arg0 main_v0 rfl shapeCasts_S512x16x128_S8192x128,
    reshape main_arg1 main_v1 rfl shapeCasts_S512x16x128_S8192x128,
    binary main_v0 main_v1 main_v2 ((fun l r => Host.dotGeneral dot_S8192x128_S8192x128_S8192x8192_1_1_0_0_n_n none l r) : (⟨S8192x128, .f32⟩ : BufTy).Contents (Elt F) → (⟨S8192x128, .f32⟩ : BufTy).Contents (Elt F) → (⟨S8192x8192, .f32⟩ : BufTy).Contents (Elt F)),
    nullary main_v3 (iotaInDim S8192 32 0),
    nullary main_c (constantI S_ 32 16#32),
    TRef.unary (.of main_c : TRef sig ⟨S_, .i32⟩) main_call0.v0 id,
    TRef.unary main_call0.v0 main_call0.v1 (broadcastInDim S8192 ![] bcast_S_S8192),
    TRef.binary (.of main_v3 : TRef sig ⟨S8192, .i32⟩) main_call0.v1 main_call0.v2 Host.divsi,
    TRef.unary (.of main_v3 : TRef sig ⟨S8192, .i32⟩) main_call0.v3 signi,
    TRef.unary main_call0.v0 main_call0.v4 signi,
    TRef.unary main_call0.v4 main_call0.v5 (broadcastInDim S8192 ![] bcast_S_S8192),
    TRef.binary main_call0.v3 main_call0.v5 main_call0.v6 (cmpi .ne),
    TRef.unary main_call0.v0 main_call0.v7 (broadcastInDim S8192 ![] bcast_S_S8192),
    TRef.binary (.of main_v3 : TRef sig ⟨S8192, .i32⟩) main_call0.v7 main_call0.v8 Host.remsi,
    TRef.nullary main_call0.c (constantI S_ 32 0#32),
    TRef.unary main_call0.c main_call0.v9 (broadcastInDim S8192 ![] bcast_S_S8192),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S8192 ![] bcast_S_S8192),
    TRef.binary main_call0.v2 main_call0.v12 main_call0.v13 subi,
    TRef.ternary main_call0.v11 main_call0.v13 main_call0.v2 main_call0.call0.v0 select,
    unary main_v4 main_v5 (broadcastInDim S8192x1 ![0] bcast_S8192_S8192x1_0 : (⟨S8192, .i32⟩ : BufTy).Contents (Elt F) → (⟨S8192x1, .i32⟩ : BufTy).Contents (Elt F)),
    unary main_v4 main_v6 (broadcastInDim S1x8192 ![1] bcast_S8192_S1x8192_1 : (⟨S8192, .i32⟩ : BufTy).Contents (Elt F) → (⟨S1x8192, .i32⟩ : BufTy).Contents (Elt F)),
    unary main_v5 main_v7 (broadcastInDim S8192x8192 ![0, 1] bcast_S8192x1_S8192x8192_0_1 : (⟨S8192x1, .i32⟩ : BufTy).Contents (Elt F) → (⟨S8192x8192, .i32⟩ : BufTy).Contents (Elt F)),
    unary main_v6 main_v8 (broadcastInDim S8192x8192 ![0, 1] bcast_S1x8192_S8192x8192_0_1 : (⟨S1x8192, .i32⟩ : BufTy).Contents (Elt F) → (⟨S8192x8192, .i32⟩ : BufTy).Contents (Elt F)),
    binary main_v7 main_v8 main_v9 (cmpi .eq : (⟨S8192x8192, .i32⟩ : BufTy).Contents (Elt F) → (⟨S8192x8192, .i32⟩ : BufTy).Contents (Elt F) → (⟨S8192x8192, .i1⟩ : BufTy).Contents (Elt F)),
    unary main_v3 main_v10 (broadcastInDim S8192x1 ![0] bcast_S8192_S8192x1_0 : (⟨S8192, .i32⟩ : BufTy).Contents (Elt F) → (⟨S8192x1, .i32⟩ : BufTy).Contents (Elt F)),
    unary main_v3 main_v11 (broadcastInDim S1x8192 ![1] bcast_S8192_S1x8192_1 : (⟨S8192, .i32⟩ : BufTy).Contents (Elt F) → (⟨S1x8192, .i32⟩ : BufTy).Contents (Elt F)),
    unary main_v10 main_v12 (broadcastInDim S8192x8192 ![0, 1] bcast_S8192x1_S8192x8192_0_1 : (⟨S8192x1, .i32⟩ : BufTy).Contents (Elt F) → (⟨S8192x8192, .i32⟩ : BufTy).Contents (Elt F)),
    unary main_v11 main_v13 (broadcastInDim S8192x8192 ![0, 1] bcast_S1x8192_S8192x8192_0_1 : (⟨S1x8192, .i32⟩ : BufTy).Contents (Elt F) → (⟨S8192x8192, .i32⟩ : BufTy).Contents (Elt F)),
    binary main_v12 main_v13 main_v14 (cmpi .eq : (⟨S8192x8192, .i32⟩ : BufTy).Contents (Elt F) → (⟨S8192x8192, .i32⟩ : BufTy).Contents (Elt F) → (⟨S8192x8192, .i1⟩ : BufTy).Contents (Elt F)),
    unary main_v14 main_v15 (noti : (⟨S8192x8192, .i1⟩ : BufTy).Contents (Elt F) → (⟨S8192x8192, .i1⟩ : BufTy).Contents (Elt F)),
    binary main_v9 main_v15 main_v16 (andi : (⟨S8192x8192, .i1⟩ : BufTy).Contents (Elt F) → (⟨S8192x8192, .i1⟩ : BufTy).Contents (Elt F) → (⟨S8192x8192, .i1⟩ : BufTy).Contents (Elt F)),
    nullary main_cst (constant S_ .f32 0xC61C4000#32),
    TRef.unary (.of main_cst : TRef sig ⟨S_, .f32⟩) main_call1.v0 (broadcastInDim S8192x8192 ![] bcast_S_S8192x8192),
    TRef.ternary (.of main_v16 : TRef sig ⟨S8192x8192, .i1⟩) main_call1.v0 (.of main_v2 : TRef sig ⟨S8192x8192, .f32⟩) main_call1.v1 select,
    nullary main_cst_0 (constant S_ .f32 0x3C23D70A#32),
    unary main_cst_0 main_v18 (broadcastInDim S8192x8192 ![] bcast_S_S8192x8192 : (⟨S_, .f32⟩ : BufTy).Contents (Elt F) → (⟨S8192x8192, .f32⟩ : BufTy).Contents (Elt F)),
    binary main_v17 main_v18 main_v19 (Host.divf : (⟨S8192x8192, .f32⟩ : BufTy).Contents (Elt F) → (⟨S8192x8192, .f32⟩ : BufTy).Contents (Elt F) → (⟨S8192x8192, .f32⟩ : BufTy).Contents (Elt F)) ]

set_option maxRecDepth 8192 in
theorem opsA1_sub : (opsA1 : List (HloOp τ sig (Elt F))).Forall fun op => op.bufs ⊆ tcRefs τ sig :=
  ⟨reshape_bufs_sub .., reshape_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., binary_bufs_sub .., nullary_bufs_sub .., unary_bufs_sub .., ternary_bufs_sub .., nullary_bufs_sub .., unary_bufs_sub .., binary_bufs_sub ..⟩

set_option maxRecDepth 8192 in
theorem opsA1_fresh : ∀ op ∈ (opsA1 : List (HloOp τ sig (Elt F))), op.fresh = ∅ := by
  intro _ h; (repeat (cases h with | head => rfl | tail _ h => ?_)); exact nomatch h

/-- A stretch of @main's operations, in order (31). -/
abbrev opsA2 : List (HloOp τ sig (Elt F)) :=
  [ TRef.nullary main_call2.cst (constant S_ .f32 0xFF800000#32),
    TRef.binary (.of main_v19 : TRef sig ⟨S8192x8192, .f32⟩) main_call2.cst main_call2.v0 (fun x v => Host.reduce FloatOps.maximumf x v reducesTo_S8192x8192_S8192_d1 h_S_),
    TRef.nullary main_call2.cst_0 (constant S_ .f32 0xFF800000#32),
    TRef.unary main_call2.cst_0 main_call2.v1 (broadcastInDim S8192 ![] bcast_S_S8192),
    TRef.binary main_call2.v1 main_call2.v0 main_call2.v2 maximumf,
    TRef.unary main_call2.v2 main_call2.v3 (broadcastInDim S8192x1 ![0] bcast_S8192_S8192x1_0),
    TRef.unary main_call2.v3 main_call2.v4 (broadcastInDim S8192x8192 ![0, 1] bcast_S8192x1_S8192x8192_0_1),
    TRef.binary (.of main_v19 : TRef sig ⟨S8192x8192, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S8192x8192_S8192_d1 h_S_),
    TRef.unary main_call2.v7 main_call2.v8 (broadcastInDim S8192x1 ![0] bcast_S8192_S8192x1_0),
    TRef.unary main_call2.v8 main_call2.v9 Host.log,
    TRef.unary main_call2.v9 main_call2.v10 (broadcastInDim S8192x8192 ![0, 1] bcast_S8192x1_S8192x8192_0_1),
    TRef.binary main_call2.v5 main_call2.v10 main_call2.v11 subf,
    unary main_v19 main_v21 ((transpose S8192x8192 [1, 0] · transposes_S8192x8192_S8192x8192_1_0) : (⟨S8192x8192, .f32⟩ : BufTy).Contents (Elt F) → (⟨S8192x8192, .f32⟩ : BufTy).Contents (Elt F)),
    TRef.nullary main_call3.cst (constant S_ .f32 0xFF800000#32),
    TRef.binary (.of main_v21 : TRef sig ⟨S8192x8192, .f32⟩) main_call3.cst main_call3.v0 (fun x v => Host.reduce FloatOps.maximumf x v reducesTo_S8192x8192_S8192_d1 h_S_),
    TRef.nullary main_call3.cst_0 (constant S_ .f32 0xFF800000#32),
    TRef.unary main_call3.cst_0 main_call3.v1 (broadcastInDim S8192 ![] bcast_S_S8192),
    TRef.binary main_call3.v1 main_call3.v0 main_call3.v2 maximumf,
    TRef.unary main_call3.v2 main_call3.v3 (broadcastInDim S8192x1 ![0] bcast_S8192_S8192x1_0),
    TRef.unary main_call3.v3 main_call3.v4 (broadcastInDim S8192x8192 ![0, 1] bcast_S8192x1_S8192x8192_0_1),
    TRef.binary (.of main_v21 : TRef sig ⟨S8192x8192, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S8192x8192_S8192_d1 h_S_),
    TRef.unary main_call3.v7 main_call3.v8 (broadcastInDim S8192x1 ![0] bcast_S8192_S8192x1_0),
    TRef.unary main_call3.v8 main_call3.v9 Host.log,
    TRef.unary main_call3.v9 main_call3.v10 (broadcastInDim S8192x8192 ![0, 1] bcast_S8192x1_S8192x8192_0_1),
    TRef.binary main_call3.v5 main_call3.v10 main_call3.v11 subf ]

set_option maxRecDepth 8192 in
theorem opsA2_sub : (opsA2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
theorem opsA2_fresh : ∀ op ∈ (opsA2 : List (HloOp τ sig (Elt F))), op.fresh = ∅ := by
  intro _ h; (repeat (cases h with | head => rfl | tail _ h => ?_)); exact nomatch h

/-- A stretch of @main's operations, in order (16). -/
abbrev opsA3 : List (HloOp τ sig (Elt F)) :=
  [ nullary main_c_1 (constantI S_ 32 0#32),
    unary main_c_1 main_v23 (broadcastInDim S8192 ![] bcast_S_S8192 : (⟨S_, .i32⟩ : BufTy).Contents (Elt F) → (⟨S8192, .i32⟩ : BufTy).Contents (Elt F)),
    binary main_v3 main_v23 main_v24 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v25 (broadcastInDim S8192 ![] bcast_S_S8192 : (⟨S_, .i32⟩ : BufTy).Contents (Elt F) → (⟨S8192, .i32⟩ : BufTy).Contents (Elt F)),
    binary main_v3 main_v25 main_v26 (addi : (⟨S8192, .i32⟩ : BufTy).Contents (Elt F) → (⟨S8192, .i32⟩ : BufTy).Contents (Elt F) → (⟨S8192, .i32⟩ : BufTy).Contents (Elt F)),
    ternary main_v24 main_v26 main_v3 main_v27 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_3 (constantI S_ 32 0#32),
    unary main_c_3 main_v28 (broadcastInDim S8192 ![] bcast_S_S8192 : (⟨S_, .i32⟩ : BufTy).Contents (Elt F) → (⟨S8192, .i32⟩ : BufTy).Contents (Elt F)),
    binary main_v3 main_v28 main_v29 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v30 (broadcastInDim S8192 ![] bcast_S_S8192 : (⟨S_, .i32⟩ : BufTy).Contents (Elt F) → (⟨S8192, .i32⟩ : BufTy).Contents (Elt F)),
    binary main_v3 main_v30 main_v31 (addi : (⟨S8192, .i32⟩ : BufTy).Contents (Elt F) → (⟨S8192, .i32⟩ : BufTy).Contents (Elt F) → (⟨S8192, .i32⟩ : BufTy).Contents (Elt F)),
    ternary main_v29 main_v31 main_v3 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v27 main_v33 (broadcastInDim S8192x1 ![0] bcast_S8192_S8192x1_0 : (⟨S8192, .i32⟩ : BufTy).Contents (Elt F) → (⟨S8192x1, .i32⟩ : BufTy).Contents (Elt F)),
    unary main_v32 main_v34 (broadcastInDim S8192x1 ![0] bcast_S8192_S8192x1_0 : (⟨S8192, .i32⟩ : BufTy).Contents (Elt F) → (⟨S8192x1, .i32⟩ : BufTy).Contents (Elt F)) ]

set_option maxRecDepth 8192 in
theorem opsA3_sub : (opsA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

set_option maxRecDepth 8192 in
theorem opsA3_fresh : ∀ op ∈ (opsA3 : List (HloOp τ sig (Elt F))), op.fresh = ∅ := by
  intro _ h; (repeat (cases h with | head => rfl | tail _ h => ?_)); exact nomatch h

/-- A stretch of @main's operations, in order (18). -/
abbrev opsA4 : List (HloOp τ sig (Elt F)) :=
  [ binary main_v33 main_v34 main_v35 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v20 main_v35 main_v36 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_5 (constant S_ .f32 0x00000000#32),
    binary main_v36 main_cst_5 main_v37 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_6 (constant S_ .f32 0x46000000#32),
    binary main_v37 main_cst_6 main_v38 (Host.divf : (⟨S_, .f32⟩ : BufTy).Contents (Elt F) → (⟨S_, .f32⟩ : BufTy).Contents (Elt F) → (⟨S_, .f32⟩ : BufTy).Contents (Elt F)),
    unary main_v38 main_v39 (Host.negf : (⟨S_, .f32⟩ : BufTy).Contents (Elt F) → (⟨S_, .f32⟩ : BufTy).Contents (Elt F)),
    nullary main_c_7 (constantI S_ 32 0#32),
    unary main_c_7 main_v40 (broadcastInDim S8192 ![] bcast_S_S8192 : (⟨S_, .i32⟩ : BufTy).Contents (Elt F) → (⟨S8192, .i32⟩ : BufTy).Contents (Elt F)),
    binary main_v3 main_v40 main_v41 (cmpi .slt : (⟨S8192, .i32⟩ : BufTy).Contents (Elt F) → (⟨S8192, .i32⟩ : BufTy).Contents (Elt F) → (⟨S8192, .i1⟩ : BufTy).Contents (Elt F)),
    nullary main_c_8 (constantI S_ 32 8192#32),
    unary main_c_8 main_v42 (broadcastInDim S8192 ![] bcast_S_S8192 : (⟨S_, .i32⟩ : BufTy).Contents (Elt F) → (⟨S8192, .i32⟩ : BufTy).Contents (Elt F)),
    binary main_v3 main_v42 main_v43 (addi : (⟨S8192, .i32⟩ : BufTy).Contents (Elt F) → (⟨S8192, .i32⟩ : BufTy).Contents (Elt F) → (⟨S8192, .i32⟩ : BufTy).Contents (Elt F)),
    ternary main_v41 main_v43 main_v3 main_v44 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_9 (constantI S_ 32 0#32),
    unary main_c_9 main_v45 (broadcastInDim S8192 ![] bcast_S_S8192 : (⟨S_, .i32⟩ : BufTy).Contents (Elt F) → (⟨S8192, .i32⟩ : BufTy).Contents (Elt F)),
    binary main_v3 main_v45 main_v46 (cmpi .slt : (⟨S8192, .i32⟩ : BufTy).Contents (Elt F) → (⟨S8192, .i32⟩ : BufTy).Contents (Elt F) → (⟨S8192, .i1⟩ : BufTy).Contents (Elt F)),
    nullary main_c_10 (constantI S_ 32 8192#32) ]

set_option maxRecDepth 8192 in
theorem opsA4_sub : (opsA4 : List (HloOp τ sig (Elt F))).Forall fun op => op.bufs ⊆ tcRefs τ sig :=
  ⟨binary_bufs_sub .., binary_bufs_sub .., nullary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩

set_option maxRecDepth 8192 in
theorem opsA4_fresh : ∀ op ∈ (opsA4 : List (HloOp τ sig (Elt F))), op.fresh = ∅ := by
  intro _ h; (repeat (cases h with | head => rfl | tail _ h => ?_)); exact nomatch h

/-- A stretch of @main's operations, in order (5). -/
abbrev opsB1 : List (HloOp τ sig (Elt F)) :=
  [ unary main_c_10 main_v47 (broadcastInDim S8192 ![] bcast_S_S8192 : (⟨S_, .i32⟩ : BufTy).Contents (Elt F) → (⟨S8192, .i32⟩ : BufTy).Contents (Elt F)),
    binary main_v3 main_v47 main_v48 (addi : (⟨S8192, .i32⟩ : BufTy).Contents (Elt F) → (⟨S8192, .i32⟩ : BufTy).Contents (Elt F) → (⟨S8192, .i32⟩ : BufTy).Contents (Elt F)),
    ternary main_v46 main_v48 main_v3 main_v49 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v44 main_v50 (broadcastInDim S8192x1 ![0] bcast_S8192_S8192x1_0 : (⟨S8192, .i32⟩ : BufTy).Contents (Elt F) → (⟨S8192x1, .i32⟩ : BufTy).Contents (Elt F)),
    unary main_v49 main_v51 (broadcastInDim S8192x1 ![0] bcast_S8192_S8192x1_0 : (⟨S8192, .i32⟩ : BufTy).Contents (Elt F) → (⟨S8192x1, .i32⟩ : BufTy).Contents (Elt F)) ]

set_option maxRecDepth 8192 in
theorem opsB1_sub : (opsB1 : List (HloOp τ sig (Elt F))).Forall fun op => op.bufs ⊆ tcRefs τ sig :=
  ⟨unary_bufs_sub .., binary_bufs_sub .., ternary_bufs_sub .., unary_bufs_sub .., unary_bufs_sub ..⟩

set_option maxRecDepth 8192 in
theorem opsB1_fresh : ∀ op ∈ (opsB1 : List (HloOp τ sig (Elt F))), op.fresh = ∅ := by
  intro _ h; (repeat (cases h with | head => rfl | tail _ h => ?_)); exact nomatch h

/-- A stretch of @main's operations, in order (17). -/
abbrev opsB2 : List (HloOp τ sig (Elt F)) :=
  [ binary main_v50 main_v51 main_v52 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v22 main_v52 main_v53 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_11 (constant S_ .f32 0x00000000#32),
    binary main_v53 main_cst_11 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_12 (constant S_ .f32 0x46000000#32),
    binary main_v54 main_cst_12 main_v55 (Host.divf : (⟨S_, .f32⟩ : BufTy).Contents (Elt F) → (⟨S_, .f32⟩ : BufTy).Contents (Elt F) → (⟨S_, .f32⟩ : BufTy).Contents (Elt F)),
    unary main_v55 main_v56 (Host.negf : (⟨S_, .f32⟩ : BufTy).Contents (Elt F) → (⟨S_, .f32⟩ : BufTy).Contents (Elt F)),
    binary main_v39 main_v56 main_v57 (addf : (⟨S_, .f32⟩ : BufTy).Contents (Elt F) → (⟨S_, .f32⟩ : BufTy).Contents (Elt F) → (⟨S_, .f32⟩ : BufTy).Contents (Elt F)),
    nullary main_cst_13 (constant S_ .f32 0x40000000#32),
    binary main_v57 main_cst_13 main_v58 (Host.divf : (⟨S_, .f32⟩ : BufTy).Contents (Elt F) → (⟨S_, .f32⟩ : BufTy).Contents (Elt F) → (⟨S_, .f32⟩ : BufTy).Contents (Elt F)),
    binary main_v58 main_v58 main_v59 (cmpf .une : (⟨S_, .f32⟩ : BufTy).Contents (Elt F) → (⟨S_, .f32⟩ : BufTy).Contents (Elt F) → (⟨S_, .i1⟩ : BufTy).Contents (Elt F)),
    TRef.unary (.of main_v58 : TRef sig ⟨S_, .f32⟩) main_call4.v0 Host.absf,
    TRef.nullary main_call4.cst (constant S_ .f32 0x7F800000#32),
    TRef.binary main_call4.v0 main_call4.cst main_call4.v1 (cmpf .oeq),
    binary main_v59 main_v60 main_v61 (ori : (⟨S_, .i1⟩ : BufTy).Contents (Elt F) → (⟨S_, .i1⟩ : BufTy).Contents (Elt F) → (⟨S_, .i1⟩ : BufTy).Contents (Elt F)),
    nullary main_cst_14 (constant S_ .f32 0x00000000#32),
    TRef.ternary (.of main_v61 : TRef sig ⟨S_, .i1⟩) (.of main_cst_14 : TRef sig ⟨S_, .f32⟩) (.of main_v58 : TRef sig ⟨S_, .f32⟩) main_call5.v0 select ]

set_option maxRecDepth 8192 in
theorem opsB2_sub : (opsB2 : List (HloOp τ sig (Elt F))).Forall fun op => op.bufs ⊆ tcRefs τ sig :=
  ⟨binary_bufs_sub .., binary_bufs_sub .., nullary_bufs_sub .., binary_bufs_sub .., nullary_bufs_sub .., binary_bufs_sub .., unary_bufs_sub .., binary_bufs_sub .., nullary_bufs_sub .., binary_bufs_sub .., binary_bufs_sub .., unary_bufs_sub .., nullary_bufs_sub .., binary_bufs_sub .., binary_bufs_sub .., nullary_bufs_sub .., ternary_bufs_sub ..⟩

set_option maxRecDepth 8192 in
theorem opsB2_fresh : ∀ op ∈ (opsB2 : List (HloOp τ sig (Elt F))), op.fresh = ∅ := by
  intro _ h; (repeat (cases h with | head => rfl | tail _ h => ?_)); exact nomatch h

/-- The operations of @main's first window. -/
abbrev opsP0 : List (HloOp τ sig (Elt F)) := opsA1 ++ (opsA2 ++ (opsA3 ++ opsA4))
/-- The operations of @main's second window. -/
abbrev opsP1 : List (HloOp τ sig (Elt F)) := opsB1 ++ opsB2
/-- @main's operations, in order. -/
abbrev ops : List (HloOp τ sig (Elt F)) := opsP0 ++ opsP1

set_option maxRecDepth 16384 in
set_option maxHeartbeats 4000000 in
theorem main_part0_eq (c : Dev nD) : main_part0 (F := F) c = seq opsP0 := rfl

set_option maxRecDepth 16384 in
set_option maxHeartbeats 4000000 in
theorem main_part1_eq (c : Dev nD) : main_part1 (F := F) c = seq opsP1 := rfl

theorem main_eq (c : Dev nD) : main (F := F) c = seq ops := by
  simp only [ops, seq_append (opsP0 (F := F)) opsP1, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, opsP0, opsP1, List.mem_append] at h
    rcases h with (h | h | h | h) | h | h
    exacts [List.forall_iff_forall_mem.mp opsA1_sub op h, List.forall_iff_forall_mem.mp opsA2_sub op h,
      List.forall_iff_forall_mem.mp opsA3_sub op h, List.forall_iff_forall_mem.mp opsA4_sub op h,
      List.forall_iff_forall_mem.mp opsB1_sub op h, List.forall_iff_forall_mem.mp opsB2_sub op h]

theorem ops_fresh : ∀ op ∈ (ops : List (HloOp τ sig (Elt F))), op.fresh = ∅ := by
  intro op h
  simp only [ops, opsP0, opsP1, List.mem_append] at h
  rcases h with (h | h | h | h) | h | h
  exacts [opsA1_fresh op h, opsA2_fresh op h, opsA3_fresh op h, opsA4_fresh op h, opsB1_fresh op h, opsB2_fresh op h]

/-- On every device, for any float values, from any memory with zero counters: every weakly fair execution of @main
    terminates, and every final state has each buffer at the fold of the operations' results over its launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefRun.lean ====
import proofs.«116349_j13649406066960_1_alg».proof.Proof.RefTerm
import proofs.«116349_j13649406066960_1_alg».proof.Proof.RefOps

set_option Elab.async false

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-! The fold of @main's operations read back stretch by stretch: after each stretch, the buffers a later stretch (or
the result) reads are at the reference's pure term of the two arguments, and the arguments are unchanged. -/

/-- The device's buffer contents after the first 1 stretch of @main. -/
def val1 (V0 : Valuation τ sig (Elt F)) : Valuation τ sig (Elt F) := after opsA1 V0

set_option maxRecDepth 8192 in
theorem val1_main_arg0 (V0 : Valuation τ sig (Elt F)) : val1 V0 (no_index (Proc.devRef .tc main_arg0)) = V0 (Proc.devRef .tc main_arg0) := by
  unfold val1
  simp only [opsA1]
  after_results_simp

set_option maxRecDepth 8192 in
theorem val1_main_arg1 (V0 : Valuation τ sig (Elt F)) : val1 V0 (no_index (Proc.devRef .tc main_arg1)) = V0 (Proc.devRef .tc main_arg1) := by
  unfold val1
  simp only [opsA1]
  after_results_simp

set_option maxRecDepth 8192 in
set_option maxHeartbeats 2000000 in
theorem val1_main_v3 (V0 : Valuation τ sig (Elt F)) : val1 V0 (no_index (Proc.devRef .tc main_v3)) = rowIds := by
  unfold val1
  simp only [opsA1]
  after_results_simp
  try simp only [TRef.ofBuf, TRef.toBuf, cast_eq]
  all_goals rfl

set_option maxRecDepth 8192 in
set_option maxHeartbeats 2000000 in
theorem val1_main_v19 (V0 : Valuation τ sig (Elt F)) : val1 V0 (no_index (Proc.devRef .tc main_v19)) = logits (V0 (Proc.devRef .tc main_arg0)) (V0 (Proc.devRef .tc main_arg1)) := by
  unfold val1
  simp only [opsA1]
  after_results_simp
  try simp only [TRef.ofBuf, TRef.toBuf, cast_eq]
  all_goals rfl

/-- The device's buffer contents after the first 2 stretches of @main. -/
def val2 (V0 : Valuation τ sig (Elt F)) : Valuation τ sig (Elt F) := after opsA2 (val1 V0)

set_option maxRecDepth 8192 in
theorem val2_main_arg0 (V0 : Valuation τ sig (Elt F)) : val2 V0 (no_index (Proc.devRef .tc main_arg0)) = V0 (Proc.devRef .tc main_arg0) := by
  unfold val2
  simp only [opsA2]
  after_results_simp
  exact val1_main_arg0 V0

set_option maxRecDepth 8192 in
theorem val2_main_arg1 (V0 : Valuation τ sig (Elt F)) : val2 V0 (no_index (Proc.devRef .tc main_arg1)) = V0 (Proc.devRef .tc main_arg1) := by
  unfold val2
  simp only [opsA2]
  after_results_simp
  exact val1_main_arg1 V0

set_option maxRecDepth 8192 in
theorem val2_main_v3 (V0 : Valuation τ sig (Elt F)) : val2 V0 (no_index (Proc.devRef .tc main_v3)) = rowIds := by
  unfold val2
  simp only [opsA2]
  after_results_simp
  exact val1_main_v3 V0

set_option maxRecDepth 8192 in
set_option maxHeartbeats 2000000 in
theorem val2_main_v20 (V0 : Valuation τ sig (Elt F)) : val2 V0 (no_index (Proc.devRef .tc main_v20)) = logSoftmax (logits (V0 (Proc.devRef .tc main_arg0)) (V0 (Proc.devRef .tc main_arg1))) := by
  unfold val2
  simp only [opsA2]
  after_results_simp
  try simp only [TRef.ofBuf, TRef.toBuf, cast_eq, val1_main_arg0, val1_main_arg1, val1_main_v3, val1_main_v19]
  all_goals rfl

set_option maxRecDepth 8192 in
set_option maxHeartbeats 2000000 in
theorem val2_main_v22 (V0 : Valuation τ sig (Elt F)) : val2 V0 (no_index (Proc.devRef .tc main_v22)) = logSoftmax (transpose S8192x8192 [1, 0] (logits (V0 (Proc.devRef .tc main_arg0)) (V0 (Proc.devRef .tc main_arg1))) transposes_S8192x8192_S8192x8192_1_0) := by
  unfold val2
  simp only [opsA2]
  after_results_simp
  try simp only [TRef.ofBuf, TRef.toBuf, cast_eq, val1_main_arg0, val1_main_arg1, val1_main_v3, val1_main_v19]
  all_goals rfl

/-- The device's buffer contents after the first 3 stretches of @main. -/
def val3 (V0 : Valuation τ sig (Elt F)) : Valuation τ sig (Elt F) := after opsA3 (val2 V0)

set_option maxRecDepth 8192 in
theorem val3_main_arg0 (V0 : Valuation τ sig (Elt F)) : val3 V0 (no_index (Proc.devRef .tc main_arg0)) = V0 (Proc.devRef .tc main_arg0) := by
  unfold val3
  simp only [opsA3]
  after_results_simp
  exact val2_main_arg0 V0

set_option maxRecDepth 8192 in
theorem val3_main_arg1 (V0 : Valuation τ sig (Elt F)) : val3 V0 (no_index (Proc.devRef .tc main_arg1)) = V0 (Proc.devRef .tc main_arg1) := by
  unfold val3
  simp only [opsA3]
  after_results_simp
  exact val2_main_arg1 V0

set_option maxRecDepth 8192 in
theorem val3_main_v3 (V0 : Valuation τ sig (Elt F)) : val3 V0 (no_index (Proc.devRef .tc main_v3)) = rowIds := by
  unfold val3
  simp only [opsA3]
  after_results_simp
  exact val2_main_v3 V0

set_option maxRecDepth 8192 in
theorem val3_main_v20 (V0 : Valuation τ sig (Elt F)) : val3 V0 (no_index (Proc.devRef .tc main_v20)) = logSoftmax (logits (V0 (Proc.devRef .tc main_arg0)) (V0 (Proc.devRef .tc main_arg1))) := by
  unfold val3
  simp only [opsA3]
  after_results_simp
  exact val2_main_v20 V0

set_option maxRecDepth 8192 in
theorem val3_main_v22 (V0 : Valuation τ sig (Elt F)) : val3 V0 (no_index (Proc.devRef .tc main_v22)) = logSoftmax (transpose S8192x8192 [1, 0] (logits (V0 (Proc.devRef .tc main_arg0)) (V0 (Proc.devRef .tc main_arg1))) transposes_S8192x8192_S8192x8192_1_0) := by
  unfold val3
  simp only [opsA3]
  after_results_simp
  exact val2_main_v22 V0

set_option maxRecDepth 8192 in
set_option maxHeartbeats 2000000 in
theorem val3_main_v33 (V0 : Valuation τ sig (Elt F)) : val3 V0 (no_index (Proc.devRef .tc main_v33)) = broadcastInDim S8192x1 ![0] bcast_S8192_S8192x1_0 (wrapIds rowIds) := by
  unfold val3
  simp only [opsA3]
  after_results_simp
  try simp only [TRef.ofBuf, TRef.toBuf, cast_eq, val2_main_arg0, val2_main_arg1, val2_main_v3, val2_main_v20, val2_main_v22]
  all_goals rfl

set_option maxRecDepth 8192 in
set_option maxHeartbeats 2000000 in
theorem val3_main_v34 (V0 : Valuation τ sig (Elt F)) : val3 V0 (no_index (Proc.devRef .tc main_v34)) = broadcastInDim S8192x1 ![0] bcast_S8192_S8192x1_0 (wrapIds rowIds) := by
  unfold val3
  simp only [opsA3]
  after_results_simp
  try simp only [TRef.ofBuf, TRef.toBuf, cast_eq, val2_main_arg0, val2_main_arg1, val2_main_v3, val2_main_v20, val2_main_v22]
  all_goals rfl

/-- The device's buffer contents after the first 4 stretches of @main. -/
def val4 (V0 : Valuation τ sig (Elt F)) : Valuation τ sig (Elt F) := after opsA4 (val3 V0)

set_option maxRecDepth 8192 in
theorem val4_main_arg0 (V0 : Valuation τ sig (Elt F)) : val4 V0 (no_index (Proc.devRef .tc main_arg0)) = V0 (Proc.devRef .tc main_arg0) := by
  unfold val4
  simp only [opsA4]
  after_results_simp
  exact val3_main_arg0 V0

set_option maxRecDepth 8192 in
theorem val4_main_arg1 (V0 : Valuation τ sig (Elt F)) : val4 V0 (no_index (Proc.devRef .tc main_arg1)) = V0 (Proc.devRef .tc main_arg1) := by
  unfold val4
  simp only [opsA4]
  after_results_simp
  exact val3_main_arg1 V0

set_option maxRecDepth 8192 in
theorem val4_main_v3 (V0 : Valuation τ sig (Elt F)) : val4 V0 (no_index (Proc.devRef .tc main_v3)) = rowIds := by
  unfold val4
  simp only [opsA4]
  after_results_simp
  exact val3_main_v3 V0

set_option maxRecDepth 8192 in
theorem val4_main_v22 (V0 : Valuation τ sig (Elt F)) : val4 V0 (no_index (Proc.devRef .tc main_v22)) = logSoftmax (transpose S8192x8192 [1, 0] (logits (V0 (Proc.devRef .tc main_arg0)) (V0 (Proc.devRef .tc main_arg1))) transposes_S8192x8192_S8192x8192_1_0) := by
  unfold val4
  simp only [opsA4]
  after_results_simp
  exact val3_main_v22 V0

set_option maxRecDepth 8192 in
set_option maxHeartbeats 2000000 in
theorem val4_main_v39 (V0 : Valuation τ sig (Elt F)) : val4 V0 (no_index (Proc.devRef .tc main_v39)) = negMeanAt (logSoftmax (logits (V0 (Proc.devRef .tc main_arg0)) (V0 (Proc.devRef .tc main_arg1)))) (wrapIds rowIds) (wrapIds rowIds) := by
  unfold val4
  simp only [opsA4]
  after_results_simp
  try simp only [TRef.ofBuf, TRef.toBuf, cast_eq, val3_main_arg0, val3_main_arg1, val3_main_v3, val3_main_v20, val3_main_v22, val3_main_v33, val3_main_v34]
  all_goals rfl

set_option maxRecDepth 8192 in
set_option maxHeartbeats 2000000 in
theorem val4_main_v44 (V0 : Valuation τ sig (Elt F)) : val4 V0 (no_index (Proc.devRef .tc main_v44)) = wrapIds rowIds := by
  unfold val4
  simp only [opsA4]
  after_results_simp
  try simp only [TRef.ofBuf, TRef.toBuf, cast_eq, val3_main_arg0, val3_main_arg1, val3_main_v3, val3_main_v20, val3_main_v22, val3_main_v33, val3_main_v34]
  all_goals rfl

set_option maxRecDepth 8192 in
set_option maxHeartbeats 2000000 in
theorem val4_main_v46 (V0 : Valuation τ sig (Elt F)) : val4 V0 (no_index (Proc.devRef .tc main_v46)) = cmpi .slt rowIds (broadcastInDim S8192 ![] bcast_S_S8192 (constantI S_ 32 0#32)) := by
  unfold val4
  simp only [opsA4]
  after_results_simp
  try simp only [TRef.ofBuf, TRef.toBuf, cast_eq, val3_main_arg0, val3_main_arg1, val3_main_v3, val3_main_v20, val3_main_v22, val3_main_v33, val3_main_v34]
  all_goals rfl

set_option maxRecDepth 8192 in
set_option maxHeartbeats 2000000 in
theorem val4_main_c_10 (V0 : Valuation τ sig (Elt F)) : val4 V0 (no_index (Proc.devRef .tc main_c_10)) = constantI S_ 32 8192#32 := by
  unfold val4
  simp only [opsA4]
  after_results_simp
  try simp only [TRef.ofBuf, TRef.toBuf, cast_eq, val3_main_arg0, val3_main_arg1, val3_main_v3, val3_main_v20, val3_main_v22, val3_main_v33, val3_main_v34]
  all_goals rfl

/-- The device's buffer contents after the first 5 stretches of @main. -/
def val5 (V0 : Valuation τ sig (Elt F)) : Valuation τ sig (Elt F) := after opsB1 (val4 V0)

set_option maxRecDepth 8192 in
theorem val5_main_arg0 (V0 : Valuation τ sig (Elt F)) : val5 V0 (no_index (Proc.devRef .tc main_arg0)) = V0 (Proc.devRef .tc main_arg0) := by
  unfold val5
  simp only [opsB1]
  after_results_simp
  exact val4_main_arg0 V0

set_option maxRecDepth 8192 in
theorem val5_main_arg1 (V0 : Valuation τ sig (Elt F)) : val5 V0 (no_index (Proc.devRef .tc main_arg1)) = V0 (Proc.devRef .tc main_arg1) := by
  unfold val5
  simp only [opsB1]
  after_results_simp
  exact val4_main_arg1 V0

set_option maxRecDepth 8192 in
theorem val5_main_v22 (V0 : Valuation τ sig (Elt F)) : val5 V0 (no_index (Proc.devRef .tc main_v22)) = logSoftmax (transpose S8192x8192 [1, 0] (logits (V0 (Proc.devRef .tc main_arg0)) (V0 (Proc.devRef .tc main_arg1))) transposes_S8192x8192_S8192x8192_1_0) := by
  unfold val5
  simp only [opsB1]
  after_results_simp
  exact val4_main_v22 V0

set_option maxRecDepth 8192 in
theorem val5_main_v39 (V0 : Valuation τ sig (Elt F)) : val5 V0 (no_index (Proc.devRef .tc main_v39)) = negMeanAt (logSoftmax (logits (V0 (Proc.devRef .tc main_arg0)) (V0 (Proc.devRef .tc main_arg1)))) (wrapIds rowIds) (wrapIds rowIds) := by
  unfold val5
  simp only [opsB1]
  after_results_simp
  exact val4_main_v39 V0

set_option maxRecDepth 8192 in
set_option maxHeartbeats 2000000 in
theorem val5_main_v50 (V0 : Valuation τ sig (Elt F)) : val5 V0 (no_index (Proc.devRef .tc main_v50)) = broadcastInDim S8192x1 ![0] bcast_S8192_S8192x1_0 (wrapIds rowIds) := by
  unfold val5
  simp only [opsB1]
  after_results_simp
  try simp only [TRef.ofBuf, TRef.toBuf, cast_eq, val4_main_arg0, val4_main_arg1, val4_main_v3, val4_main_v22, val4_main_v39, val4_main_v44, val4_main_v46, val4_main_c_10]
  all_goals rfl

set_option maxRecDepth 8192 in
set_option maxHeartbeats 2000000 in
theorem val5_main_v51 (V0 : Valuation τ sig (Elt F)) : val5 V0 (no_index (Proc.devRef .tc main_v51)) = broadcastInDim S8192x1 ![0] bcast_S8192_S8192x1_0 (wrapIds rowIds) := by
  unfold val5
  simp only [opsB1]
  after_results_simp
  try simp only [TRef.ofBuf, TRef.toBuf, cast_eq, val4_main_arg0, val4_main_arg1, val4_main_v3, val4_main_v22, val4_main_v39, val4_main_v44, val4_main_v46, val4_main_c_10]
  all_goals rfl

/-- The device's buffer contents after the first 6 stretches of @main. -/
def val6 (V0 : Valuation τ sig (Elt F)) : Valuation τ sig (Elt F) := after opsB2 (val5 V0)

set_option maxRecDepth 8192 in
theorem val6_main_arg0 (V0 : Valuation τ sig (Elt F)) : val6 V0 (no_index (Proc.devRef .tc main_arg0)) = V0 (Proc.devRef .tc main_arg0) := by
  unfold val6
  simp only [opsB2]
  after_results_simp
  exact val5_main_arg0 V0

set_option maxRecDepth 8192 in
theorem val6_main_arg1 (V0 : Valuation τ sig (Elt F)) : val6 V0 (no_index (Proc.devRef .tc main_arg1)) = V0 (Proc.devRef .tc main_arg1) := by
  unfold val6
  simp only [opsB2]
  after_results_simp
  exact val5_main_arg1 V0

set_option maxRecDepth 8192 in
set_option maxHeartbeats 2000000 in
theorem val6_main_v62 (V0 : Valuation τ sig (Elt F)) : val6 V0 (no_index (Proc.devRef .tc main_v62)) = refTerm (V0 (Proc.devRef .tc main_arg0)) (V0 (Proc.devRef .tc main_arg1)) := by
  unfold val6
  simp only [opsB2]
  after_results_simp
  try simp only [TRef.ofBuf, TRef.toBuf, cast_eq, val5_main_arg0, val5_main_arg1, val5_main_v22, val5_main_v39, val5_main_v50, val5_main_v51]
  all_goals rfl

theorem after_ops (V0 : Valuation τ sig (Elt F)) : after ops V0 = val6 V0 := by
  simp only [ops, opsP0, opsP1, StableHlo.after_append]
  rfl

/-- On every device, for any float values, from any memory with zero counters: every weakly fair execution of @main
    terminates with the result buffer at the reference's pure term of the arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v62)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v62).trans (by rw [after_ops]; exact val6_main_v62 (launchContents m c)),
       (h c main_arg0).trans (by rw [after_ops]; exact val6_main_arg0 (launchContents m c)),
       (h c main_arg1).trans (by rw [after_ops]; exact val6_main_arg1 (launchContents m c))⟩)
    (run_main m ρ)

end Cert.ReferenceIdeal.Hand

end
-- ==== Proof.RefSoft.lean ====
/-
  The reference's log-softmax and its negated diagonal mean, read at the ideal instance.

  Along each row the log-softmax of a score matrix is the entry less the row's maximum (taken once more against −∞), less
  the logarithm of the row's sum of exponentials of those differences. The negated diagonal mean gathers the entries
  at the index pairs (r, r) — each coordinate the row number, which the wrap of negative numbers keeps —, sums them from
  zero, divides by the row count and negates.

  First the operations read at an index, over matrices of any extents; then the two stretches of the reference.
-/
import proofs.«116349_j13649406066960_1_alg».proof.Proof.RefTerm
import proofs.«116349_j13649406066960_1_alg».proof.Proof.Spec
import proofs.«116349_j13649406066960_1_alg».proof.Proof.Consts
import Idealize.ShloMosaic.Lib.IdealHost
import Idealize.ShloMosaic.Lib.ValueIdx
import Idealize.ShloMosaic.Lib.Pipeline.Value
import Idealize.ShloMosaic.Lib.StableHlo.Predicate
import Idealize.ShloMosaic.PureOps.Reduce
import Idealize.ShloMosaic.PureOps.Ideal.Laws

noncomputable section

namespace Cert.ReferenceIdeal.Hand

open Cert.ReferenceIdeal Idealize.ShloMosaic Idealize.ShloMosaic.ValueIdx
open Facts₀ Facts

/-! ## Operations read at an index -/

section Pieces
variable {n m : Nat} {α : Type}

/-- A row index with the column put back is the pair. -/
theorem lift_row (h : (⟨2, ![n, m]⟩ : Shape).Reduces [1] (⟨1, ![n]⟩ : Shape)) (i : Fin n)
    (k : Fin ((⟨2, ![n, m]⟩ : Shape).size 1)) : h.lift (ix1 i) k = ix2 i (⟨k.val, k.isLt⟩ : Fin m) := by
  funext c; apply Fin.ext
  fin_cases c <;> rfl

/-- The maximum-reduction of a matrix along its rows, at row `i`: the fold of `max` over the row from the initial value. -/
theorem rowMax_apply (L : FVec Ideal ⟨2, ![n, m]⟩ .f32) (init : FVec Ideal ⟨0, ![]⟩ .f32)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (i : Fin n) :
    Host.reduce FloatOps.maximumf L init h' hu (ix1 i)
      = (Finset.univ : Finset (Fin m)).fold max (init (Shape.Idx.first hu)) (fun k => L (ix2 i k)) := by
  rw [Host.reduce_eq_fold_single FloatOps.maximumf L init h' h hu]
  have hf : (L ∘ h.lift (ix1 i)) = fun k : Fin m => L (ix2 i k) := funext fun k => congrArg L (lift_row h i k)
  exact congrArg (fun f => Finset.fold max (init (Shape.Idx.first hu)) f (Finset.univ : Finset (Fin m))) hf

/-- The sum-reduction of a matrix along its rows, at row `i`: the initial value plus the sum over the row. -/
theorem rowSum_apply (E : FVec Ideal ⟨2, ![n, m]⟩ .f32) (init : FVec Ideal ⟨0, ![]⟩ .f32)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (i : Fin n) :
    Host.reduceAdd E init h' hu (ix1 i) = init (Shape.Idx.first hu) + ∑ k : Fin m, E (ix2 i k) := by
  rw [hostReduceAdd_apply, Ideal.hostReduceAdd_single h' h]
  refine congrArg (fun z => init (Shape.Idx.first hu) + z) ?_
  exact Finset.sum_congr rfl fun k _ => congrArg E (lift_row h i k)

/-- A vector as a column, read at `(p, 0)`. -/
theorem col_of_vec_apply (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  refine broadcastInDim_apply _ h₁ v _ (ix1 p) fun a => ?_
  match a with
  | ⟨0, _⟩ =>
    show p.val = if n = 1 then 0 else p.val
    split
    · have := p.isLt; omega
    · rfl

/-- A column laid along the rows of a matrix, read at `(p, q)`. -/
theorem mat_of_col_apply (h₂ : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h₂ v (ix2 p q) = v (ix2 p (0 : Fin 1)) := by
  refine broadcastInDim_apply _ h₂ v _ (ix2 p (0 : Fin 1)) fun a => ?_
  match a with
  | ⟨0, _⟩ =>
    show p.val = if n = 1 then 0 else p.val
    split
    · have := p.isLt; omega
    · rfl
  | ⟨1, _⟩ =>
    show (0 : Nat) = if (1 : Nat) = 1 then 0 else q.val
    rfl

/-- A sum over the indices of a vector is the sum over its one coordinate. -/
theorem sum_ix1 {M : Type*} [AddCommMonoid M] (f : (⟨1, ![n]⟩ : Shape).Idx → M) : ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

end Pieces

section Pieces2
variable {n m : Nat} {α : Type}

/-- A small row number is not negative as a signed word, so the wrap keeps it. -/
theorem wrap_keep (r : Nat) (hr : r < 2 ^ 31) (z : BitVec 32) :
    Scalar.select (IntOp.cmpi .slt (BitVec.ofNat 32 r) 0#32) z (BitVec.ofNat 32 r) = BitVec.ofNat 32 r := by
  have h0 : IntOp.cmpi .slt (BitVec.ofNat 32 r) 0#32 = 0#1 := by
    apply eq_zero_of_ne_one
    intro h
    have := (StableHlo.Predicate.slt_ofNat_iff r 0 hr (by decide)).mp h
    omega
  rw [h0, select_zero]

/-- Two columns side by side, read in the first column. -/
theorem concat_cols_left (h : Shape.Concatenates [(⟨2, ![n, 1]⟩ : Shape), (⟨2, ![n, 1]⟩ : Shape)] (⟨2, ![n, 2]⟩ : Shape) 1)
    (x₁ x₂ : (⟨2, ![n, 1]⟩ : Shape).Idx → α) (p : Fin n) :
    concatenate (⟨2, ![n, 2]⟩ : Shape) 1 [⟨(⟨2, ![n, 1]⟩ : Shape), x₁⟩, ⟨(⟨2, ![n, 1]⟩ : Shape), x₂⟩] h (ix2 p (0 : Fin 2))
      = x₁ (ix2 p (0 : Fin 1)) := by
  refine concatenate_pair_apply_left (1 : Fin 2) x₁ x₂ h (ix2 p (0 : Fin 2)) rfl (ix2 p (0 : Fin 1)) fun b => ?_
  match b with
  | ⟨0, _⟩ => rfl
  | ⟨1, _⟩ => rfl

/-- Two columns side by side, read in the second column. -/
theorem concat_cols_right (h : Shape.Concatenates [(⟨2, ![n, 1]⟩ : Shape), (⟨2, ![n, 1]⟩ : Shape)] (⟨2, ![n, 2]⟩ : Shape) 1)
    (x₁ x₂ : (⟨2, ![n, 1]⟩ : Shape).Idx → α) (p : Fin n) :
    concatenate (⟨2, ![n, 2]⟩ : Shape) 1 [⟨(⟨2, ![n, 1]⟩ : Shape), x₁⟩, ⟨(⟨2, ![n, 1]⟩ : Shape), x₂⟩] h (ix2 p (1 : Fin 2))
      = x₂ (ix2 p (0 : Fin 1)) := by
  refine concatenate_pair_apply_right (1 : Fin 2) x₁ x₂ h (ix2 p (1 : Fin 2)) rfl rfl (ix2 p (0 : Fin 1)) (fun b hb => ?_) rfl
  match b with
  | ⟨0, _⟩ => rfl
  | ⟨1, _⟩ => exact absurd rfl hb

/-- The gather of single entries of a matrix at a table of index pairs, read at row `p`: the entry at the pair in row `p`
    of the table, each coordinate read signed and clamped into the matrix. -/
theorem gather_pairs {N M w : Nat} (d : GatherDims (⟨2, ![N, M]⟩ : Shape) (⟨2, ![n, 2]⟩ : Shape) (⟨1, ![n]⟩ : Shape))
    (hcoll : d.collapsedSliceDims = [0, 1]) (hob : d.operandBatchingDims = [])
    (hsim : d.startIndexMap = [0, 1]) (hivd : d.indexVectorDim = 1)
    (x : (⟨2, ![N, M]⟩ : Shape).Idx → α) (idx : IVec (⟨2, ![n, 2]⟩ : Shape) w) (p : Fin n) (hN : 0 < N) (hM : 0 < M) :
    Host.gather d x idx (ix1 p)
      = x (ix2 (⟨min (idx (ix2 p (0 : Fin 2))).toInt.toNat (N - 1), by omega⟩ : Fin N)
               (⟨min (idx (ix2 p (1 : Fin 2))).toInt.toNat (M - 1), by omega⟩ : Fin M)) := by
  unfold Host.gather
  congr 1
  funext a
  apply Fin.ext
  have hb : a ∉ d.operandBatchingDims := by rw [hob]; exact List.not_mem_nil
  have hk : a ∉ d.sKept := by
    rw [GatherDims.mem_sKept, hcoll]
    match a with
    | ⟨0, _⟩ => simp
    | ⟨1, _⟩ => simp
  have hm : a ∈ d.startIndexMap := by
    rw [hsim]
    match a with
    | ⟨0, _⟩ => simp
    | ⟨1, _⟩ => simp
  have hsl : d.sliceSizes a = 1 := d.slice_collapsed a (by
    rw [hcoll]
    match a with
    | ⟨0, _⟩ => simp
    | ⟨1, _⟩ => simp)
  simp only [GatherDims.operandIdx, GatherDims.batchCoord_eq_zero _ _ _ hb, GatherDims.offCoord_eq_zero _ _ _ hk,
    Nat.add_zero, GatherDims.start, dif_pos hm]
  rw [hsl]
  -- the start-indices index read for component `c` of row `p` is `(p, c)`
  have hsi : ∀ (c : Fin d.startIndexMap.length) (c' : Fin 2), c.val = c'.val → d.siIdx (ix1 p) c = ix2 p c' := by
    intro c c' hc
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      exact hc
  match a with
  | ⟨0, _⟩ =>
    rw [hsi _ (0 : Fin 2) (by show List.idxOf (0 : Fin 2) d.startIndexMap = 0; rw [hsim]; simp)]
    rfl
  | ⟨1, _⟩ =>
    rw [hsi _ (1 : Fin 2) (by show List.idxOf (1 : Fin 2) d.startIndexMap = 1; rw [hsim]; simp)]
    rfl

/-- The same with the two clamped coordinates named. -/
theorem gather_pairs_at {N M w : Nat} (d : GatherDims (⟨2, ![N, M]⟩ : Shape) (⟨2, ![n, 2]⟩ : Shape) (⟨1, ![n]⟩ : Shape))
    (hcoll : d.collapsedSliceDims = [0, 1]) (hob : d.operandBatchingDims = [])
    (hsim : d.startIndexMap = [0, 1]) (hivd : d.indexVectorDim = 1)
    (x : (⟨2, ![N, M]⟩ : Shape).Idx → α) (idx : IVec (⟨2, ![n, 2]⟩ : Shape) w) (p : Fin n) (hN : 0 < N) (hM : 0 < M)
    (a : Fin N) (b : Fin M) (ha : min (idx (ix2 p (0 : Fin 2))).toInt.toNat (N - 1) = a.val)
    (hb : min (idx (ix2 p (1 : Fin 2))).toInt.toNat (M - 1) = b.val) :
    Host.gather d x idx (ix1 p) = x (ix2 a b) := by
  rw [gather_pairs d hcoll hob hsim hivd x idx p hN hM]
  refine congrArg x (funext fun c => ?_)
  match c with
  | ⟨0, _⟩ => exact Fin.ext ha
  | ⟨1, _⟩ => exact Fin.ext hb

end Pieces2

/-! ## The reference's stretches -/

section AtIdeal
variable [Facts]

/-- The wrapped row numbers are the row numbers. -/
theorem wrapIds_rowIds_apply (r : Fin 8192) : wrapIds rowIds (ix1 r) = BitVec.ofNat 32 r.val :=
  wrap_keep r.val (by have := r.isLt; omega) _

/-- The log-softmax along row `i`, at column `j`. -/
theorem logSoftmax_apply (L : FVec Ideal S8192x8192 .f32) (i j : Fin 8192) :
    logSoftmax (F := Ideal) L (ix2 i j)
      = (L (ix2 i j) - Cert.Loss.rmax (fun a b => L (ix2 a b)) i)
          - Ideal.log (0 + ∑ j' : Fin 8192, Ideal.exp (L (ix2 i j') - Cert.Loss.rmax (fun a b => L (ix2 a b)) i)) := by
  -- the row maximum, laid along the row
  have hmax : ∀ q : Fin 8192,
      (broadcastInDim S8192x8192 ![0, 1] bcast_S8192x1_S8192x8192_0_1
        (broadcastInDim S8192x1 ![0] bcast_S8192_S8192x1_0
          (maximumf (broadcastInDim S8192 ![] bcast_S_S8192 (constant (F := Ideal) S_ .f32 0xFF800000#32))
            (Host.reduce FloatOps.maximumf L (constant (F := Ideal) S_ .f32 0xFF800000#32)
              reducesTo_S8192x8192_S8192_d1 h_S_))) : FVec Ideal S8192x8192 .f32) (ix2 i q)
        = Cert.Loss.rmax (fun a b => L (ix2 a b)) i := by
    intro q
    rw [mat_of_col_apply, col_of_vec_apply, maximumf_apply, broadcastInDim_scalar_apply,
      rowMax_apply L _ reducesTo_S8192x8192_S8192_d1 (by decide) h_S_ i]
    simp only [constant_apply, Cert.Consts.ofBits_neg_inf]
    rfl
  show subf (subf L _)
      (broadcastInDim S8192x8192 ![0, 1] bcast_S8192x1_S8192x8192_0_1
        (Host.log (broadcastInDim S8192x1 ![0] bcast_S8192_S8192x1_0
          (Host.reduceAdd (Host.exp (subf L _)) (constant (F := Ideal) S_ .f32 0x00000000#32)
            reducesTo_S8192x8192_S8192_d1 h_S_)))) (ix2 i j) = _
  rw [subf_apply, subf_apply, hmax j, mat_of_col_apply]
  show _ - FloatOps.hostUnary .log (broadcastInDim (s := S8192) S8192x1 ![0] bcast_S8192_S8192x1_0 _ (ix2 i (0 : Fin 1))) = _
  rw [Ideal.hostUnary_log_def, col_of_vec_apply, rowSum_apply _ _ reducesTo_S8192x8192_S8192_d1 (by decide) h_S_ i,
    constant_apply, Ideal.ofBits_zero_f32]
  refine congrArg (fun z : EReal => (L (ix2 i j) - Cert.Loss.rmax (fun a b => L (ix2 a b)) i) - Ideal.log (0 + z)) ?_
  refine Finset.sum_congr rfl fun k _ => ?_
  show FloatOps.hostUnary .exp (subf L _ (ix2 i k)) = _
  rw [Ideal.hostUnary_exp_def, subf_apply, hmax k]

/-- The negated mean of the diagonal: the entries at the index pairs `(r, r)` gathered, summed from zero, divided by the
    row count, negated. -/
theorem negMeanAt_apply (M : FVec Ideal S8192x8192 .f32) (idx : S_.Idx) :
    negMeanAt (F := Ideal) M (wrapIds rowIds) (wrapIds rowIds) idx
      = -(Ideal.div (0 + ∑ r : Fin 8192, M (ix2 r r)) Cert.Loss.rowsE) := by
  have hclamp : ∀ r : Fin 8192, min (BitVec.ofNat 32 r.val).toInt.toNat (8192 - 1) = r.val := by
    intro r
    have hr := r.isLt
    rw [StableHlo.Predicate.toInt_ofNat_small r.val (by omega), Int.toNat_natCast]
    exact Nat.min_eq_left (by omega)
  -- the gathered diagonal
  have hg : ∀ r : Fin 8192,
      Host.gather gather_S8192x8192_S8192x2_S8192_n_01_n_n_01_1_11 M
        (concatenate S8192x2 1
          [⟨S8192x1, broadcastInDim S8192x1 ![0] bcast_S8192_S8192x1_0 (wrapIds rowIds)⟩,
            ⟨S8192x1, broadcastInDim S8192x1 ![0] bcast_S8192_S8192x1_0 (wrapIds rowIds)⟩]
          concatenates_S8192x1_S8192x1_S8192x2_d1) (ix1 r) = M (ix2 r r) := by
    intro r
    refine gather_pairs_at _ rfl rfl rfl rfl M _ r (by decide) (by decide) r r ?_ ?_
    · rw [concat_cols_left, col_of_vec_apply, wrapIds_rowIds_apply]; exact hclamp r
    · rw [concat_cols_right, col_of_vec_apply, wrapIds_rowIds_apply]; exact hclamp r
  unfold negMeanAt Host.negf Host.divf Host.reduceAdd
  simp only [Ideal.hostNegf_def, Ideal.negf_def, Ideal.hostDivf_def, Ideal.hostReduceAdd_def, constant, Ideal.ofBits_def,
    Ideal.ofBits_zero_f32]
  rw [Ideal.hostReduceAdd_total reducesTo_S8192_S_d0 (fun b => b.elim0)]
  unfold Cert.Loss.rowsE
  refine congrArg (fun z => -(Ideal.div (0 + z) _)) ?_
  rw [sum_ix1]
  exact Finset.sum_congr rfl fun r _ => hg r

end AtIdeal

end Cert.ReferenceIdeal.Hand

end
-- ==== Proof.RefMask.lean ====
/-
  The integer side of the reference's score matrix, read at one entry.

  The index words 0 … 8191 are non-negative and small, so every signed reading is the unsigned one. The floor
  division by 16, spelt as a truncating division corrected where the operands' signs differ and the remainder is
  not zero, is on such words the plain quotient: the group of a row. Laid along the rows and along the columns of
  the 8192 × 8192 square, "same group" and "same index" are compared entry by entry; the mask bit "same group and
  not the same index" is 1 exactly on the masked pairs of the specification.
-/
import proofs.«116349_j13649406066960_1_alg».proof.Proof.RefTerm
import proofs.«116349_j13649406066960_1_alg».proof.Proof.Spec
import Idealize.ShloMosaic.Lib.ValueIdx
import Idealize.ShloMosaic.Lib.Affine
import Idealize.ShloMosaic.Lib.StableHlo.Predicate

noncomputable section

namespace Cert.ReferenceIdeal.Hand

open Cert.ReferenceIdeal Idealize.ShloMosaic Idealize.SL.Sem
open Idealize.ShloMosaic.ValueIdx
open Facts₀ Facts

variable [Facts]

/-! ## Words -/

/-- The sign of a 32-bit word read signed: 0, −1 or 1. -/
def sgn (x : BitVec 32) : BitVec 32 := if x = 0 then 0 else if x.msb then -1 else 1

/-- The floor division by 16 on one 32-bit word: the truncating quotient, less one where the operands' signs differ
    and the remainder is not zero. -/
def fdiv16 (w : BitVec 32) : BitVec 32 :=
  Scalar.select
    (IntOp.andi (IntOp.cmpi .ne (sgn w) (sgn 16#32)) (IntOp.cmpi .ne (IntOp.remsi .host w 16#32) 0#32))
    (IntOp.subi (IntOp.divsi .host w 16#32) 1#32)
    (IntOp.divsi .host w 16#32)

/-- A word below 2³¹ divided by 16, signed: no corner is met and the quotient is the naturals'. -/
theorem divsi_sixteen (w : BitVec 32) (hw : w.toNat < 2 ^ 31) : (IntOp.divsi .host w 16#32).toNat = w.toNat / 16 := by
  have hcorner : ¬ IntOp.SDivCorner w 16#32 := IntOp.not_corner_of_pos (by decide)
  have hm : w.msb = false := BitVec.msb_eq_false_iff_two_mul_lt.mpr (by omega)
  simp only [IntOp.divsi, if_neg hcorner, BitVec.sdiv_eq, hm, show (16#32 : BitVec 32).msb = false from by decide, BitVec.udiv_eq,
    BitVec.toNat_udiv, BitVec.toNat_ofNat]

/-- A positive word below 2³¹ has sign 1. -/
theorem sgn_of_pos (w : BitVec 32) (h0 : 0 < w.toNat) (hw : w.toNat < 2 ^ 31) : sgn w = 1#32 := by
  unfold sgn
  have hne : ¬ w = 0 := by intro h; subst h; simp at h0
  have hm : w.msb = false := BitVec.msb_eq_false_iff_two_mul_lt.mpr (by omega)
  rw [if_neg hne, hm]; rfl

/-- The floor quotient of the word of a small natural is the word of the quotient: the correction never applies. -/
theorem fdiv16_ofNat (n : Nat) (hn : n < 8192) : fdiv16 (BitVec.ofNat 32 n) = BitVec.ofNat 32 (n / 16) := by
  have ht : (BitVec.ofNat 32 n).toNat = n := by rw [BitVec.toNat_ofNat]; omega
  have hq : IntOp.divsi .host (BitVec.ofNat 32 n) 16#32 = BitVec.ofNat 32 (n / 16) := by
    apply BitVec.eq_of_toNat_eq
    rw [divsi_sixteen _ (by rw [ht]; omega), ht, BitVec.toNat_ofNat]; omega
  rcases Nat.eq_zero_or_pos n with h0 | hpos
  · subst h0; decide
  · unfold fdiv16
    rw [hq, sgn_of_pos _ (by rw [ht]; exact hpos) (by rw [ht]; omega)]
    have h1 : IntOp.cmpi .ne (1#32 : BitVec 32) (sgn 16#32) = 0#1 := by decide
    rw [h1]
    have h2 : ∀ b : BitVec 1, IntOp.andi 0#1 b = 0#1 := fun b => by revert b; decide
    rw [h2, select_zero]

/-- Words of small naturals are equal exactly when the naturals are. -/
theorem ofNat_inj_small (m n : Nat) (hm : m < 8192) (hn : n < 8192) : BitVec.ofNat 32 m = BitVec.ofNat 32 n ↔ m = n := by
  constructor
  · intro h
    have := congrArg BitVec.toNat h
    rw [BitVec.toNat_ofNat, BitVec.toNat_ofNat] at this
    omega
  · rintro rfl; rfl

/-- A select on a bit that is 1 exactly when P holds is the choice on P. -/
theorem select_of_iff {α : Type} {c : BitVec 1} {P : Prop} [Decidable P] (h : c = 1#1 ↔ P) (a b : α) :
    Scalar.select c a b = if P then a else b := by
  unfold Scalar.select
  by_cases hp : P
  · rw [if_pos hp]; exact if_pos (h.mpr hp)
  · rw [if_neg hp]; exact if_neg fun hc => hp (h.mp hc)

/-! ## A vector laid along the rows, and along the columns, of the square -/

/-- A vector as a column, then repeated along each row, reads at (i, j) the vector at i. -/
theorem rows_apply {α : Type} (v : S8192.Idx → α) (i j : Fin 8192) :
    broadcastInDim S8192x8192 ![0, 1] bcast_S8192x1_S8192x8192_0_1 (broadcastInDim S8192x1 ![0] bcast_S8192_S8192x1_0 v) (ix2 i j)
      = v (ix1 i) := by
  have e : (ix2 i j : S8192x8192.Idx) = StableHlo.Predicate.ij i j := by
    funext d; match d with | ⟨0, _⟩ => rfl | ⟨1, _⟩ => rfl
  have e1 : (Shape.Idx.ofFin i : S8192.Idx) = ix1 i := by
    funext d; match d with | ⟨0, _⟩ => rfl
  rw [e]
  exact (StableHlo.Predicate.bcast_rows bcast_S8192_S8192x1_0 bcast_S8192x1_S8192x8192_0_1 v i j).trans (congrArg v e1)

/-- A vector as a row, then repeated down each column, reads at (i, j) the vector at j. -/
theorem cols_apply {α : Type} (v : S8192.Idx → α) (i j : Fin 8192) :
    broadcastInDim S8192x8192 ![0, 1] bcast_S1x8192_S8192x8192_0_1 (broadcastInDim S1x8192 ![1] bcast_S8192_S1x8192_1 v) (ix2 i j)
      = v (ix1 j) := by
  have e : (ix2 i j : S8192x8192.Idx) = StableHlo.Predicate.ij i j := by
    funext d; match d with | ⟨0, _⟩ => rfl | ⟨1, _⟩ => rfl
  have e1 : (Shape.Idx.ofFin j : S8192.Idx) = ix1 j := by
    funext d; match d with | ⟨0, _⟩ => rfl
  rw [e]
  exact (StableHlo.Predicate.bcast_cols bcast_S8192_S1x8192_1 bcast_S1x8192_S8192x8192_0_1 v i j).trans (congrArg v e1)

/-! ## The row numbers, the group numbers and the mask, read at an entry -/

/-- The row number at r is the word of r. -/
theorem rowIds_apply (r : Fin 8192) : rowIds (ix1 r) = BitVec.ofNat 32 r.val := rfl

/-- The group number at r is the floor quotient by 16 of the word at r. -/
theorem blockIds_apply (v3 : IVec S8192 32) (r : Fin 8192) : blockIds v3 (ix1 r) = fdiv16 (v3 (ix1 r)) := rfl

/-- The group number of row r is the word of r / 16. -/
theorem blockIds_rowIds_apply (r : Fin 8192) : blockIds rowIds (ix1 r) = BitVec.ofNat 32 (r.val / 16) := by
  rw [blockIds_apply, rowIds_apply, fdiv16_ofNat r.val r.isLt]

/-- The mask bit at (i, j): the group words of i and j agree and the index words of i and j do not. -/
theorem offDiagInBlock_apply (v3 v4 : IVec S8192 32) (i j : Fin 8192) :
    offDiagInBlock v3 v4 (ix2 i j)
      = IntOp.andi (IntOp.cmpi .eq (v4 (ix1 i)) (v4 (ix1 j))) (~~~ (IntOp.cmpi .eq (v3 (ix1 i)) (v3 (ix1 j)))) := by
  show IntOp.andi
      (IntOp.cmpi .eq
        (broadcastInDim S8192x8192 ![0, 1] bcast_S8192x1_S8192x8192_0_1 (broadcastInDim S8192x1 ![0] bcast_S8192_S8192x1_0 v4) (ix2 i j))
        (broadcastInDim S8192x8192 ![0, 1] bcast_S1x8192_S8192x8192_0_1 (broadcastInDim S1x8192 ![1] bcast_S8192_S1x8192_1 v4) (ix2 i j)))
      (~~~ (IntOp.cmpi .eq
        (broadcastInDim S8192x8192 ![0, 1] bcast_S8192x1_S8192x8192_0_1 (broadcastInDim S8192x1 ![0] bcast_S8192_S8192x1_0 v3) (ix2 i j))
        (broadcastInDim S8192x8192 ![0, 1] bcast_S1x8192_S8192x8192_0_1 (broadcastInDim S1x8192 ![1] bcast_S8192_S1x8192_1 v3) (ix2 i j)))) = _
  rw [rows_apply, cols_apply, rows_apply, cols_apply]

/-- The mask bit at (i, j) is 1 exactly on two different rows of one group of 16. -/
theorem offDiagInBlock_iff (i j : Fin 8192) :
    offDiagInBlock rowIds (blockIds rowIds) (ix2 i j) = 1#1 ↔ Cert.Loss.masked i j := by
  rw [offDiagInBlock_apply, IntOp.andi_eq_one, IntOp.not_eq_one, IntOp.cmpi_eq, IntOp.cmpi_eq, blockIds_rowIds_apply,
    blockIds_rowIds_apply, rowIds_apply, rowIds_apply, ofNat_inj_small _ _ (by have := i.isLt; omega) (by have := j.isLt; omega),
    ofNat_inj_small _ _ i.isLt j.isLt]
  unfold Cert.Loss.masked
  rw [Ne, Fin.ext_iff]

end Cert.ReferenceIdeal.Hand

end
-- ==== Proof.RefLogits.lean ====
/-
  The reference's score matrix, read at one entry.

  Each input of shape 512 × 16 × 128, flattened, is the matrix of its 8192 rows; the contraction over the 128
  features is at (i, j) the inner product of row i of the first input with row j of the second; on two different rows
  of one group of 16 the fill value stands instead; and the whole is divided by the temperature. That is the
  whole-row arrangement's score of the specification.
-/
import proofs.«116349_j13649406066960_1_alg».proof.Proof.RefTerm
import proofs.«116349_j13649406066960_1_alg».proof.Proof.RefMask
import proofs.«116349_j13649406066960_1_alg».proof.Proof.Rows
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.Hand

open Cert.ReferenceIdeal Idealize.ShloMosaic Idealize.SL.Sem
open Idealize.ShloMosaic.ValueIdx
open Facts₀ Facts

variable [Facts]

/-- An input read as 8192 rows of 128 features: row i is entry (i / 16, i % 16). -/
theorem reshape_apply (x : FVec Ideal S512x16x128 .f32) (i : Fin 8192) (k : Fin 128) :
    shapeCast S8192x128 x shapeCasts_S512x16x128_S8192x128 (ix2 i k) = Cert.Loss.rowsOf x i k := by
  unfold Cert.Loss.rowsOf
  refine shapeCast_apply x shapeCasts_S512x16x128_S8192x128 (ix2 i k) _ ?_
  rw [Shape.rowMajor_val_three, Shape.rowMajor_val_two]
  show ((i.val / 16) * 16 + i.val % 16) * 128 + k.val = i.val * 128 + k.val
  omega

/-! ## The contraction's operand indices, axis by axis -/

theorem lhs_axis0 (j : S8192x8192.Idx) (k : dot_S8192x128_S8192x128_S8192x8192_1_1_0_0_n_n.contr.Idx) :
    (dot_S8192x128_S8192x128_S8192x8192_1_1_0_0_n_n.lhsIdx j k 0).val = (j 0).val := by
  simp [DotDims.lhsIdx, dot_S8192x128_S8192x128_S8192x8192_1_1_0_0_n_n]; rfl

theorem lhs_axis1 (j : S8192x8192.Idx) (k : dot_S8192x128_S8192x128_S8192x8192_1_1_0_0_n_n.contr.Idx) :
    (dot_S8192x128_S8192x128_S8192x8192_1_1_0_0_n_n.lhsIdx j k 1).val = (k ⟨0, Nat.one_pos⟩).val :=
  dot_S8192x128_S8192x128_S8192x8192_1_1_0_0_n_n.lhsIdx_val_of_single rfl j k

theorem rhs_axis0 (j : S8192x8192.Idx) (k : dot_S8192x128_S8192x128_S8192x8192_1_1_0_0_n_n.contr.Idx) :
    (dot_S8192x128_S8192x128_S8192x8192_1_1_0_0_n_n.rhsIdx j k 0).val = (j 1).val := by
  simp [DotDims.rhsIdx, dot_S8192x128_S8192x128_S8192x8192_1_1_0_0_n_n]; rfl

theorem rhs_axis1 (j : S8192x8192.Idx) (k : dot_S8192x128_S8192x128_S8192x8192_1_1_0_0_n_n.contr.Idx) :
    (dot_S8192x128_S8192x128_S8192x8192_1_1_0_0_n_n.rhsIdx j k 1).val = (k ⟨0, Nat.one_pos⟩).val :=
  dot_S8192x128_S8192x128_S8192x8192_1_1_0_0_n_n.rhsIdx_val_of_single rfl j k

/-- Entry (i, j) of the product of two 8192 × 128 matrices contracted over their features. -/
theorem dot_apply (a b : FVec Ideal S8192x128 .f32) (i j : Fin 8192) :
    Host.dotGeneral (F := Ideal) dot_S8192x128_S8192x128_S8192x8192_1_1_0_0_n_n none a b (ix2 i j)
      = ∑ k : Fin 128, a (ix2 i k) * b (ix2 j k) := by
  simp only [Host.dotGeneral]
  refine (Ideal.dotGeneral_apply dot_S8192x128_S8192x128_S8192x8192_1_1_0_0_n_n none _ a b (ix2 i j)).trans ?_
  rw [← Equiv.sum_comp (contrEquiv1 dot_S8192x128_S8192x128_S8192x8192_1_1_0_0_n_n 128 rfl rfl).symm]
  refine Finset.sum_congr rfl fun c _ => ?_
  have hc := contrEquiv1_symm_val dot_S8192x128_S8192x128_S8192x8192_1_1_0_0_n_n 128 rfl rfl c
  have hl : dot_S8192x128_S8192x128_S8192x8192_1_1_0_0_n_n.lhsIdx (ix2 i j)
      ((contrEquiv1 dot_S8192x128_S8192x128_S8192x8192_1_1_0_0_n_n 128 rfl rfl).symm c) = ix2 i c := by
    funext ax; apply Fin.ext
    match ax with
    | ⟨0, _⟩ => exact lhs_axis0 _ _
    | ⟨1, _⟩ => exact (lhs_axis1 _ _).trans hc
  have hr : dot_S8192x128_S8192x128_S8192x8192_1_1_0_0_n_n.rhsIdx (ix2 i j)
      ((contrEquiv1 dot_S8192x128_S8192x128_S8192x8192_1_1_0_0_n_n 128 rfl rfl).symm c) = ix2 j c := by
    funext ax; apply Fin.ext
    match ax with
    | ⟨0, _⟩ => exact rhs_axis0 _ _
    | ⟨1, _⟩ => exact (rhs_axis1 _ _).trans hc
  rw [hl, hr]

/-! ## The score matrix at an entry -/

/-- Entry (i, j) of the similarity matrix is the inner product of row i of the first input and row j of the second. -/
theorem sim_apply (x y : FVec Ideal S512x16x128 .f32) (i j : Fin 8192) :
    sim (F := Ideal) x y (ix2 i j) = Cert.Loss.inner (Cert.Loss.rowsOf x) (Cert.Loss.rowsOf y) i j := by
  unfold sim Cert.Loss.inner
  refine (dot_apply _ _ i j).trans ?_
  exact Finset.sum_congr rfl fun k _ => by rw [reshape_apply, reshape_apply]

/-- The masking and scaling at an entry: the fill value where the bit is 1, the entry elsewhere, over the temperature. -/
theorem maskScale_apply (m : IVec S8192x8192 1) (s : FVec Ideal S8192x8192 .f32) (i j : Fin 8192) :
    maskScale (F := Ideal) m s (ix2 i j)
      = Ideal.div (Scalar.select (m (ix2 i j)) Cert.Loss.fill (s (ix2 i j))) Cert.Loss.tp := by
  unfold maskScale Cert.Loss.fill Cert.Loss.tp
  rw [hostDivf_apply, select_apply, broadcastInDim_scalar_apply, broadcastInDim_scalar_apply, constant_apply, constant_apply]

/-- Entry (i, j) of the reference's score matrix is the whole-row arrangement's score of the two inputs' rows. -/
theorem logits_apply (x y : FVec Ideal S512x16x128 .f32) (i j : Fin 8192) :
    logits (F := Ideal) x y (ix2 i j) = Cert.Loss.logitR (Cert.Loss.rowsOf x) (Cert.Loss.rowsOf y) i j := by
  unfold logits Cert.Loss.logitR Cert.Loss.msim
  rw [maskScale_apply, sim_apply, select_of_iff (offDiagInBlock_iff i j)]

end Cert.ReferenceIdeal.Hand

end
-- ==== Proof.RefValue.lean ====
/-
  The reference's result before its guard, at the ideal instance, is the whole-row loss of the two inputs' rows.

  The value before the guard is the half of the sum of two negated diagonal means: of the log-softmax of the score
  matrix and of the log-softmax of its transpose. Entry `(r, r)` of a log-softmax is the row's cross-entropy term at its
  own index; the score matrix at `(i, j)` is the scaled masked similarity of row `i` of the first input and row `j` of the
  second, and its transpose at `(i, j)` is that at `(j, i)`.
-/
import proofs.«116349_j13649406066960_1_alg».proof.Proof.RefSoft
import proofs.«116349_j13649406066960_1_alg».proof.Proof.RefLogits
import proofs.«116349_j13649406066960_1_alg».proof.Proof.Rows

noncomputable section

namespace Cert.ReferenceIdeal.Hand

open Cert.ReferenceIdeal Idealize.ShloMosaic Idealize.ShloMosaic.ValueIdx
open Facts₀ Facts

variable [Facts]

/-- The transpose of a square matrix, read at `(i, j)`. -/
theorem transpose_ix2 (L : FVec Ideal S8192x8192 .f32) (i j : Fin 8192) :
    transpose S8192x8192 [1, 0] L transposes_S8192x8192_S8192x8192_1_0 (ix2 i j) = L (ix2 j i) := by
  refine transpose_apply [1, 0] L transposes_S8192x8192_S8192x8192_1_0 (ix2 i j) (ix2 j i) fun b => ?_
  match b with
  | ⟨0, _⟩ => rfl
  | ⟨1, _⟩ => rfl

/-- The value before the guard is the whole-row loss of the rows of the two inputs. -/
theorem preTail_ideal (x y : FVec Ideal S512x16x128 .f32) (idx : S_.Idx) :
    preTail (F := Ideal) x y idx = Cert.Loss.lossR (Cert.Loss.rowsOf x) (Cert.Loss.rowsOf y) := by
  -- the score matrix and its transpose as plain matrices
  have hL : (fun a b : Fin 8192 => logits (F := Ideal) x y (ix2 a b))
      = Cert.Loss.logitR (Cert.Loss.rowsOf x) (Cert.Loss.rowsOf y) :=
    funext fun a => funext fun b => logits_apply x y a b
  have ht : ∀ a b : Fin 8192,
      transpose S8192x8192 [1, 0] (logits (F := Ideal) x y) transposes_S8192x8192_S8192x8192_1_0 (ix2 a b)
        = Cert.Loss.logitR (Cert.Loss.rowsOf x) (Cert.Loss.rowsOf y) b a :=
    fun a b => (transpose_ix2 _ a b).trans (logits_apply x y b a)
  have hT : (fun a b : Fin 8192 =>
        transpose S8192x8192 [1, 0] (logits (F := Ideal) x y) transposes_S8192x8192_S8192x8192_1_0 (ix2 a b))
      = fun a b => Cert.Loss.logitR (Cert.Loss.rowsOf x) (Cert.Loss.rowsOf y) b a :=
    funext fun a => funext fun b => ht a b
  -- the diagonal of each log-softmax is the row's cross-entropy term
  have h1 : ∀ r : Fin 8192, logSoftmax (F := Ideal) (logits x y) (ix2 r r)
      = Cert.Loss.lsmDiag (Cert.Loss.logitR (Cert.Loss.rowsOf x) (Cert.Loss.rowsOf y)) r := by
    intro r
    rw [logSoftmax_apply, hL]
    unfold Cert.Loss.lsmDiag
    simp only [logits_apply]
  have h2 : ∀ r : Fin 8192,
      logSoftmax (F := Ideal) (transpose S8192x8192 [1, 0] (logits x y) transposes_S8192x8192_S8192x8192_1_0) (ix2 r r)
      = Cert.Loss.lsmDiag (fun i j => Cert.Loss.logitR (Cert.Loss.rowsOf x) (Cert.Loss.rowsOf y) j i) r := by
    intro r
    rw [logSoftmax_apply, hT]
    unfold Cert.Loss.lsmDiag
    simp only [ht]
  show Host.divf
      (addf (negMeanAt (logSoftmax (logits x y)) (wrapIds rowIds) (wrapIds rowIds))
        (negMeanAt (logSoftmax (transpose S8192x8192 [1, 0] (logits x y) transposes_S8192x8192_S8192x8192_1_0))
          (wrapIds rowIds) (wrapIds rowIds)))
      (constant (F := Ideal) S_ .f32 0x40000000#32) idx = _
  rw [hostDivf_apply, addf_apply, negMeanAt_apply, negMeanAt_apply, constant_apply]
  unfold Cert.Loss.lossR Cert.Loss.ceR Cert.Loss.twoE
  simp only [h1, h2]

end Cert.ReferenceIdeal.Hand

end
-- ==== Proof.Algebra.lean ====
/-
  The two arrangements of the loss agree on finite inputs.

  With every feature real, every similarity and every scaled score is real, and dividing by the temperature
  5368709 / 2²⁹ is multiplying by its reciprocal. For a real row x over the 8192 columns and ANY real shift M,
  M + log Σ exp (x − M) = log Σ exp x. The streaming arrangement's running maximum and the whole-row
  arrangement's row maximum are two such shifts, so each row's log-sum-exp is log Σ exp x in both. When the
  running maximum grows from m to m', the running sum is multiplied by exp (m − m'), which turns Σ exp (x − m)
  over the columns seen into Σ exp (x − m'); at the first tile m = −∞ and the factor exp (−∞) = 0 meets the sum 0.
  The sixteen tiles of 512 columns enumerate the 8192 columns once each; exactly one column of a row is its own
  index, and it is not masked. The mean and the negation pass through the finite sums of reals.
-/
import proofs.«116349_j13649406066960_1_alg».proof.Proof.Spec
import proofs.«116349_j13649406066960_1_alg».proof.Proof.Consts
import Mathlib.Analysis.SpecialFunctions.Log.Basic

noncomputable section

namespace Cert.Loss

open Idealize.ShloMosaic

/-! ## The constants -/

theorem fill_eq : fill = ((-10000 : ℝ) : EReal) := Cert.Consts.ofBits_fill

theorem tp_eq : tp = ((5368709 / 536870912 : ℝ) : EReal) := Cert.Consts.ofBits_temp

theorem rowsE_eq : rowsE = ((8192 : ℝ) : EReal) := Cert.Consts.ofBits_rows

/-! ## Finite sums of reals among the extended reals -/

theorem sum_coe {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- The maximum of finitely many reals (at least one) is a real. -/
theorem fold_max_coe {n : ℕ} (g : Fin n → ℝ) (s : Finset (Fin n)) (hs : s.Nonempty) :
    ∃ M : ℝ, s.fold max ⊥ (fun i => (g i : EReal)) = (M : EReal) := by
  classical
  induction s using Finset.induction_on with
  | empty => exact absurd hs (by simp)
  | insert a s ha ih =>
    rw [Finset.fold_insert ha]
    by_cases h : s.Nonempty
    · obtain ⟨M, hM⟩ := ih h
      exact ⟨max (g a) M, by rw [hM, EReal.coe_strictMono.monotone.map_max]⟩
    · rw [Finset.not_nonempty_iff_eq_empty] at h
      subst h
      exact ⟨g a, by simp⟩

theorem vmax_coe {n : ℕ} (hn : 0 < n) (g : Fin n → ℝ) :
    ∃ M : ℝ, vmax (fun i => (g i : EReal)) = (M : EReal) :=
  fold_max_coe g Finset.univ ⟨⟨0, hn⟩, Finset.mem_univ _⟩

/-! ## The real mirrors -/

/-- A real feature matrix. -/
abbrev RMat : Type := Fin 8192 → Fin 128 → ℝ

/-- Its entries among the extended reals. -/
def emb (a : RMat) : Mat := fun i k => (a i k : EReal)

def innerR (a b : RMat) (i j : Fin 8192) : ℝ := ∑ k : Fin 128, a i k * b j k

/-- The scaled masked similarity as a real. -/
def score (a b : RMat) (i j : Fin 8192) : ℝ :=
  (if masked i j then (-10000 : ℝ) else innerR a b i j) * (536870912 / 5368709)

/-- A real row's log-sum-exp. -/
def lse (x : Fin 8192 → ℝ) : ℝ := Real.log (∑ c : Fin 8192, Real.exp (x c))

/-- A real score matrix's mean row cross entropy. -/
def ce (x : Fin 8192 → Fin 8192 → ℝ) : ℝ := (∑ r : Fin 8192, (lse (x r) - x r r)) * (1 / 8192)

theorem inner_emb (a b : RMat) (i j : Fin 8192) : inner (emb a) (emb b) i j = (innerR a b i j : EReal) := by
  unfold inner innerR emb
  simp only [← EReal.coe_mul, sum_coe]

theorem msim_emb (a b : RMat) (i j : Fin 8192) :
    msim (emb a) (emb b) i j = ((if masked i j then (-10000 : ℝ) else innerR a b i j : ℝ) : EReal) := by
  unfold msim
  split_ifs
  · exact fill_eq
  · exact inner_emb a b i j

theorem logitK_emb (a b : RMat) (r : Fin 8192) (j : Fin 16) (q : Fin 512) :
    logitK (emb a) (emb b) r j q = (score a b r (col j q) : EReal) := by
  unfold logitK score rt
  rw [msim_emb, ← EReal.coe_mul]

theorem logitR_emb (a b : RMat) (i j : Fin 8192) : logitR (emb a) (emb b) i j = (score a b i j : EReal) := by
  unfold logitR score
  rw [tp_eq, Ideal.div_coe (by norm_num : (5368709 / 536870912 : ℝ) ≠ 0), msim_emb, ← EReal.coe_mul]
  congr 2
  norm_num

theorem not_masked_self (i : Fin 8192) : ¬ masked i i := fun h => h.2 rfl

theorem masked_symm (i j : Fin 8192) : masked i j ↔ masked j i := by
  unfold masked
  constructor <;> exact fun h => ⟨h.1.symm, h.2.symm⟩

theorem diag_emb (a b : RMat) (r : Fin 8192) : inner (emb a) (emb b) r r * rt = (score a b r r : EReal) := by
  unfold score rt
  rw [if_neg (not_masked_self r), inner_emb, ← EReal.coe_mul]

theorem innerR_comm (a b : RMat) (i j : Fin 8192) : innerR b a i j = innerR a b j i := by
  unfold innerR
  exact Finset.sum_congr rfl fun k _ => mul_comm _ _

theorem score_comm (a b : RMat) (i j : Fin 8192) : score b a i j = score a b j i := by
  unfold score
  rw [innerR_comm]
  by_cases h : masked i j
  · rw [if_pos h, if_pos ((masked_symm i j).1 h)]
  · rw [if_neg h, if_neg (fun h' => h ((masked_symm j i).1 h'))]

/-! ## Log-sum-exp does not depend on the shift -/

theorem sum_exp_pos (x : Fin 8192 → ℝ) : 0 < ∑ c : Fin 8192, Real.exp (x c) :=
  Finset.sum_pos (fun _ _ => Real.exp_pos _) ⟨⟨0, by norm_num⟩, Finset.mem_univ _⟩

theorem lse_shift (x : Fin 8192 → ℝ) (M : ℝ) :
    M + Real.log (∑ c : Fin 8192, Real.exp (x c - M)) = lse x := by
  have h : ∑ c : Fin 8192, Real.exp (x c - M) = Real.exp (-M) * ∑ c : Fin 8192, Real.exp (x c) := by
    rw [Finset.mul_sum]
    refine Finset.sum_congr rfl fun c _ => ?_
    rw [← Real.exp_add]
    congr 1
    ring
  rw [h, Real.log_mul (Real.exp_ne_zero _) (sum_exp_pos x).ne', Real.log_exp]
  unfold lse
  ring

/-! ## The sixteen tiles enumerate the columns -/

theorem col_bijective : Function.Bijective (fun p : Fin 16 × Fin 512 => col p.1 p.2) := by
  rw [Fintype.bijective_iff_injective_and_card]
  constructor
  · rintro ⟨j, q⟩ ⟨j', q'⟩ h
    have hv : 512 * j.val + q.val = 512 * j'.val + q'.val := congrArg Fin.val h
    have hq := q.isLt
    have hq' := q'.isLt
    have h1 : j.val = j'.val := by omega
    have h2 : q.val = q'.val := by omega
    exact Prod.ext (Fin.ext h1) (Fin.ext h2)
  · simp [Fintype.card_prod]

theorem sum_tiles (f : Fin 8192 → ℝ) :
    ∑ j : Fin 16, ∑ q : Fin 512, f (col j q) = ∑ c : Fin 8192, f c := by
  rw [← Fintype.sum_prod_type' (fun j q => f (col j q))]
  exact Fintype.sum_bijective _ col_bijective _ _ (fun _ => rfl)

/-! ## The streaming recurrence over a real row -/

section Streaming

variable (A B : Mat) (r : Fin 8192) (y : Fin 8192 → ℝ)

theorem tile_vmax (hx : ∀ j q, logitK A B r j q = (y (col j q) : EReal)) (j : Fin 16) :
    ∃ Mt : ℝ, vmax (fun q => logitK A B r j q) = (Mt : EReal) := by
  simp only [hx]
  exact vmax_coe (by norm_num) (fun q => y (col j q))

theorem diag_term (hd : inner A B r r * rt = (y r : EReal)) (j : Fin 16) (q : Fin 512) :
    (if r = col j q then inner A B r (col j q) * rt else 0)
      = (((if r = col j q then y r else 0 : ℝ)) : EReal) := by
  split_ifs with h
  · rw [← h]; exact hd
  · exact EReal.coe_zero.symm

/-- One tile folded into real statistics: the maximum stays real, the sum is rescaled, the diagonal sum grows. -/
theorem stepK_real (hx : ∀ j q, logitK A B r j q = (y (col j q) : EReal))
    (hd : inner A B r r * rt = (y r : EReal)) (s : EReal × EReal × EReal) (j : Fin 16) (M S D : ℝ)
    (h1 : s.1 = (M : EReal)) (h2 : s.2.1 = (S : EReal)) (h3 : s.2.2 = (D : EReal)) :
    ∃ M' : ℝ, (stepK A B r s j).1 = (M' : EReal) ∧
      (stepK A B r s j).2.1
        = ((Real.exp (M - M') * S + ∑ q : Fin 512, Real.exp (y (col j q) - M') : ℝ) : EReal) ∧
      (stepK A B r s j).2.2 = ((D + ∑ q : Fin 512, (if r = col j q then y r else 0) : ℝ) : EReal) := by
  obtain ⟨Mt, hMt⟩ := tile_vmax A B r y hx j
  have hm : max s.1 (vmax fun q => logitK A B r j q) = ((max M Mt : ℝ) : EReal) := by
    rw [h1, hMt, EReal.coe_strictMono.monotone.map_max]
  refine ⟨max M Mt, hm, ?_, ?_⟩
  · show Ideal.exp (s.1 - max s.1 (vmax fun q => logitK A B r j q)) * s.2.1
        + ∑ q : Fin 512, Ideal.exp (logitK A B r j q - max s.1 (vmax fun q => logitK A B r j q)) = _
    rw [hm, h1, h2]
    simp only [hx, ← EReal.coe_sub, Ideal.exp_coe, ← EReal.coe_mul, sum_coe, ← EReal.coe_add]
  · show s.2.2 + ∑ q : Fin 512, (if r = col j q then inner A B r (col j q) * rt else 0) = _
    rw [h3]
    simp only [diag_term A B r y hd, sum_coe, ← EReal.coe_add]

/-- The first tile, from −∞, 0, 0. -/
theorem stepK_bot (hx : ∀ j q, logitK A B r j q = (y (col j q) : EReal))
    (hd : inner A B r r * rt = (y r : EReal)) (j : Fin 16) :
    ∃ M' : ℝ, (stepK A B r (⊥, 0, 0) j).1 = (M' : EReal) ∧
      (stepK A B r (⊥, 0, 0) j).2.1 = ((∑ q : Fin 512, Real.exp (y (col j q) - M') : ℝ) : EReal) ∧
      (stepK A B r (⊥, 0, 0) j).2.2 = ((∑ q : Fin 512, (if r = col j q then y r else 0) : ℝ) : EReal) := by
  obtain ⟨Mt, hMt⟩ := tile_vmax A B r y hx j
  have hm : max (⊥ : EReal) (vmax fun q => logitK A B r j q) = (Mt : EReal) := by
    rw [hMt]; exact max_eq_right bot_le
  refine ⟨Mt, hm, ?_, ?_⟩
  · show Ideal.exp ((⊥ : EReal) - max (⊥ : EReal) (vmax fun q => logitK A B r j q)) * (0 : EReal)
        + ∑ q : Fin 512, Ideal.exp (logitK A B r j q - max (⊥ : EReal) (vmax fun q => logitK A B r j q)) = _
    rw [hm, EReal.bot_sub, Ideal.exp_bot, mul_zero, zero_add]
    simp only [hx, ← EReal.coe_sub, Ideal.exp_coe, sum_coe]
  · show (0 : EReal) + ∑ q : Fin 512, (if r = col j q then inner A B r (col j q) * rt else 0) = _
    rw [zero_add]
    simp only [diag_term A B r y hd, sum_coe]

end Streaming

/-! ## The statistics after tiles 0 … n -/

/-- Tiles `0 … n`. -/
def upto (n : ℕ) : Finset (Fin 16) := Finset.univ.filter (fun j : Fin 16 => j.val ≤ n)

theorem upto_succ (n : ℕ) (h : n + 1 < 16) : upto (n + 1) = insert ⟨n + 1, h⟩ (upto n) := by
  ext j
  simp only [upto, Finset.mem_filter, Finset.mem_univ, true_and, Finset.mem_insert, Fin.ext_iff]
  omega

theorem not_mem_upto (n : ℕ) (h : n + 1 < 16) : (⟨n + 1, h⟩ : Fin 16) ∉ upto n := by
  simp [upto]

theorem upto_zero : upto 0 = {⟨0, by norm_num⟩} := by
  ext j
  simp only [upto, Finset.mem_filter, Finset.mem_univ, true_and, Finset.mem_singleton, Fin.ext_iff]
  omega

theorem upto_last : upto 15 = Finset.univ := by
  ext j
  have := j.isLt
  simp only [upto, Finset.mem_filter, Finset.mem_univ, true_and, iff_true]
  omega

section Stats

variable (A B : Mat) (r : Fin 8192) (y : Fin 8192 → ℝ)

theorem statsK_real (hx : ∀ j q, logitK A B r j q = (y (col j q) : EReal))
    (hd : inner A B r r * rt = (y r : EReal)) : ∀ (n : ℕ) (h : n < 16), ∃ M : ℝ,
      (statsK A B r n h).1 = (M : EReal) ∧
      (statsK A B r n h).2.1
        = ((∑ j ∈ upto n, ∑ q : Fin 512, Real.exp (y (col j q) - M) : ℝ) : EReal) ∧
      (statsK A B r n h).2.2
        = ((∑ j ∈ upto n, ∑ q : Fin 512, (if r = col j q then y r else 0) : ℝ) : EReal)
  | 0, h => by
    obtain ⟨M, h1, h2, h3⟩ := stepK_bot A B r y hx hd ⟨0, h⟩
    refine ⟨M, h1, ?_, ?_⟩
    · rw [upto_zero, Finset.sum_singleton]; exact h2
    · rw [upto_zero, Finset.sum_singleton]; exact h3
  | n + 1, h => by
    obtain ⟨M, h1, h2, h3⟩ := statsK_real hx hd n (Nat.lt_of_succ_lt h)
    obtain ⟨M', g1, g2, g3⟩ := stepK_real A B r y hx hd _ ⟨n + 1, h⟩ M _ _ h1 h2 h3
    have e : statsK A B r (n + 1) h = stepK A B r (statsK A B r n (Nat.lt_of_succ_lt h)) ⟨n + 1, h⟩ := rfl
    refine ⟨M', e ▸ g1, ?_, ?_⟩
    · rw [e, g2, upto_succ n h, Finset.sum_insert (not_mem_upto n h)]
      congr 1
      rw [add_comm]
      congr 1
      rw [Finset.mul_sum]
      refine Finset.sum_congr rfl fun j _ => ?_
      rw [Finset.mul_sum]
      refine Finset.sum_congr rfl fun q _ => ?_
      rw [← Real.exp_add]
      congr 1
      ring
    · rw [e, g3, upto_succ n h, Finset.sum_insert (not_mem_upto n h), add_comm]

/-- A streamed row's cross entropy is the real row's log-sum-exp less its diagonal score. -/
theorem rowK_real (hx : ∀ j q, logitK A B r j q = (y (col j q) : EReal))
    (hd : inner A B r r * rt = (y r : EReal)) : lseK A B r - diagK A B r = ((lse y - y r : ℝ) : EReal) := by
  obtain ⟨M, h1, h2, h3⟩ := statsK_real A B r y hx hd 15 (by decide)
  rw [upto_last, sum_tiles (fun c => Real.exp (y c - M))] at h2
  rw [upto_last, sum_tiles (fun c => if r = c then y r else 0), Finset.sum_ite_eq Finset.univ r (fun _ => y r),
    if_pos (Finset.mem_univ r)] at h3
  have hpos : 0 < ∑ c : Fin 8192, Real.exp (y c - M) := sum_exp_pos (fun c => y c - M)
  unfold lseK diagK
  rw [h1, h2, h3, Ideal.log_coe, if_neg (not_le.mpr hpos), ← EReal.coe_add, lse_shift, ← EReal.coe_sub]

end Stats

/-! ## The whole-row arrangement over a real score matrix -/

theorem rowR_real (L : Fin 8192 → Fin 8192 → EReal) (x : Fin 8192 → Fin 8192 → ℝ)
    (hL : ∀ i j, L i j = (x i j : EReal)) (i : Fin 8192) :
    lsmDiag L i = ((x i i - lse (x i) : ℝ) : EReal) := by
  obtain ⟨M, hM⟩ := vmax_coe (by norm_num : 0 < 8192) (fun j => x i j)
  have hm : rmax L i = (M : EReal) := by
    unfold rmax
    simp only [hL]
    rw [hM]
    exact max_eq_right bot_le
  have hpos : 0 < ∑ c : Fin 8192, Real.exp (x i c - M) := sum_exp_pos (fun c => x i c - M)
  unfold lsmDiag
  rw [hm, zero_add]
  simp only [hL, ← EReal.coe_sub, Ideal.exp_coe, sum_coe]
  rw [Ideal.log_coe, if_neg (not_le.mpr hpos), ← EReal.coe_sub, EReal.coe_eq_coe_iff]
  rw [← lse_shift (x i) M]
  ring

/-! ## The means -/

theorem div_rows (z : ℝ) : Ideal.div (0 + (z : EReal)) rowsE = ((z * (1 / 8192) : ℝ) : EReal) := by
  rw [zero_add, rowsE_eq, Ideal.div_coe (by norm_num : (8192 : ℝ) ≠ 0), ← EReal.coe_mul]

theorem ceK_real (A B : Mat) (x : Fin 8192 → Fin 8192 → ℝ)
    (hx : ∀ r j q, logitK A B r j q = (x r (col j q) : EReal))
    (hd : ∀ r, inner A B r r * rt = (x r r : EReal)) : ceK A B = (ce x : EReal) := by
  unfold ceK ce
  simp only [fun r => rowK_real A B r (x r) (hx r) (hd r), sum_coe]
  exact div_rows _

theorem ceR_real (L : Fin 8192 → Fin 8192 → EReal) (x : Fin 8192 → Fin 8192 → ℝ)
    (hL : ∀ i j, L i j = (x i j : EReal)) : ceR L = (ce x : EReal) := by
  unfold ceR ce
  simp only [rowR_real L x hL, sum_coe]
  rw [div_rows, ← EReal.coe_neg, EReal.coe_eq_coe_iff]
  rw [← neg_mul, ← Finset.sum_neg_distrib]
  simp only [neg_sub]

/-! ## The two arrangements agree -/

theorem lossK_eq_lossR_emb (a b : RMat) : lossK (emb a) (emb b) = lossR (emb a) (emb b) := by
  have h1 : ceK (emb a) (emb b) = ceR (logitR (emb a) (emb b)) := by
    rw [ceK_real (emb a) (emb b) (score a b) (fun r j q => logitK_emb a b r j q) (fun r => diag_emb a b r),
      ceR_real (logitR (emb a) (emb b)) (score a b) (fun i j => logitR_emb a b i j)]
  have h2 : ceK (emb b) (emb a) = ceR (fun i j => logitR (emb a) (emb b) j i) := by
    rw [ceK_real (emb b) (emb a) (score b a) (fun r j q => logitK_emb b a r j q) (fun r => diag_emb b a r),
      ceR_real (fun i j => logitR (emb a) (emb b) j i) (score b a)
        (fun i j => by rw [logitR_emb, score_comm])]
  unfold lossK lossR
  rw [h1, h2]

theorem exists_emb (a : Mat) (ha : ∀ i k, a i k ≠ ⊥ ∧ a i k ≠ ⊤) : ∃ a' : RMat, a = emb a' :=
  ⟨fun i k => (a i k).toReal, by
    funext i k
    exact (EReal.coe_toReal (ha i k).2 (ha i k).1).symm⟩

/-- On finite inputs the streaming arrangement and the whole-row arrangement compute one loss. -/
theorem lossK_eq_lossR (a b : Mat) (ha : ∀ i k, a i k ≠ ⊥ ∧ a i k ≠ ⊤) (hb : ∀ i k, b i k ≠ ⊥ ∧ b i k ≠ ⊤) :
    lossK a b = lossR a b := by
  obtain ⟨a', rfl⟩ := exists_emb a ha
  obtain ⟨b', rfl⟩ := exists_emb b hb
  exact lossK_eq_lossR_emb a' b'

end Cert.Loss

end
-- ==== Proof.Finite.lean ====
/-
  The precondition read back: every entry of both inputs is a real number.

  The printed predicate is `all(|x| < +∞) ∧ all(|y| < +∞)` as two reductions by `and` from 1; that it is 1 gives
  `|x i| < +∞` at every index, and on the extended reals `max x (−x) < ⊤` excludes both infinities.
-/
import proofs.«116349_j13649406066960_1_alg».proof.Pre_finite_inputs
import proofs.«116349_j13649406066960_1_alg».proof.Proof.Gen.Pre_finite_inputs
import Idealize.ShloMosaic.Lib.ReduceAll
import Idealize.ShloMosaic.PureOps.Ideal
import Idealize.ShloMosaic.PureOps.Ideal.Laws
import proofs.«116349_j13649406066960_1_alg».proof.Proof.Consts

noncomputable section

namespace Cert.Pre_finite_inputs.Hand

open Idealize.ShloMosaic Cert.Pre_finite_inputs

instance : Subsingleton S_.Idx := ⟨fun a b => funext fun d => d.elim0⟩

/-- An extended real whose absolute value is below +∞ is neither infinity. -/
theorem finite_of_abs_lt (x : EReal) (h : max x (-x) < ⊤) : x ≠ ⊥ ∧ x ≠ ⊤ := by
  constructor
  · rintro rfl; simp at h
  · rintro rfl; simp at h

/-- One `all(|x| < +∞)` that is 1 makes every entry finite. -/
theorem finite_of_all [Facts] (x : FVec Ideal S512x16x128 .f32)
    (h : (Host.reduce IntOp.andi (cmpf .olt (Host.absf x) (broadcastInDim S512x16x128 ![] Facts.bcast_S_S512x16x128 (constant (F := Ideal) S_ .f32 0x7F800000#32)))
        (constantI S_ 1 1#1) Facts.reducesTo_S512x16x128_S_d0_1_2 Facts.h_S_) (fun d => d.elim0) = 1#1) (i : S512x16x128.Idx) :
    x i ≠ ⊥ ∧ x i ≠ ⊤ := by
  have e := Host.reduce_andi_all _ _ _ _ _ h i
  refine finite_of_abs_lt (x i) ?_
  simp only [cmpf, Host.absf, broadcastInDim, constant, Ideal.cmpf_def, Ideal.hostAbsf_def, Ideal.absf_def, Ideal.ofBits_def, Cert.Consts.ofBits_inf, Ideal.cmp] at e
  by_contra hn
  rw [show decide (max (x i) (-x i) < ⊤) = false from decide_eq_false hn] at e
  exact absurd e (by decide)

/-- The precondition: both inputs hold only real numbers. -/
theorem finite_of_pre [Facts] (x y : FVec Ideal S512x16x128 .f32) (h : fn (F := Ideal) x y = fun _ => 1#1) :
    (∀ i, x i ≠ ⊥ ∧ x i ≠ ⊤) ∧ (∀ i, y i ≠ ⊥ ∧ y i ≠ ⊤) := by
  have h0 := congrFun h (fun d => d.elim0)
  dsimp only [fn] at h0
  obtain ⟨hx, hy⟩ := IntOp.andi_eq_one.1 h0
  exact ⟨finite_of_all x hx, finite_of_all y hy⟩

end Cert.Pre_finite_inputs.Hand

end
-- ==== Proof.lean ====
/-
  The certificate: a streaming log-sum-exp kernel computes the symmetric cross-entropy loss of its reference.

  The reference forms the 8192 × 8192 matrix of similarities of the rows of its two inputs, replaces the
  off-diagonal entries inside each group of 16 rows by a fill value, divides by a temperature, and takes the mean
  cross entropy of every row against its own index, for the matrix and for its transpose; it halves the sum of the
  two means and guards the result against a non-number. The kernel never forms the matrix: two launches walk it
  tile by tile, one by rows and one by columns, keeping per row a running maximum, a running sum of exponentials
  relative to it and the diagonal term, multiplying by the temperature's reciprocal where the reference divides.

  * The three frames: the kernel's two instances run to the end with their arguments unchanged because every grid
    point's body is one step of the streaming recurrence on buffers it owns, and the launches and the host lines
    between them hand the buffers on; the reference is a line of host operations.
  * The idealization names the kernel's constant 100 as the exact reciprocal of the reference's temperature word;
    its four sites are the four conjuncts.
  * At the ideal instance, for inputs of real numbers, the streaming statistics after the last column tile are the
    row maximum and the sum of exponentials relative to it (rescaling by `exp (m − m')` commutes with the sum), so
    each row's `max + log sum − diagonal` is minus its log-softmax at the diagonal; the two means agree, and the
    same guard is applied to the same number.
-/
import proofs.«116349_j13649406066960_1_alg».proof.Defs
import proofs.«116349_j13649406066960_1_alg».proof.Proof.Gen.Kernel
import proofs.«116349_j13649406066960_1_alg».proof.Proof.Gen.KernelIdeal
import proofs.«116349_j13649406066960_1_alg».proof.Proof.Gen.ReferenceIdeal
import proofs.«116349_j13649406066960_1_alg».proof.Proof.Gen.Pre_finite_inputs
import proofs.«116349_j13649406066960_1_alg».proof.Proof.BLaunch
import proofs.«116349_j13649406066960_1_alg».proof.Proof.KFinal
import proofs.«116349_j13649406066960_1_alg».proof.Proof.RefRun
import proofs.«116349_j13649406066960_1_alg».proof.Proof.RefValue
import proofs.«116349_j13649406066960_1_alg».proof.Proof.Algebra
import proofs.«116349_j13649406066960_1_alg».proof.Proof.Finite
import Idealize.ShloMosaic.PureOps.IdealRules

noncomputable section

namespace Cert.Proof

open Idealize.ShloMosaic Idealize.ShloMosaic.TcCoe Idealize.SL.Sem

/-- The word-level kernel runs to the end and leaves its arguments as launched. -/
theorem frame_kernel : Cert.frame_Kernel := fun m ρ _ =>
  (θ_run (Cert.Kernel.defs (F := Bits)) _ _).mono (fun _ h c => (h c).2) (Cert.Kernel.Online.run_values (F := Bits) m ρ)

/-- So does its idealization. -/
theorem frame_kernelIdeal : Cert.frame_KernelIdeal := fun m ρ _ =>
  (θ_run (Cert.KernelIdeal.defs (F := Ideal)) _ _).mono (fun _ h c => (h c).2) (Cert.KernelIdeal.Online.run_values (F := Ideal) m ρ)

/-- And the reference: its run with the result dropped. -/
theorem frame_referenceIdeal : Cert.frame_ReferenceIdeal := fun m ρ _ =>
  (θ_run (Cert.ReferenceIdeal.defs (F := Ideal)) _ _).mono (fun _ h c => (h c).2) (Cert.ReferenceIdeal.Hand.run (F := Ideal) m ρ)

/-- The named constant: the certificate's table gives the temperature's reciprocal the value 2²⁹ / 5368709, and
    the printed constant is that value at the ideal instance; one conjunct per site. -/
theorem preserves : Cert.preserves_Kernel_KernelIdeal :=
  have h := IdealRules.named_const.statement Cert.KernelIdeal.κ "inv_temperature" .f32 0x42C80000#32
    ((536870912 / 5368709 : ℝ) : EReal) rfl
  ⟨h, h, h, h⟩

/-- The rows of an input of real numbers are real. -/
theorem rows_finite (x : FVec Ideal (⟨3, ![512, 16, 128]⟩ : Shape) .f32) (h : ∀ i, x i ≠ ⊥ ∧ x i ≠ ⊤) (i : Fin 8192) (k : Fin 128) :
    Cert.Loss.rowsOf x i k ≠ ⊥ ∧ Cert.Loss.rowsOf x i k ≠ ⊤ := h _

/-- From memories agreeing on the arguments both idealized programs end at the guarded loss of the inputs' rows:
    the kernel at the streaming arrangement, the reference at the whole-row one, equal for real inputs. -/
theorem algebraic : Cert.algebraic_KernelIdeal_ReferenceIdeal := by
  intro m ρ m' ρ' hpre hagree
  refine ⟨_, Cert.KernelIdeal.Online.kernel_value m ρ, ?_⟩
  refine (θ_run (Cert.ReferenceIdeal.defs (F := Ideal)) _ _).mono (fun _ h c => ⟨(h c).1.trans ?_, (h c).2⟩)
    (Cert.ReferenceIdeal.Hand.run (F := Ideal) m' ρ')
  obtain ⟨hx, hy⟩ := Cert.Pre_finite_inputs.Hand.finite_of_pre _ _ (hpre c)
  rw [(hagree c).1, (hagree c).2, Cert.ReferenceIdeal.Hand.refTerm_eq_guardTail]
  show Cert.Loss.guard _ = Cert.Loss.guard _
  refine congrArg Cert.Loss.guard (funext fun j => ?_)
  rw [Cert.ReferenceIdeal.Hand.preTail_ideal]
  exact (Cert.Loss.lossK_eq_lossR _ _ (rows_finite _ hx) (rows_finite _ hy)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
